-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v214)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v214) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1x10x512x2x2 : Shape := ⟨5, ![1, 10, 512, 2, 2]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1x10x512x2x2 : S_.BroadcastsInDim S1x10x512x2x2 (![] : Fin 0 → Fin S1x10x512x2x2.rank)
  reducesTo_S1x10x512x2x2_S_d0_1_2_3_4 : S1x10x512x2x2.ReducesTo [0, 1, 2, 3, 4] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32768x1024 .f32) (main_arg1 : FVec F S1x10x512x2x2 .f32) (main_arg2 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1x10x512x2x2 .f32 := Host.absf main_arg1
  let main_cst_0 : FVec F S_ .f32 := constant S_ .f32 0x7F800000#32
  let main_v5 : FVec F S1x10x512x2x2 .f32 := broadcastInDim S1x10x512x2x2 ![] bcast_S_S1x10x512x2x2 main_cst_0
  let main_v6 : IVec S1x10x512x2x2 1 := cmpf .olt main_v4 main_v5
  let main_c_1 : IVec S_ 1 := constantI S_ 1 1#1
  let main_v7 : IVec S_ 1 := (fun x v => Host.reduce IntOp.andi x v reducesTo_S1x10x512x2x2_S_d0_1_2_3_4 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S32768x1024 : Shape := ⟨2, ![32768, 1024]⟩
abbrev S1x10x512x2x2 : Shape := ⟨5, ![1, 10, 512, 2, 2]⟩
abbrev S1024 : Shape := ⟨1, ![1024]⟩
abbrev S1x1x512x2x2 : Shape := ⟨5, ![1, 1, 512, 2, 2]⟩
abbrev S512x2x2 : Shape := ⟨3, ![512, 2, 2]⟩
abbrev S_ : Shape := ⟨0, ![]⟩
abbrev S1024x1 : Shape := ⟨2, ![1024, 1]⟩
abbrev S1024x2x2 : Shape := ⟨3, ![1024, 2, 2]⟩
abbrev S1024x1x1 : Shape := ⟨3, ![1024, 1, 1]⟩
abbrev S1x1024 : Shape := ⟨2, ![1, 1024]⟩
abbrev S10x1024 : Shape := ⟨2, ![10, 1024]⟩
abbrev S512x1024 : Shape := ⟨2, ![512, 1024]⟩

abbrev nBuf : Space → Nat
  | .hbm => 248
  | .vmem => 9
  | .smem => 0
  | _ => 0

abbrev hbmTy0_0 (i : Nat) : BufTy := match i % 128 with
  | 0 => ⟨S32768x1024, .f32⟩
  | 1 => ⟨S1x10x512x2x2, .f32⟩
  | 2 => ⟨S1024, .f32⟩
  | 3 => ⟨S1024, .i32⟩
  | 4 => ⟨S1024, .i32⟩
  | 5 => ⟨S1024, .i32⟩
  | 6 => ⟨S1024, .i32⟩
  | 7 => ⟨S1024, .i32⟩
  | 8 => ⟨S1024, .i32⟩
  | 9 => ⟨S1024, .i32⟩
  | 10 => ⟨S1024, .i32⟩
  | 11 => ⟨S1024, .i32⟩
  | 12 => ⟨S1024, .i32⟩
  | 13 => ⟨S1x1x512x2x2, .f32⟩
  | 14 => ⟨S512x2x2, .f32⟩
  | 15 => ⟨S_, .i32⟩
  | 16 => ⟨S1024, .i32⟩
  | 17 => ⟨S1024, .i1⟩
  | 18 => ⟨S_, .i32⟩
  | 19 => ⟨S1024, .i32⟩
  | 20 => ⟨S1024, .i32⟩
  | 21 => ⟨S1024, .i32⟩
  | 22 => ⟨S1024x1, .i32⟩
  | 23 => ⟨S1024x2x2, .f32⟩
  | 24 => ⟨S1024x1x1, .f32⟩
  | 25 => ⟨S1024, .f32⟩
  | 26 => ⟨S1024x1x1, .f32⟩
  | 27 => ⟨S1024, .f32⟩
  | 28 => ⟨S1024x1x1, .f32⟩
  | 29 => ⟨S1024, .f32⟩
  | 30 => ⟨S1024x1x1, .f32⟩
  | 31 => ⟨S1024, .f32⟩
  | 32 => ⟨S1x1x512x2x2, .f32⟩
  | 33 => ⟨S512x2x2, .f32⟩
  | 34 => ⟨S_, .i32⟩
  | 35 => ⟨S1024, .i32⟩
  | 36 => ⟨S1024, .i1⟩
  | 37 => ⟨S_, .i32⟩
  | 38 => ⟨S1024, .i32⟩
  | 39 => ⟨S1024, .i32⟩
  | 40 => ⟨S1024, .i32⟩
  | 41 => ⟨S1024x1, .i32⟩
  | 42 => ⟨S1024x2x2, .f32⟩
  | 43 => ⟨S1024x1x1, .f32⟩
  | 44 => ⟨S1024, .f32⟩
  | 45 => ⟨S1024x1x1, .f32⟩
  | 46 => ⟨S1024, .f32⟩
  | 47 => ⟨S1024x1x1, .f32⟩
  | 48 => ⟨S1024, .f32⟩
  | 49 => ⟨S1024x1x1, .f32⟩
  | 50 => ⟨S1024, .f32⟩
  | 51 => ⟨S1x1x512x2x2, .f32⟩
  | 52 => ⟨S512x2x2, .f32⟩
  | 53 => ⟨S_, .i32⟩
  | 54 => ⟨S1024, .i32⟩
  | 55 => ⟨S1024, .i1⟩
  | 56 => ⟨S_, .i32⟩
  | 57 => ⟨S1024, .i32⟩
  | 58 => ⟨S1024, .i32⟩
  | 59 => ⟨S1024, .i32⟩
  | 60 => ⟨S1024x1, .i32⟩
  | 61 => ⟨S1024x2x2, .f32⟩
  | 62 => ⟨S1024x1x1, .f32⟩
  | 63 => ⟨S1024, .f32⟩
  | 64 => ⟨S1024x1x1, .f32⟩
  | 65 => ⟨S1024, .f32⟩
  | 66 => ⟨S1024x1x1, .f32⟩
  | 67 => ⟨S1024, .f32⟩
  | 68 => ⟨S1024x1x1, .f32⟩
  | 69 => ⟨S1024, .f32⟩
  | 70 => ⟨S1x1x512x2x2, .f32⟩
  | 71 => ⟨S512x2x2, .f32⟩
  | 72 => ⟨S_, .i32⟩
  | 73 => ⟨S1024, .i32⟩
  | 74 => ⟨S1024, .i1⟩
  | 75 => ⟨S_, .i32⟩
  | 76 => ⟨S1024, .i32⟩
  | 77 => ⟨S1024, .i32⟩
  | 78 => ⟨S1024, .i32⟩
  | 79 => ⟨S1024x1, .i32⟩
  | 80 => ⟨S1024x2x2, .f32⟩
  | 81 => ⟨S1024x1x1, .f32⟩
  | 82 => ⟨S1024, .f32⟩
  | 83 => ⟨S1024x1x1, .f32⟩
  | 84 => ⟨S1024, .f32⟩
  | 85 => ⟨S1024x1x1, .f32⟩
  | 86 => ⟨S1024, .f32⟩
  | 87 => ⟨S1024x1x1, .f32⟩
  | 88 => ⟨S1024, .f32⟩
  | 89 => ⟨S1x1x512x2x2, .f32⟩
  | 90 => ⟨S512x2x2, .f32⟩
  | 91 => ⟨S_, .i32⟩
  | 92 => ⟨S1024, .i32⟩
  | 93 => ⟨S1024, .i1⟩
  | 94 => ⟨S_, .i32⟩
  | 95 => ⟨S1024, .i32⟩
  | 96 => ⟨S1024, .i32⟩
  | 97 => ⟨S1024, .i32⟩
  | 98 => ⟨S1024x1, .i32⟩
  | 99 => ⟨S1024x2x2, .f32⟩
  | 100 => ⟨S1024x1x1, .f32⟩
  | 101 => ⟨S1024, .f32⟩
  | 102 => ⟨S1024x1x1, .f32⟩
  | 103 => ⟨S1024, .f32⟩
  | 104 => ⟨S1024x1x1, .f32⟩
  | 105 => ⟨S1024, .f32⟩
  | 106 => ⟨S1024x1x1, .f32⟩
  | 107 => ⟨S1024, .f32⟩
  | 108 => ⟨S1x1x512x2x2, .f32⟩
  | 109 => ⟨S512x2x2, .f32⟩
  | 110 => ⟨S_, .i32⟩
  | 111 => ⟨S1024, .i32⟩
  | 112 => ⟨S1024, .i1⟩
  | 113 => ⟨S_, .i32⟩
  | 114 => ⟨S1024, .i32⟩
  | 115 => ⟨S1024, .i32⟩
  | 116 => ⟨S1024, .i32⟩
  | 117 => ⟨S1024x1, .i32⟩
  | 118 => ⟨S1024x2x2, .f32⟩
  | 119 => ⟨S1024x1x1, .f32⟩
  | 120 => ⟨S1024, .f32⟩
  | 121 => ⟨S1024x1x1, .f32⟩
  | 122 => ⟨S1024, .f32⟩
  | 123 => ⟨S1024x1x1, .f32⟩
  | 124 => ⟨S1024, .f32⟩
  | 125 => ⟨S1024x1x1, .f32⟩
  | 126 => ⟨S1024, .f32⟩
  | 127 => ⟨S1x1x512x2x2, .f32⟩
  | _ => ⟨S32768x1024, .f32⟩

abbrev hbmTy0_1 (i : Nat) : BufTy := match i % 128 with
  | 0 => ⟨S512x2x2, .f32⟩
  | 1 => ⟨S_, .i32⟩
  | 2 => ⟨S1024, .i32⟩
  | 3 => ⟨S1024, .i1⟩
  | 4 => ⟨S_, .i32⟩
  | 5 => ⟨S1024, .i32⟩
  | 6 => ⟨S1024, .i32⟩
  | 7 => ⟨S1024, .i32⟩
  | 8 => ⟨S1024x1, .i32⟩
  | 9 => ⟨S1024x2x2, .f32⟩
  | 10 => ⟨S1024x1x1, .f32⟩
  | 11 => ⟨S1024, .f32⟩
  | 12 => ⟨S1024x1x1, .f32⟩
  | 13 => ⟨S1024, .f32⟩
  | 14 => ⟨S1024x1x1, .f32⟩
  | 15 => ⟨S1024, .f32⟩
  | 16 => ⟨S1024x1x1, .f32⟩
  | 17 => ⟨S1024, .f32⟩
  | 18 => ⟨S1x1x512x2x2, .f32⟩
  | 19 => ⟨S512x2x2, .f32⟩
  | 20 => ⟨S_, .i32⟩
  | 21 => ⟨S1024, .i32⟩
  | 22 => ⟨S1024, .i1⟩
  | 23 => ⟨S_, .i32⟩
  | 24 => ⟨S1024, .i32⟩
  | 25 => ⟨S1024, .i32⟩
  | 26 => ⟨S1024, .i32⟩
  | 27 => ⟨S1024x1, .i32⟩
  | 28 => ⟨S1024x2x2, .f32⟩
  | 29 => ⟨S1024x1x1, .f32⟩
  | 30 => ⟨S1024, .f32⟩
  | 31 => ⟨S1024x1x1, .f32⟩
  | 32 => ⟨S1024, .f32⟩
  | 33 => ⟨S1024x1x1, .f32⟩
  | 34 => ⟨S1024, .f32⟩
  | 35 => ⟨S1024x1x1, .f32⟩
  | 36 => ⟨S1024, .f32⟩
  | 37 => ⟨S1x1x512x2x2, .f32⟩
  | 38 => ⟨S512x2x2, .f32⟩
  | 39 => ⟨S_, .i32⟩
  | 40 => ⟨S1024, .i32⟩
  | 41 => ⟨S1024, .i1⟩
  | 42 => ⟨S_, .i32⟩
  | 43 => ⟨S1024, .i32⟩
  | 44 => ⟨S1024, .i32⟩
  | 45 => ⟨S1024, .i32⟩
  | 46 => ⟨S1024x1, .i32⟩
  | 47 => ⟨S1024x2x2, .f32⟩
  | 48 => ⟨S1024x1x1, .f32⟩
  | 49 => ⟨S1024, .f32⟩
  | 50 => ⟨S1024x1x1, .f32⟩
  | 51 => ⟨S1024, .f32⟩
  | 52 => ⟨S1024x1x1, .f32⟩
  | 53 => ⟨S1024, .f32⟩
  | 54 => ⟨S1024x1x1, .f32⟩
  | 55 => ⟨S1024, .f32⟩
  | 56 => ⟨S1x1x512x2x2, .f32⟩
  | 57 => ⟨S512x2x2, .f32⟩
  | 58 => ⟨S_, .i32⟩
  | 59 => ⟨S1024, .i32⟩
  | 60 => ⟨S1024, .i1⟩
  | 61 => ⟨S_, .i32⟩
  | 62 => ⟨S1024, .i32⟩
  | 63 => ⟨S1024, .i32⟩
  | 64 => ⟨S1024, .i32⟩
  | 65 => ⟨S1024x1, .i32⟩
  | 66 => ⟨S1024x2x2, .f32⟩
  | 67 => ⟨S1024x1x1, .f32⟩
  | 68 => ⟨S1024, .f32⟩
  | 69 => ⟨S1024x1x1, .f32⟩
  | 70 => ⟨S1024, .f32⟩
  | 71 => ⟨S1024x1x1, .f32⟩
  | 72 => ⟨S1024, .f32⟩
  | 73 => ⟨S1024x1x1, .f32⟩
  | 74 => ⟨S1024, .f32⟩
  | 75 => ⟨S1x1024, .f32⟩
  | 76 => ⟨S1x1024, .f32⟩
  | 77 => ⟨S1x1024, .f32⟩
  | 78 => ⟨S1x1024, .f32⟩
  | 79 => ⟨S1x1024, .f32⟩
  | 80 => ⟨S1x1024, .f32⟩
  | 81 => ⟨S1x1024, .f32⟩
  | 82 => ⟨S1x1024, .f32⟩
  | 83 => ⟨S1x1024, .f32⟩
  | 84 => ⟨S1x1024, .f32⟩
  | 85 => ⟨S10x1024, .f32⟩
  | 86 => ⟨S1x1024, .f32⟩
  | 87 => ⟨S1x1024, .f32⟩
  | 88 => ⟨S1x1024, .f32⟩
  | 89 => ⟨S1x1024, .f32⟩
  | 90 => ⟨S1x1024, .f32⟩
  | 91 => ⟨S1x1024, .f32⟩
  | 92 => ⟨S1x1024, .f32⟩
  | 93 => ⟨S1x1024, .f32⟩
  | 94 => ⟨S1x1024, .f32⟩
  | 95 => ⟨S1x1024, .f32⟩
  | 96 => ⟨S10x1024, .f32⟩
  | 97 => ⟨S1x1024, .f32⟩
  | 98 => ⟨S1x1024, .f32⟩
  | 99 => ⟨S1x1024, .f32⟩
  | 100 => ⟨S1x1024, .f32⟩
  | 101 => ⟨S1x1024, .f32⟩
  | 102 => ⟨S1x1024, .f32⟩
  | 103 => ⟨S1x1024, .f32⟩
  | 104 => ⟨S1x1024, .f32⟩
  | 105 => ⟨S1x1024, .f32⟩
  | 106 => ⟨S1x1024, .f32⟩
  | 107 => ⟨S10x1024, .f32⟩
  | 108 => ⟨S1x1024, .f32⟩
  | 109 => ⟨S1x1024, .f32⟩
  | 110 => ⟨S1x1024, .f32⟩
  | 111 => ⟨S1x1024, .f32⟩
  | 112 => ⟨S1x1024, .f32⟩
  | 113 => ⟨S1x1024, .f32⟩
  | 114 => ⟨S1x1024, .f32⟩
  | 115 => ⟨S1x1024, .f32⟩
  | 116 => ⟨S1x1024, .f32⟩
  | 117 => ⟨S1x1024, .f32⟩
  | 118 => ⟨S10x1024, .f32⟩
  | 119 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S10x1024, .f32⟩
  | .local _ .vmem, ⟨3, _⟩ => ⟨S10x1024, .f32⟩
  | .local _ .vmem, ⟨4, _⟩ => ⟨S10x1024, .f32⟩
  | .local _ .vmem, ⟨5, _⟩ => ⟨S10x1024, .f32⟩
  | .local _ .vmem, ⟨6, _⟩ => ⟨S1024, .f32⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_c_8 : Ref sig .tc := ⟨.hbm, 12, rfl⟩
abbrev main_v0 : Ref sig .tc := ⟨.hbm, 13, rfl⟩
abbrev main_v1 : Ref sig .tc := ⟨.hbm, 14, rfl⟩
abbrev main_c_9 : Ref sig .tc := ⟨.hbm, 15, rfl⟩
abbrev main_v2 : Ref sig .tc := ⟨.hbm, 16, rfl⟩
abbrev main_v3 : Ref sig .tc := ⟨.hbm, 17, rfl⟩
abbrev main_c_10 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_11 : Ref sig .tc := ⟨.hbm, 34, rfl⟩
abbrev main_v19 : Ref sig .tc := ⟨.hbm, 35, rfl⟩
abbrev main_v20 : Ref sig .tc := ⟨.hbm, 36, rfl⟩
abbrev main_c_12 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_13 : Ref sig .tc := ⟨.hbm, 53, rfl⟩
abbrev main_v36 : Ref sig .tc := ⟨.hbm, 54, rfl⟩
abbrev main_v37 : Ref sig .tc := ⟨.hbm, 55, rfl⟩
abbrev main_c_14 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_15 : Ref sig .tc := ⟨.hbm, 72, rfl⟩
abbrev main_v53 : Ref sig .tc := ⟨.hbm, 73, rfl⟩
abbrev main_v54 : Ref sig .tc := ⟨.hbm, 74, rfl⟩
abbrev main_c_16 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_17 : Ref sig .tc := ⟨.hbm, 91, rfl⟩
abbrev main_v70 : Ref sig .tc := ⟨.hbm, 92, rfl⟩
abbrev main_v71 : Ref sig .tc := ⟨.hbm, 93, rfl⟩
abbrev main_c_18 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_c_19 : Ref sig .tc := ⟨.hbm, 110, rfl⟩
abbrev main_v87 : Ref sig .tc := ⟨.hbm, 111, rfl⟩
abbrev main_v88 : Ref sig .tc := ⟨.hbm, 112, rfl⟩
abbrev main_c_20 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_c_21 : Ref sig .tc := ⟨.hbm, 129, rfl⟩
abbrev main_v104 : Ref sig .tc := ⟨.hbm, 130, rfl⟩
abbrev main_v105 : Ref sig .tc := ⟨.hbm, 131, rfl⟩
abbrev main_c_22 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_c_23 : Ref sig .tc := ⟨.hbm, 148, rfl⟩
abbrev main_v121 : Ref sig .tc := ⟨.hbm, 149, rfl⟩
abbrev main_v122 : Ref sig .tc := ⟨.hbm, 150, rfl⟩
abbrev main_c_24 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_c_25 : Ref sig .tc := ⟨.hbm, 167, rfl⟩
abbrev main_v138 : Ref sig .tc := ⟨.hbm, 168, rfl⟩
abbrev main_v139 : Ref sig .tc := ⟨.hbm, 169, rfl⟩
abbrev main_c_26 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_c_27 : Ref sig .tc := ⟨.hbm, 186, rfl⟩
abbrev main_v155 : Ref sig .tc := ⟨.hbm, 187, rfl⟩
abbrev main_v156 : Ref sig .tc := ⟨.hbm, 188, rfl⟩
abbrev main_c_28 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S1x10x512x2x2_S1x1x512x2x2_0_0_0_0_0 : S1x10x512x2x2.Slices ![0, 0, 0, 0, 0] S1x1x512x2x2
  shapeCasts_S1x1x512x2x2_S512x2x2 : S1x1x512x2x2.ShapeCasts S512x2x2
  bcast_S_S1024 : S_.BroadcastsInDim S1024 (![] : Fin 0 → Fin S1024.rank)
  bcast_S1024_S1024x1_0 : S1024.BroadcastsInDim S1024x1 (![0] : Fin 1 → Fin S1024x1.rank)
  slices_S1024x2x2_S1024x1x1_0_0_0 : S1024x2x2.Slices ![0, 0, 0] S1024x1x1
  shapeCasts_S1024x1x1_S1024 : S1024x1x1.ShapeCasts S1024
  slices_S1024x2x2_S1024x1x1_0_0_1 : S1024x2x2.Slices ![0, 0, 1] S1024x1x1
  slices_S1024x2x2_S1024x1x1_0_1_0 : S1024x2x2.Slices ![0, 1, 0] S1024x1x1
  slices_S1024x2x2_S1024x1x1_0_1_1 : S1024x2x2.Slices ![0, 1, 1] S1024x1x1
  slices_S1x10x512x2x2_S1x1x512x2x2_0_1_0_0_0 : S1x10x512x2x2.Slices ![0, 1, 0, 0, 0] S1x1x512x2x2
  slices_S1x10x512x2x2_S1x1x512x2x2_0_2_0_0_0 : S1x10x512x2x2.Slices ![0, 2, 0, 0, 0] S1x1x512x2x2
  slices_S1x10x512x2x2_S1x1x512x2x2_0_3_0_0_0 : S1x10x512x2x2.Slices ![0, 3, 0, 0, 0] S1x1x512x2x2
  slices_S1x10x512x2x2_S1x1x512x2x2_0_4_0_0_0 : S1x10x512x2x2.Slices ![0, 4, 0, 0, 0] S1x1x512x2x2
  slices_S1x10x512x2x2_S1x1x512x2x2_0_5_0_0_0 : S1x10x512x2x2.Slices ![0, 5, 0, 0, 0] S1x1x512x2x2
  slices_S1x10x512x2x2_S1x1x512x2x2_0_6_0_0_0 : S1x10x512x2x2.Slices ![0, 6, 0, 0, 0] S1x1x512x2x2
  slices_S1x10x512x2x2_S1x1x512x2x2_0_7_0_0_0 : S1x10x512x2x2.Slices ![0, 7, 0, 0, 0] S1x1x512x2x2
  slices_S1x10x512x2x2_S1x1x512x2x2_0_8_0_0_0 : S1x10x512x2x2.Slices ![0, 8, 0, 0, 0] S1x1x512x2x2
  slices_S1x10x512x2x2_S1x1x512x2x2_0_9_0_0_0 : S1x10x512x2x2.Slices ![0, 9, 0, 0, 0] S1x1x512x2x2
  bcast_S1024_S1x1024_1 : S1024.BroadcastsInDim S1x1024 (![1] : Fin 1 → Fin S1x1024.rank)
  concatenates_S1x1024_S1x1024_S1x1024_S1x1024_S1x1024_S1x1024_S1x1024_S1x1024_S1x1024_S1x1024_S10x1024_d0 : Shape.Concatenates [S1x1024, S1x1024, S1x1024, S1x1024, S1x1024, S1x1024, S1x1024, S1x1024, S1x1024, S1x1024] S10x1024 0
  inb_S512x1024_S512x1024_0_0 : ∀ a, (![0, 0] : Fin 2 → Nat) a + S512x1024.size a ≤ S512x1024.size a
  h_S512x1024 : 0 < S512x1024.numel
  rotates_S512x1024_d1 : S512x1024.Rotates 1 none
  inb_S10x1024_S1x1024_0_0 : ∀ a, (![0, 0] : Fin 2 → Nat) a + S1x1024.size a ≤ S10x1024.size a
  h_S1x1024 : 0 < S1x1024.numel
  shapeCasts_S1x1024_S1024 : S1x1024.ShapeCasts S1024
  shapeCasts_S1024_S1x1024 : S1024.ShapeCasts S1x1024
  broadcasts_S1x1024_S512x1024 : S1x1024.Broadcasts S512x1024
  iota_S512x1024_d1_w32 : S512x1024.Iotas .tc 32 [1]
  inb_S10x1024_S1x1024_1_0 : ∀ a, (![1, 0] : Fin 2 → Nat) a + S1x1024.size a ≤ S10x1024.size a
  inb_S10x1024_S1x1024_2_0 : ∀ a, (![2, 0] : Fin 2 → Nat) a + S1x1024.size a ≤ S10x1024.size a
  inb_S10x1024_S1x1024_3_0 : ∀ a, (![3, 0] : Fin 2 → Nat) a + S1x1024.size a ≤ S10x1024.size a
  inb_S10x1024_S1x1024_4_0 : ∀ a, (![4, 0] : Fin 2 → Nat) a + S1x1024.size a ≤ S10x1024.size a
  inb_S10x1024_S1x1024_5_0 : ∀ a, (![5, 0] : Fin 2 → Nat) a + S1x1024.size a ≤ S10x1024.size a
  inb_S10x1024_S1x1024_6_0 : ∀ a, (![6, 0] : Fin 2 → Nat) a + S1x1024.size a ≤ S10x1024.size a
  inb_S10x1024_S1x1024_7_0 : ∀ a, (![7, 0] : Fin 2 → Nat) a + S1x1024.size a ≤ S10x1024.size a
  inb_S10x1024_S1x1024_8_0 : ∀ a, (![8, 0] : Fin 2 → Nat) a + S1x1024.size a ≤ S10x1024.size a
  inb_S10x1024_S1x1024_9_0 : ∀ a, (![9, 0] : Fin 2 → Nat) a + S1x1024.size a ≤ S10x1024.size a
  inb_S1024_S1024_0 : ∀ a, (![0] : Fin 1 → Nat) a + S1024.size a ≤ S1024.size a
  h_S1024 : 0 < S1024.numel
  gather_S512x2x2_S1024x1_S1024x2x2_12_0_n_n_0_1_122_wf : GatherDims.WF S512x2x2 S1024x1 S1024x2x2 [1, 2] [0] [] [0] [] 1 ![1, 2, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x1024.size a ≤ S10x1024.size a
  hwx0_1 : ∀ i : grid0.Coords, EltTy.bits .f32 = 32 ∨ (Rect.block (s := S10x1024) S10x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x1024.size a ≤ S10x1024.size a
  hwx0_2 : ∀ i : grid0.Coords, EltTy.bits .f32 = 32 ∨ (Rect.block (s := S10x1024) S10x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x1024.size a ≤ S10x1024.size a
  hwx0_3 : ∀ i : grid0.Coords, EltTy.bits .f32 = 32 ∨ (Rect.block (s := S10x1024) S10x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x1024.size a ≤ S10x1024.size a
  hwx0_4 : ∀ i : grid0.Coords, EltTy.bits .f32 = 32 ∨ (Rect.block (s := S10x1024) S10x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S32768x1024.size a
  hwx0_6 : ∀ i : grid0.Coords, EltTy.bits .f32 = 32 ∨ (Rect.block (s := S32768x1024) S512x1024.size (cc0_transform_6 i) (hinb0_6 i)).WholeWords (EltTy.packing .f32)

variable [Facts₀]

def gather_S512x2x2_S1024x1_S1024x2x2_12_0_n_n_0_1_122 : GatherDims S512x2x2 S1024x1 S1024x2x2 where
  offsetDims := [1, 2]
  collapsedSliceDims := [0]
  operandBatchingDims := []
  startIndicesBatchingDims := []
  startIndexMap := [0]
  indexVectorDim := 1
  sliceSizes := ![1, 2, 2]
  wf := gather_S512x2x2_S1024x1_S1024x2x2_12_0_n_n_0_1_122_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v180) S10x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v191) S10x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v202) S10x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v213) S10x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v214) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1x10x512x2x2 : Shape := ⟨5, ![1, 10, 512, 2, 2]⟩
abbrev S1024 : Shape := ⟨1, ![1024]⟩
abbrev S32768x1x1024 : Shape := ⟨3, ![32768, 1, 1024]⟩
abbrev S1x1x512x2x2 : Shape := ⟨5, ![1, 1, 512, 2, 2]⟩
abbrev S1x512x2x2 : Shape := ⟨4, ![1, 512, 2, 2]⟩
abbrev S1x512x1x2x2 : Shape := ⟨5, ![1, 512, 1, 2, 2]⟩
abbrev S1x512x2x2x1 : Shape := ⟨5, ![1, 512, 2, 2, 1]⟩
abbrev S32768x1x512x1x2x1 : Shape := ⟨6, ![32768, 1, 512, 1, 2, 1]⟩
abbrev S1x1x512x2x2x1 : Shape := ⟨6, ![1, 1, 512, 2, 2, 1]⟩
abbrev S32768x1x512x2x2x1 : Shape := ⟨6, ![32768, 1, 512, 2, 2, 1]⟩
abbrev S_ : Shape := ⟨0, ![]⟩
abbrev S32768x1x512x2x1 : Shape := ⟨5, ![32768, 1, 512, 2, 1]⟩
abbrev S1x256x2x2x2 : Shape := ⟨5, ![1, 256, 2, 2, 2]⟩
abbrev S32768x1x256x1x2x2 : Shape := ⟨6, ![32768, 1, 256, 1, 2, 2]⟩
abbrev S1x1x256x2x2x2 : Shape := ⟨6, ![1, 1, 256, 2, 2, 2]⟩
abbrev S32768x1x256x2x2x2 : Shape := ⟨6, ![32768, 1, 256, 2, 2, 2]⟩
abbrev S32768x1x256x2x2 : Shape := ⟨5, ![32768, 1, 256, 2, 2]⟩
abbrev S1x128x4x2x2 : Shape := ⟨5, ![1, 128, 4, 2, 2]⟩
abbrev S1x128x2x2x4 : Shape := ⟨5, ![1, 128, 2, 2, 4]⟩
abbrev S32768x1x128x1x2x4 : Shape := ⟨6, ![32768, 1, 128, 1, 2, 4]⟩
abbrev S1x1x128x2x2x4 : Shape := ⟨6, ![1, 1, 128, 2, 2, 4]⟩
abbrev S32768x1x128x2x2x4 : Shape := ⟨6, ![32768, 1, 128, 2, 2, 4]⟩
abbrev S32768x1x128x2x4 : Shape := ⟨5, ![32768, 1, 128, 2, 4]⟩
abbrev S1x64x8x2x2 : Shape := ⟨5, ![1, 64, 8, 2, 2]⟩
abbrev S1x64x2x2x8 : Shape := ⟨5, ![1, 64, 2, 2, 8]⟩
abbrev S32768x1x64x1x2x8 : Shape := ⟨6, ![32768, 1, 64, 1, 2, 8]⟩
abbrev S1x1x64x2x2x8 : Shape := ⟨6, ![1, 1, 64, 2, 2, 8]⟩
abbrev S32768x1x64x2x2x8 : Shape := ⟨6, ![32768, 1, 64, 2, 2, 8]⟩
abbrev S32768x1x64x2x8 : Shape := ⟨5, ![32768, 1, 64, 2, 8]⟩
abbrev S1x32x16x2x2 : Shape := ⟨5, ![1, 32, 16, 2, 2]⟩
abbrev S1x32x2x2x16 : Shape := ⟨5, ![1, 32, 2, 2, 16]⟩
abbrev S32768x1x32x1x2x16 : Shape := ⟨6, ![32768, 1, 32, 1, 2, 16]⟩
abbrev S1x1x32x2x2x16 : Shape := ⟨6, ![1, 1, 32, 2, 2, 16]⟩
abbrev S32768x1x32x2x2x16 : Shape := ⟨6, ![32768, 1, 32, 2, 2, 16]⟩
abbrev S32768x1x32x2x16 : Shape := ⟨5, ![32768, 1, 32, 2, 16]⟩
abbrev S1x16x32x2x2 : Shape := ⟨5, ![1, 16, 32, 2, 2]⟩
abbrev S1x16x2x2x32 : Shape := ⟨5, ![1, 16, 2, 2, 32]⟩
abbrev S32768x1x16x1x2x32 : Shape := ⟨6, ![32768, 1, 16, 1, 2, 32]⟩
abbrev S1x1x16x2x2x32 : Shape := ⟨6, ![1, 1, 16, 2, 2, 32]⟩
abbrev S32768x1x16x2x2x32 : Shape := ⟨6, ![32768, 1, 16, 2, 2, 32]⟩
abbrev S32768x1x16x2x32 : Shape := ⟨5, ![32768, 1, 16, 2, 32]⟩
abbrev S1x8x64x2x2 : Shape := ⟨5, ![1, 8, 64, 2, 2]⟩
abbrev S1x8x2x2x64 : Shape := ⟨5, ![1, 8, 2, 2, 64]⟩
abbrev S32768x1x8x1x2x64 : Shape := ⟨6, ![32768, 1, 8, 1, 2, 64]⟩
abbrev S1x1x8x2x2x64 : Shape := ⟨6, ![1, 1, 8, 2, 2, 64]⟩
abbrev S32768x1x8x2x2x64 : Shape := ⟨6, ![32768, 1, 8, 2, 2, 64]⟩
abbrev S32768x1x8x2x64 : Shape := ⟨5, ![32768, 1, 8, 2, 64]⟩
abbrev S1x4x128x2x2 : Shape := ⟨5, ![1, 4, 128, 2, 2]⟩
abbrev S1x4x2x2x128 : Shape := ⟨5, ![1, 4, 2, 2, 128]⟩
abbrev S32768x1x4x1x2x128 : Shape := ⟨6, ![32768, 1, 4, 1, 2, 128]⟩
abbrev S1x1x4x2x2x128 : Shape := ⟨6, ![1, 1, 4, 2, 2, 128]⟩
abbrev S32768x1x4x2x2x128 : Shape := ⟨6, ![32768, 1, 4, 2, 2, 128]⟩
abbrev S32768x1x4x2x128 : Shape := ⟨5, ![32768, 1, 4, 2, 128]⟩
abbrev S1x2x256x2x2 : Shape := ⟨5, ![1, 2, 256, 2, 2]⟩
abbrev S1x2x2x2x256 : Shape := ⟨5, ![1, 2, 2, 2, 256]⟩
abbrev S32768x1x2x1x2x256 : Shape := ⟨6, ![32768, 1, 2, 1, 2, 256]⟩
abbrev S1x1x2x2x2x256 : Shape := ⟨6, ![1, 1, 2, 2, 2, 256]⟩
abbrev S32768x1x2x2x2x256 : Shape := ⟨6, ![32768, 1, 2, 2, 2, 256]⟩
abbrev S32768x1x2x2x256 : Shape := ⟨5, ![32768, 1, 2, 2, 256]⟩
abbrev S1x1x2x2x512 : Shape := ⟨5, ![1, 1, 2, 2, 512]⟩
abbrev S32768x1x1x1x2x512 : Shape := ⟨6, ![32768, 1, 1, 1, 2, 512]⟩
abbrev S1x1x1x2x2x512 : Shape := ⟨6, ![1, 1, 1, 2, 2, 512]⟩
abbrev S32768x1x1x2x2x512 : Shape := ⟨6, ![32768, 1, 1, 2, 2, 512]⟩
abbrev S32768x1x1x2x512 : Shape := ⟨5, ![32768, 1, 1, 2, 512]⟩
abbrev S1x1024 : Shape := ⟨2, ![1, 1024]⟩

abbrev nBuf : Space → Nat
  | .hbm => 128
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x10x512x2x2, .f32⟩
  | .hbm, ⟨2, _⟩ => ⟨S1024, .f32⟩
  | .hbm, ⟨3, _⟩ => ⟨S32768x1x1024, .f32⟩
  | .hbm, ⟨4, _⟩ => ⟨S1x1x512x2x2, .f32⟩
  | .hbm, ⟨5, _⟩ => ⟨S1x512x2x2, .f32⟩
  | .hbm, ⟨6, _⟩ => ⟨S1x512x1x2x2, .f32⟩
  | .hbm, ⟨7, _⟩ => ⟨S1x512x2x2x1, .f32⟩
  | .hbm, ⟨8, _⟩ => ⟨S32768x1x512x1x2x1, .f32⟩
  | .hbm, ⟨9, _⟩ => ⟨S1x1x512x2x2x1, .f32⟩
  | .hbm, ⟨10, _⟩ => ⟨S32768x1x512x2x2x1, .f32⟩
  | .hbm, ⟨11, _⟩ => ⟨S32768x1x512x2x2x1, .f32⟩
  | .hbm, ⟨12, _⟩ => ⟨S32768x1x512x2x2x1, .f32⟩
  | .hbm, ⟨13, _⟩ => ⟨S_, .f32⟩
  | .hbm, ⟨14, _⟩ => ⟨S32768x1x512x2x1, .f32⟩
  | .hbm, ⟨15, _⟩ => ⟨S32768x1x1024, .f32⟩
  | .hbm, ⟨16, _⟩ => ⟨S1x1x512x2x2, .f32⟩
  | .hbm, ⟨17, _⟩ => ⟨S1x512x2x2, .f32⟩
  | .hbm, ⟨18, _⟩ => ⟨S1x256x2x2x2, .f32⟩
  | .hbm, ⟨19, _⟩ => ⟨S1x256x2x2x2, .f32⟩
  | .hbm, ⟨20, _⟩ => ⟨S32768x1x256x1x2x2, .f32⟩
  | .hbm, ⟨21, _⟩ => ⟨S1x1x256x2x2x2, .f32⟩
  | .hbm, ⟨22, _⟩ => ⟨S32768x1x256x2x2x2, .f32⟩
  | .hbm, ⟨23, _⟩ => ⟨S32768x1x256x2x2x2, .f32⟩
  | .hbm, ⟨24, _⟩ => ⟨S32768x1x256x2x2x2, .f32⟩
  | .hbm, ⟨25, _⟩ => ⟨S_, .f32⟩
  | .hbm, ⟨26, _⟩ => ⟨S32768x1x256x2x2, .f32⟩
  | .hbm, ⟨27, _⟩ => ⟨S32768x1x1024, .f32⟩
  | .hbm, ⟨28, _⟩ => ⟨S1x1x512x2x2, .f32⟩
  | .hbm, ⟨29, _⟩ => ⟨S1x512x2x2, .f32⟩
  | .hbm, ⟨30, _⟩ => ⟨S1x128x4x2x2, .f32⟩
  | .hbm, ⟨31, _⟩ => ⟨S1x128x2x2x4, .f32⟩
  | .hbm, ⟨32, _⟩ => ⟨S32768x1x128x1x2x4, .f32⟩
  | .hbm, ⟨33, _⟩ => ⟨S1x1x128x2x2x4, .f32⟩
  | .hbm, ⟨34, _⟩ => ⟨S32768x1x128x2x2x4, .f32⟩
  | .hbm, ⟨35, _⟩ => ⟨S32768x1x128x2x2x4, .f32⟩
  | .hbm, ⟨36, _⟩ => ⟨S32768x1x128x2x2x4, .f32⟩
  | .hbm, ⟨37, _⟩ => ⟨S_, .f32⟩
  | .hbm, ⟨38, _⟩ => ⟨S32768x1x128x2x4, .f32⟩
  | .hbm, ⟨39, _⟩ => ⟨S32768x1x1024, .f32⟩
  | .hbm, ⟨40, _⟩ => ⟨S1x1x512x2x2, .f32⟩
  | .hbm, ⟨41, _⟩ => ⟨S1x512x2x2, .f32⟩
  | .hbm, ⟨42, _⟩ => ⟨S1x64x8x2x2, .f32⟩
  | .hbm, ⟨43, _⟩ => ⟨S1x64x2x2x8, .f32⟩
  | .hbm, ⟨44, _⟩ => ⟨S32768x1x64x1x2x8, .f32⟩
  | .hbm, ⟨45, _⟩ => ⟨S1x1x64x2x2x8, .f32⟩
  | .hbm, ⟨46, _⟩ => ⟨S32768x1x64x2x2x8, .f32⟩
  | .hbm, ⟨47, _⟩ => ⟨S32768x1x64x2x2x8, .f32⟩
  | .hbm, ⟨48, _⟩ => ⟨S32768x1x64x2x2x8, .f32⟩
  | .hbm, ⟨49, _⟩ => ⟨S_, .f32⟩
  | .hbm, ⟨50, _⟩ => ⟨S32768x1x64x2x8, .f32⟩
  | .hbm, ⟨51, _⟩ => ⟨S32768x1x1024, .f32⟩
  | .hbm, ⟨52, _⟩ => ⟨S1x1x512x2x2, .f32⟩
  | .hbm, ⟨53, _⟩ => ⟨S1x512x2x2, .f32⟩
  | .hbm, ⟨54, _⟩ => ⟨S1x32x16x2x2, .f32⟩
  | .hbm, ⟨55, _⟩ => ⟨S1x32x2x2x16, .f32⟩
  | .hbm, ⟨56, _⟩ => ⟨S32768x1x32x1x2x16, .f32⟩
  | .hbm, ⟨57, _⟩ => ⟨S1x1x32x2x2x16, .f32⟩
  | .hbm, ⟨58, _⟩ => ⟨S32768x1x32x2x2x16, .f32⟩
  | .hbm, ⟨59, _⟩ => ⟨S32768x1x32x2x2x16, .f32⟩
  | .hbm, ⟨60, _⟩ => ⟨S32768x1x32x2x2x16, .f32⟩
  | .hbm, ⟨61, _⟩ => ⟨S_, .f32⟩
  | .hbm, ⟨62, _⟩ => ⟨S32768x1x32x2x16, .f32⟩
  | .hbm, ⟨63, _⟩ => ⟨S32768x1x1024, .f32⟩
  | .hbm, ⟨64, _⟩ => ⟨S1x1x512x2x2, .f32⟩
  | .hbm, ⟨65, _⟩ => ⟨S1x512x2x2, .f32⟩
  | .hbm, ⟨66, _⟩ => ⟨S1x16x32x2x2, .f32⟩
  | .hbm, ⟨67, _⟩ => ⟨S1x16x2x2x32, .f32⟩
  | .hbm, ⟨68, _⟩ => ⟨S32768x1x16x1x2x32, .f32⟩
  | .hbm, ⟨69, _⟩ => ⟨S1x1x16x2x2x32, .f32⟩
  | .hbm, ⟨70, _⟩ => ⟨S32768x1x16x2x2x32, .f32⟩
  | .hbm, ⟨71, _⟩ => ⟨S32768x1x16x2x2x32, .f32⟩
  | .hbm, ⟨72, _⟩ => ⟨S32768x1x16x2x2x32, .f32⟩
  | .hbm, ⟨73, _⟩ => ⟨S_, .f32⟩
  | .hbm, ⟨74, _⟩ => ⟨S32768x1x16x2x32, .f32⟩
  | .hbm, ⟨75, _⟩ => ⟨S32768x1x1024, .f32⟩
  | .hbm, ⟨76, _⟩ => ⟨S1x1x512x2x2, .f32⟩
  | .hbm, ⟨77, _⟩ => ⟨S1x512x2x2, .f32⟩
  | .hbm, ⟨78, _⟩ => ⟨S1x8x64x2x2, .f32⟩
  | .hbm, ⟨79, _⟩ => ⟨S1x8x2x2x64, .f32⟩
  | .hbm, ⟨80, _⟩ => ⟨S32768x1x8x1x2x64, .f32⟩
  | .hbm, ⟨81, _⟩ => ⟨S1x1x8x2x2x64, .f32⟩
  | .hbm, ⟨82, _⟩ => ⟨S32768x1x8x2x2x64, .f32⟩
  | .hbm, ⟨83, _⟩ => ⟨S32768x1x8x2x2x64, .f32⟩
  | .hbm, ⟨84, _⟩ => ⟨S32768x1x8x2x2x64, .f32⟩
  | .hbm, ⟨85, _⟩ => ⟨S_, .f32⟩
  | .hbm, ⟨86, _⟩ => ⟨S32768x1x8x2x64, .f32⟩
  | .hbm, ⟨87, _⟩ => ⟨S32768x1x1024, .f32⟩
  | .hbm, ⟨88, _⟩ => ⟨S1x1x512x2x2, .f32⟩
  | .hbm, ⟨89, _⟩ => ⟨S1x512x2x2, .f32⟩
  | .hbm, ⟨90, _⟩ => ⟨S1x4x128x2x2, .f32⟩
  | .hbm, ⟨91, _⟩ => ⟨S1x4x2x2x128, .f32⟩
  | .hbm, ⟨92, _⟩ => ⟨S32768x1x4x1x2x128, .f32⟩
  | .hbm, ⟨93, _⟩ => ⟨S1x1x4x2x2x128, .f32⟩
  | .hbm, ⟨94, _⟩ => ⟨S32768x1x4x2x2x128, .f32⟩
  | .hbm, ⟨95, _⟩ => ⟨S32768x1x4x2x2x128, .f32⟩
  | .hbm, ⟨96, _⟩ => ⟨S32768x1x4x2x2x128, .f32⟩
  | .hbm, ⟨97, _⟩ => ⟨S_, .f32⟩
  | .hbm, ⟨98, _⟩ => ⟨S32768x1x4x2x128, .f32⟩
  | .hbm, ⟨99, _⟩ => ⟨S32768x1x1024, .f32⟩
  | .hbm, ⟨100, _⟩ => ⟨S1x1x512x2x2, .f32⟩
  | .hbm, ⟨101, _⟩ => ⟨S1x512x2x2, .f32⟩
  | .hbm, ⟨102, _⟩ => ⟨S1x2x256x2x2, .f32⟩
  | .hbm, ⟨103, _⟩ => ⟨S1x2x2x2x256, .f32⟩
  | .hbm, ⟨104, _⟩ => ⟨S32768x1x2x1x2x256, .f32⟩
  | .hbm, ⟨105, _⟩ => ⟨S1x1x2x2x2x256, .f32⟩
  | .hbm, ⟨106, _⟩ => ⟨S32768x1x2x2x2x256, .f32⟩
  | .hbm, ⟨107, _⟩ => ⟨S32768x1x2x2x2x256, .f32⟩
  | .hbm, ⟨108, _⟩ => ⟨S32768x1x2x2x2x256, .f32⟩
  | .hbm, ⟨109, _⟩ => ⟨S_, .f32⟩
  | .hbm, ⟨110, _⟩ => ⟨S32768x1x2x2x256, .f32⟩
  | .hbm, ⟨111, _⟩ => ⟨S32768x1x1024, .f32⟩
  | .hbm, ⟨112, _⟩ => ⟨S1x1x512x2x2, .f32⟩
  | .hbm, ⟨113, _⟩ => ⟨S1x512x2x2, .f32⟩
  | .hbm, ⟨114, _⟩ => ⟨S1x1x512x2x2, .f32⟩
  | .hbm, ⟨115, _⟩ => ⟨S1x1x2x2x512, .f32⟩
  | .hbm, ⟨116, _⟩ => ⟨S32768x1x1x1x2x512, .f32⟩
  | .hbm, ⟨117, _⟩ => ⟨S1x1x1x2x2x512, .f32⟩
  | .hbm, ⟨118, _⟩ => ⟨S32768x1x1x2x2x512, .f32⟩
  | .hbm, ⟨119, _⟩ => ⟨S32768x1x1x2x2x512, .f32⟩
  | .hbm, ⟨120, _⟩ => ⟨S32768x1x1x2x2x512, .f32⟩
  | .hbm, ⟨121, _⟩ => ⟨S_, .f32⟩
  | .hbm, ⟨122, _⟩ => ⟨S32768x1x1x2x512, .f32⟩
  | .hbm, ⟨123, _⟩ => ⟨S32768x1x1024, .f32⟩
  | .hbm, ⟨124, _⟩ => ⟨S32768x1024, .f32⟩
  | .hbm, ⟨125, _⟩ => ⟨S1x1024, .f32⟩
  | .hbm, ⟨126, _⟩ => ⟨S32768x1024, .f32⟩
  | .hbm, ⟨127, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_2 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_cst_3 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_cst_4 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_cst_5 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_cst_6 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_cst_7 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_cst_8 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩

abbrev nD : Nat := 1
abbrev τ : Topo := Topo.v7x

variable {F : FTy → Type} [FloatOps F]

class Facts₀ : Prop where
  bcast_S32768x1024_S32768x1x1024_0_2 : S32768x1024.BroadcastsInDim S32768x1x1024 (![0, 2] : Fin 2 → Fin S32768x1x1024.rank)
  slices_S1x10x512x2x2_S1x1x512x2x2_0_0_0_0_0 : S1x10x512x2x2.Slices ![0, 0, 0, 0, 0] S1x1x512x2x2
  shapeCasts_S1x1x512x2x2_S1x512x2x2 : S1x1x512x2x2.ShapeCasts S1x512x2x2
  shapeCasts_S1x512x2x2_S1x512x1x2x2 : S1x512x2x2.ShapeCasts S1x512x1x2x2
  transposes_S1x512x1x2x2_S1x512x2x2x1_0_1_3_4_2 : S1x512x1x2x2.Transposes [0, 1, 3, 4, 2] S1x512x2x2x1
  shapeCasts_S32768x1x1024_S32768x1x512x1x2x1 : S32768x1x1024.ShapeCasts S32768x1x512x1x2x1
  bcast_S1x512x2x2x1_S1x1x512x2x2x1_1_2_3_4_5 : S1x512x2x2x1.BroadcastsInDim S1x1x512x2x2x1 (![1, 2, 3, 4, 5] : Fin 5 → Fin S1x1x512x2x2x1.rank)
  bcast_S1x1x512x2x2x1_S32768x1x512x2x2x1_0_1_2_3_4_5 : S1x1x512x2x2x1.BroadcastsInDim S32768x1x512x2x2x1 (![0, 1, 2, 3, 4, 5] : Fin 6 → Fin S32768x1x512x2x2x1.rank)
  bcast_S32768x1x512x1x2x1_S32768x1x512x2x2x1_0_1_2_3_4_5 : S32768x1x512x1x2x1.BroadcastsInDim S32768x1x512x2x2x1 (![0, 1, 2, 3, 4, 5] : Fin 6 → Fin S32768x1x512x2x2x1.rank)
  reducesTo_S32768x1x512x2x2x1_S32768x1x512x2x1_d4 : S32768x1x512x2x2x1.ReducesTo [4] S32768x1x512x2x1
  h_S_ : 0 < S_.numel
  shapeCasts_S32768x1x512x2x1_S32768x1x1024 : S32768x1x512x2x1.ShapeCasts S32768x1x1024
  slices_S1x10x512x2x2_S1x1x512x2x2_0_1_0_0_0 : S1x10x512x2x2.Slices ![0, 1, 0, 0, 0] S1x1x512x2x2
  shapeCasts_S1x512x2x2_S1x256x2x2x2 : S1x512x2x2.ShapeCasts S1x256x2x2x2
  transposes_S1x256x2x2x2_S1x256x2x2x2_0_1_3_4_2 : S1x256x2x2x2.Transposes [0, 1, 3, 4, 2] S1x256x2x2x2
  shapeCasts_S32768x1x1024_S32768x1x256x1x2x2 : S32768x1x1024.ShapeCasts S32768x1x256x1x2x2
  bcast_S1x256x2x2x2_S1x1x256x2x2x2_1_2_3_4_5 : S1x256x2x2x2.BroadcastsInDim S1x1x256x2x2x2 (![1, 2, 3, 4, 5] : Fin 5 → Fin S1x1x256x2x2x2.rank)
  bcast_S1x1x256x2x2x2_S32768x1x256x2x2x2_0_1_2_3_4_5 : S1x1x256x2x2x2.BroadcastsInDim S32768x1x256x2x2x2 (![0, 1, 2, 3, 4, 5] : Fin 6 → Fin S32768x1x256x2x2x2.rank)
  bcast_S32768x1x256x1x2x2_S32768x1x256x2x2x2_0_1_2_3_4_5 : S32768x1x256x1x2x2.BroadcastsInDim S32768x1x256x2x2x2 (![0, 1, 2, 3, 4, 5] : Fin 6 → Fin S32768x1x256x2x2x2.rank)
  reducesTo_S32768x1x256x2x2x2_S32768x1x256x2x2_d4 : S32768x1x256x2x2x2.ReducesTo [4] S32768x1x256x2x2
  shapeCasts_S32768x1x256x2x2_S32768x1x1024 : S32768x1x256x2x2.ShapeCasts S32768x1x1024
  slices_S1x10x512x2x2_S1x1x512x2x2_0_2_0_0_0 : S1x10x512x2x2.Slices ![0, 2, 0, 0, 0] S1x1x512x2x2
  shapeCasts_S1x512x2x2_S1x128x4x2x2 : S1x512x2x2.ShapeCasts S1x128x4x2x2
  transposes_S1x128x4x2x2_S1x128x2x2x4_0_1_3_4_2 : S1x128x4x2x2.Transposes [0, 1, 3, 4, 2] S1x128x2x2x4
  shapeCasts_S32768x1x1024_S32768x1x128x1x2x4 : S32768x1x1024.ShapeCasts S32768x1x128x1x2x4
  bcast_S1x128x2x2x4_S1x1x128x2x2x4_1_2_3_4_5 : S1x128x2x2x4.BroadcastsInDim S1x1x128x2x2x4 (![1, 2, 3, 4, 5] : Fin 5 → Fin S1x1x128x2x2x4.rank)
  bcast_S1x1x128x2x2x4_S32768x1x128x2x2x4_0_1_2_3_4_5 : S1x1x128x2x2x4.BroadcastsInDim S32768x1x128x2x2x4 (![0, 1, 2, 3, 4, 5] : Fin 6 → Fin S32768x1x128x2x2x4.rank)
  bcast_S32768x1x128x1x2x4_S32768x1x128x2x2x4_0_1_2_3_4_5 : S32768x1x128x1x2x4.BroadcastsInDim S32768x1x128x2x2x4 (![0, 1, 2, 3, 4, 5] : Fin 6 → Fin S32768x1x128x2x2x4.rank)
  reducesTo_S32768x1x128x2x2x4_S32768x1x128x2x4_d4 : S32768x1x128x2x2x4.ReducesTo [4] S32768x1x128x2x4
  shapeCasts_S32768x1x128x2x4_S32768x1x1024 : S32768x1x128x2x4.ShapeCasts S32768x1x1024
  slices_S1x10x512x2x2_S1x1x512x2x2_0_3_0_0_0 : S1x10x512x2x2.Slices ![0, 3, 0, 0, 0] S1x1x512x2x2
  shapeCasts_S1x512x2x2_S1x64x8x2x2 : S1x512x2x2.ShapeCasts S1x64x8x2x2
  transposes_S1x64x8x2x2_S1x64x2x2x8_0_1_3_4_2 : S1x64x8x2x2.Transposes [0, 1, 3, 4, 2] S1x64x2x2x8
  shapeCasts_S32768x1x1024_S32768x1x64x1x2x8 : S32768x1x1024.ShapeCasts S32768x1x64x1x2x8
  bcast_S1x64x2x2x8_S1x1x64x2x2x8_1_2_3_4_5 : S1x64x2x2x8.BroadcastsInDim S1x1x64x2x2x8 (![1, 2, 3, 4, 5] : Fin 5 → Fin S1x1x64x2x2x8.rank)
  bcast_S1x1x64x2x2x8_S32768x1x64x2x2x8_0_1_2_3_4_5 : S1x1x64x2x2x8.BroadcastsInDim S32768x1x64x2x2x8 (![0, 1, 2, 3, 4, 5] : Fin 6 → Fin S32768x1x64x2x2x8.rank)
  bcast_S32768x1x64x1x2x8_S32768x1x64x2x2x8_0_1_2_3_4_5 : S32768x1x64x1x2x8.BroadcastsInDim S32768x1x64x2x2x8 (![0, 1, 2, 3, 4, 5] : Fin 6 → Fin S32768x1x64x2x2x8.rank)
  reducesTo_S32768x1x64x2x2x8_S32768x1x64x2x8_d4 : S32768x1x64x2x2x8.ReducesTo [4] S32768x1x64x2x8
  shapeCasts_S32768x1x64x2x8_S32768x1x1024 : S32768x1x64x2x8.ShapeCasts S32768x1x1024
  slices_S1x10x512x2x2_S1x1x512x2x2_0_4_0_0_0 : S1x10x512x2x2.Slices ![0, 4, 0, 0, 0] S1x1x512x2x2
  shapeCasts_S1x512x2x2_S1x32x16x2x2 : S1x512x2x2.ShapeCasts S1x32x16x2x2
  transposes_S1x32x16x2x2_S1x32x2x2x16_0_1_3_4_2 : S1x32x16x2x2.Transposes [0, 1, 3, 4, 2] S1x32x2x2x16
  shapeCasts_S32768x1x1024_S32768x1x32x1x2x16 : S32768x1x1024.ShapeCasts S32768x1x32x1x2x16
  bcast_S1x32x2x2x16_S1x1x32x2x2x16_1_2_3_4_5 : S1x32x2x2x16.BroadcastsInDim S1x1x32x2x2x16 (![1, 2, 3, 4, 5] : Fin 5 → Fin S1x1x32x2x2x16.rank)
  bcast_S1x1x32x2x2x16_S32768x1x32x2x2x16_0_1_2_3_4_5 : S1x1x32x2x2x16.BroadcastsInDim S32768x1x32x2x2x16 (![0, 1, 2, 3, 4, 5] : Fin 6 → Fin S32768x1x32x2x2x16.rank)
  bcast_S32768x1x32x1x2x16_S32768x1x32x2x2x16_0_1_2_3_4_5 : S32768x1x32x1x2x16.BroadcastsInDim S32768x1x32x2x2x16 (![0, 1, 2, 3, 4, 5] : Fin 6 → Fin S32768x1x32x2x2x16.rank)
  reducesTo_S32768x1x32x2x2x16_S32768x1x32x2x16_d4 : S32768x1x32x2x2x16.ReducesTo [4] S32768x1x32x2x16
  shapeCasts_S32768x1x32x2x16_S32768x1x1024 : S32768x1x32x2x16.ShapeCasts S32768x1x1024
  slices_S1x10x512x2x2_S1x1x512x2x2_0_5_0_0_0 : S1x10x512x2x2.Slices ![0, 5, 0, 0, 0] S1x1x512x2x2
  shapeCasts_S1x512x2x2_S1x16x32x2x2 : S1x512x2x2.ShapeCasts S1x16x32x2x2
  transposes_S1x16x32x2x2_S1x16x2x2x32_0_1_3_4_2 : S1x16x32x2x2.Transposes [0, 1, 3, 4, 2] S1x16x2x2x32
  shapeCasts_S32768x1x1024_S32768x1x16x1x2x32 : S32768x1x1024.ShapeCasts S32768x1x16x1x2x32
  bcast_S1x16x2x2x32_S1x1x16x2x2x32_1_2_3_4_5 : S1x16x2x2x32.BroadcastsInDim S1x1x16x2x2x32 (![1, 2, 3, 4, 5] : Fin 5 → Fin S1x1x16x2x2x32.rank)
  bcast_S1x1x16x2x2x32_S32768x1x16x2x2x32_0_1_2_3_4_5 : S1x1x16x2x2x32.BroadcastsInDim S32768x1x16x2x2x32 (![0, 1, 2, 3, 4, 5] : Fin 6 → Fin S32768x1x16x2x2x32.rank)
  bcast_S32768x1x16x1x2x32_S32768x1x16x2x2x32_0_1_2_3_4_5 : S32768x1x16x1x2x32.BroadcastsInDim S32768x1x16x2x2x32 (![0, 1, 2, 3, 4, 5] : Fin 6 → Fin S32768x1x16x2x2x32.rank)
  reducesTo_S32768x1x16x2x2x32_S32768x1x16x2x32_d4 : S32768x1x16x2x2x32.ReducesTo [4] S32768x1x16x2x32
  shapeCasts_S32768x1x16x2x32_S32768x1x1024 : S32768x1x16x2x32.ShapeCasts S32768x1x1024
  slices_S1x10x512x2x2_S1x1x512x2x2_0_6_0_0_0 : S1x10x512x2x2.Slices ![0, 6, 0, 0, 0] S1x1x512x2x2
  shapeCasts_S1x512x2x2_S1x8x64x2x2 : S1x512x2x2.ShapeCasts S1x8x64x2x2
  transposes_S1x8x64x2x2_S1x8x2x2x64_0_1_3_4_2 : S1x8x64x2x2.Transposes [0, 1, 3, 4, 2] S1x8x2x2x64
  shapeCasts_S32768x1x1024_S32768x1x8x1x2x64 : S32768x1x1024.ShapeCasts S32768x1x8x1x2x64
  bcast_S1x8x2x2x64_S1x1x8x2x2x64_1_2_3_4_5 : S1x8x2x2x64.BroadcastsInDim S1x1x8x2x2x64 (![1, 2, 3, 4, 5] : Fin 5 → Fin S1x1x8x2x2x64.rank)
  bcast_S1x1x8x2x2x64_S32768x1x8x2x2x64_0_1_2_3_4_5 : S1x1x8x2x2x64.BroadcastsInDim S32768x1x8x2x2x64 (![0, 1, 2, 3, 4, 5] : Fin 6 → Fin S32768x1x8x2x2x64.rank)
  bcast_S32768x1x8x1x2x64_S32768x1x8x2x2x64_0_1_2_3_4_5 : S32768x1x8x1x2x64.BroadcastsInDim S32768x1x8x2x2x64 (![0, 1, 2, 3, 4, 5] : Fin 6 → Fin S32768x1x8x2x2x64.rank)
  reducesTo_S32768x1x8x2x2x64_S32768x1x8x2x64_d4 : S32768x1x8x2x2x64.ReducesTo [4] S32768x1x8x2x64
  shapeCasts_S32768x1x8x2x64_S32768x1x1024 : S32768x1x8x2x64.ShapeCasts S32768x1x1024
  slices_S1x10x512x2x2_S1x1x512x2x2_0_7_0_0_0 : S1x10x512x2x2.Slices ![0, 7, 0, 0, 0] S1x1x512x2x2
  shapeCasts_S1x512x2x2_S1x4x128x2x2 : S1x512x2x2.ShapeCasts S1x4x128x2x2
  transposes_S1x4x128x2x2_S1x4x2x2x128_0_1_3_4_2 : S1x4x128x2x2.Transposes [0, 1, 3, 4, 2] S1x4x2x2x128
  shapeCasts_S32768x1x1024_S32768x1x4x1x2x128 : S32768x1x1024.ShapeCasts S32768x1x4x1x2x128
  bcast_S1x4x2x2x128_S1x1x4x2x2x128_1_2_3_4_5 : S1x4x2x2x128.BroadcastsInDim S1x1x4x2x2x128 (![1, 2, 3, 4, 5] : Fin 5 → Fin S1x1x4x2x2x128.rank)
  bcast_S1x1x4x2x2x128_S32768x1x4x2x2x128_0_1_2_3_4_5 : S1x1x4x2x2x128.BroadcastsInDim S32768x1x4x2x2x128 (![0, 1, 2, 3, 4, 5] : Fin 6 → Fin S32768x1x4x2x2x128.rank)
  bcast_S32768x1x4x1x2x128_S32768x1x4x2x2x128_0_1_2_3_4_5 : S32768x1x4x1x2x128.BroadcastsInDim S32768x1x4x2x2x128 (![0, 1, 2, 3, 4, 5] : Fin 6 → Fin S32768x1x4x2x2x128.rank)
  reducesTo_S32768x1x4x2x2x128_S32768x1x4x2x128_d4 : S32768x1x4x2x2x128.ReducesTo [4] S32768x1x4x2x128
  shapeCasts_S32768x1x4x2x128_S32768x1x1024 : S32768x1x4x2x128.ShapeCasts S32768x1x1024
  slices_S1x10x512x2x2_S1x1x512x2x2_0_8_0_0_0 : S1x10x512x2x2.Slices ![0, 8, 0, 0, 0] S1x1x512x2x2
  shapeCasts_S1x512x2x2_S1x2x256x2x2 : S1x512x2x2.ShapeCasts S1x2x256x2x2
  transposes_S1x2x256x2x2_S1x2x2x2x256_0_1_3_4_2 : S1x2x256x2x2.Transposes [0, 1, 3, 4, 2] S1x2x2x2x256
  shapeCasts_S32768x1x1024_S32768x1x2x1x2x256 : S32768x1x1024.ShapeCasts S32768x1x2x1x2x256
  bcast_S1x2x2x2x256_S1x1x2x2x2x256_1_2_3_4_5 : S1x2x2x2x256.BroadcastsInDim S1x1x2x2x2x256 (![1, 2, 3, 4, 5] : Fin 5 → Fin S1x1x2x2x2x256.rank)
  bcast_S1x1x2x2x2x256_S32768x1x2x2x2x256_0_1_2_3_4_5 : S1x1x2x2x2x256.BroadcastsInDim S32768x1x2x2x2x256 (![0, 1, 2, 3, 4, 5] : Fin 6 → Fin S32768x1x2x2x2x256.rank)
  bcast_S32768x1x2x1x2x256_S32768x1x2x2x2x256_0_1_2_3_4_5 : S32768x1x2x1x2x256.BroadcastsInDim S32768x1x2x2x2x256 (![0, 1, 2, 3, 4, 5] : Fin 6 → Fin S32768x1x2x2x2x256.rank)
  reducesTo_S32768x1x2x2x2x256_S32768x1x2x2x256_d4 : S32768x1x2x2x2x256.ReducesTo [4] S32768x1x2x2x256
  shapeCasts_S32768x1x2x2x256_S32768x1x1024 : S32768x1x2x2x256.ShapeCasts S32768x1x1024
  slices_S1x10x512x2x2_S1x1x512x2x2_0_9_0_0_0 : S1x10x512x2x2.Slices ![0, 9, 0, 0, 0] S1x1x512x2x2
  shapeCasts_S1x512x2x2_S1x1x512x2x2 : S1x512x2x2.ShapeCasts S1x1x512x2x2
  transposes_S1x1x512x2x2_S1x1x2x2x512_0_1_3_4_2 : S1x1x512x2x2.Transposes [0, 1, 3, 4, 2] S1x1x2x2x512
  shapeCasts_S32768x1x1024_S32768x1x1x1x2x512 : S32768x1x1024.ShapeCasts S32768x1x1x1x2x512
  bcast_S1x1x2x2x512_S1x1x1x2x2x512_1_2_3_4_5 : S1x1x2x2x512.BroadcastsInDim S1x1x1x2x2x512 (![1, 2, 3, 4, 5] : Fin 5 → Fin S1x1x1x2x2x512.rank)
  bcast_S1x1x1x2x2x512_S32768x1x1x2x2x512_0_1_2_3_4_5 : S1x1x1x2x2x512.BroadcastsInDim S32768x1x1x2x2x512 (![0, 1, 2, 3, 4, 5] : Fin 6 → Fin S32768x1x1x2x2x512.rank)
  bcast_S32768x1x1x1x2x512_S32768x1x1x2x2x512_0_1_2_3_4_5 : S32768x1x1x1x2x512.BroadcastsInDim S32768x1x1x2x2x512 (![0, 1, 2, 3, 4, 5] : Fin 6 → Fin S32768x1x1x2x2x512.rank)
  reducesTo_S32768x1x1x2x2x512_S32768x1x1x2x512_d4 : S32768x1x1x2x2x512.ReducesTo [4] S32768x1x1x2x512
  shapeCasts_S32768x1x1x2x512_S32768x1x1024 : S32768x1x1x2x512.ShapeCasts S32768x1x1024
  shapeCasts_S32768x1x1024_S32768x1024 : S32768x1x1024.ShapeCasts S32768x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)

variable [Facts₀]

class Facts : Prop extends Facts₀ where

variable [Facts]
-- ==== Proof.KiEntry.lean ====
/-
  The program up to its one kernel region: the 244 host operations that lay the four entry arrays out, then the
  launch. `V` is what each buffer holds when the region is entered; the three arguments are found there as launched
  (no host operation writes them); `iblk` is a window's block at a grid point, and an input window's staging buffer
  holds it at every point, whether the pipeline fetched it there or not (the entry arrays and the bias are fetched
  once, at the first point, and stay). `frame_of` reads the frame claim's post off a run to the library's
  `FramePost`.
-/
import proofs.«126611_j34359738515_1_alg».proof.Proof.Gen.KernelIdeal.Launch
import proofs.«126611_j34359738515_1_alg».proof.Proof.Gen.KernelIdeal.Points
import Idealize.ShloMosaic.Lib.Pipeline.FrameBody

set_option maxRecDepth 16384

noncomputable section

namespace Cert.KernelIdeal.Bfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- Core `c`'s TensorCore buffers when the region is entered: after the host operations. -/
abbrev V (c : Dev nD) (b : Ref sig .tc) : Buf (Elt F) ((c : Thread nD τ).loc b) :=
  StableHlo.after (List.flatten [hostOps0]) (fun b => m (c, b)) b

set_option maxHeartbeats 4000000 in
theorem hostOps0_fresh : (hostOps0 : List (HloOp τ sig (Elt F))).Forall fun op => op.fresh = ∅ := by
  simp only [List.Forall]; repeat' constructor

/-- @main up to the region: the host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry one and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry one and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the region-entry one and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is the region-entry one and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is the region-entry one and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a run to the library's `FramePost`: `x` and the bias are windows' arrays, read
    back by the library's `arrAt_in`; the twiddle array is no window's, and is kept by the post's second clause. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 5).trans (((dats 0 c).arrAt_in 5 rfl _).trans ((hA c 5).trans (V_main_arg2 m c)))⟩) h

end Cert.KernelIdeal.Bfly

end
-- ==== Proof.KiBody.lean ====
/-
  What the butterfly kernel's body stores into its output block, as ONE term over the skeleton's payloads: the block
  of `x`, the four entry arrays' ten rows and the bias, loaded through the body's own rectangles. `outv` follows the
  body statement by statement; `mid` is the row block after stages 0 to 4 and `tailv` what stages 5 to 9 and the bias
  make of a row block, so that `outv` is `tailv` of `mid` (the rotations of a stage's result are the payloads'
  own definitions unfolded).
-/
import proofs.«126611_j34359738515_1_alg».proof.Proof.Gen.KernelIdeal.Skeleton
import Idealize.ShloMosaic.Lib.Pipeline.FrameBody

noncomputable section

namespace Cert.KernelIdeal.Bfly

open Idealize.ShloMosaic Idealize.SL.Sem Cert.KernelIdeal Cert.KernelIdeal.Gen

variable {F : FTy → Type} [FloatOps F]

/-- The whole block of `x` (and of the output). -/
abbrev rX : Rect S512x1024 := Rect.unit (s := S512x1024) ![0, 0] S512x1024.size inb_S512x1024_S512x1024_0_0
/-- Row `k` of an entry array. -/
abbrev rT0 : Rect S10x1024 := Rect.unit (s := S10x1024) ![0, 0] S1x1024.size inb_S10x1024_S1x1024_0_0
abbrev rT1 : Rect S10x1024 := Rect.unit (s := S10x1024) ![1, 0] S1x1024.size inb_S10x1024_S1x1024_1_0
abbrev rT2 : Rect S10x1024 := Rect.unit (s := S10x1024) ![2, 0] S1x1024.size inb_S10x1024_S1x1024_2_0
abbrev rT3 : Rect S10x1024 := Rect.unit (s := S10x1024) ![3, 0] S1x1024.size inb_S10x1024_S1x1024_3_0
abbrev rT4 : Rect S10x1024 := Rect.unit (s := S10x1024) ![4, 0] S1x1024.size inb_S10x1024_S1x1024_4_0
abbrev rT5 : Rect S10x1024 := Rect.unit (s := S10x1024) ![5, 0] S1x1024.size inb_S10x1024_S1x1024_5_0
abbrev rT6 : Rect S10x1024 := Rect.unit (s := S10x1024) ![6, 0] S1x1024.size inb_S10x1024_S1x1024_6_0
abbrev rT7 : Rect S10x1024 := Rect.unit (s := S10x1024) ![7, 0] S1x1024.size inb_S10x1024_S1x1024_7_0
abbrev rT8 : Rect S10x1024 := Rect.unit (s := S10x1024) ![8, 0] S1x1024.size inb_S10x1024_S1x1024_8_0
abbrev rT9 : Rect S10x1024 := Rect.unit (s := S10x1024) ![9, 0] S1x1024.size inb_S10x1024_S1x1024_9_0
/-- The whole bias. -/
abbrev rB : Rect S1024 := Rect.unit (s := S1024) ![0] S1024.size inb_S1024_S1024_0

/-- The output block after the body, statement by statement as the body computes it. -/
def outv (x0 : Vec F S512x1024 .f32) (t00 t01 t10 t11 : Vec F S10x1024 .f32) (bb : Vec F S1024 .f32) : Vec F S512x1024 .f32 :=
  let v0 := View.ld x0 rX
  let v3 := View.ld t00 rT0; let v5 := View.ld t01 rT0; let v7 := View.ld t10 rT0; let v9 := View.ld t11 rT0
  let v35 := View.ld t00 rT1; let v37 := View.ld t01 rT1
  let v32 := k0_pay2 v0 v3 v5 v7 v9; let v33 := k0_pay3 v0 v3 v5 v7 v9; let v34 := k0_pay4 v0 v3 v5 v7 v9; let v36 := k0_pay5 v35
  let v39 := View.ld t10 rT1; let v41 := View.ld t11 rT1
  let v67 := View.ld t00 rT2; let v69 := View.ld t01 rT2; let v71 := View.ld t10 rT2; let v73 := View.ld t11 rT2
  let v64 := k0_pay6 v32 v33 v34 v36 v37 v39 v41; let v66 := k0_pay7 v32 v33 v34 v36 v37 v39 v41
  let v72 := k0_pay8 v71; let v74 := k0_pay9 v73
  let v77 := k0_pay10 v32 v33 v34 v36 v37 v39 v41 v67; let v80 := k0_pay11 v32 v33 v34 v36 v37 v39 v41 v69
  let v99 := View.ld t00 rT3; let v101 := View.ld t01 rT3; let v103 := View.ld t10 rT3; let v105 := View.ld t11 rT3
  let v113 := k0_pay13 v64 v66 v72 v74 v77 v80 v99 v101; let v120 := k0_pay14 v64 v66 v72 v74 v77 v80 v103 v105
  let v125 : IVec S512x1024 32 := k0_pay15
  let v131 := View.ld t00 rT4; let v133 := View.ld t01 rT4; let v135 := View.ld t10 rT4; let v137 := View.ld t11 rT4
  let v163 := View.ld t00 rT5; let v165 := View.ld t01 rT5
  let v160 := k0_pay16 v113 v120 v125 v131 v133 v135 v137; let v161 := k0_pay17 v113 v120 v125 v131 v133 v135 v137
  let v162 := k0_pay18 v113 v120 v125 v131 v133 v135 v137; let v164 := k0_pay19 v163
  let v167 := View.ld t10 rT5; let v169 := View.ld t11 rT5
  let v195 := View.ld t00 rT6; let v197 := View.ld t01 rT6; let v199 := View.ld t10 rT6; let v201 := View.ld t11 rT6
  let v192 := k0_pay20 v160 v161 v162 v164 v165 v167 v169; let v194 := k0_pay21 v160 v161 v162 v164 v165 v167 v169
  let v200 := k0_pay22 v199; let v202 := k0_pay23 v201
  let v205 := k0_pay24 v160 v161 v162 v164 v165 v167 v169 v195; let v208 := k0_pay25 v160 v161 v162 v164 v165 v167 v169 v197
  let v227 := View.ld t00 rT7; let v229 := View.ld t01 rT7; let v231 := View.ld t10 rT7; let v233 := View.ld t11 rT7
  let v241 := k0_pay27 v192 v194 v200 v202 v205 v208 v227 v229; let v248 := k0_pay28 v192 v194 v200 v202 v205 v208 v231 v233
  let v253 : IVec S512x1024 32 := k0_pay29
  let v259 := View.ld t00 rT8; let v261 := View.ld t01 rT8; let v263 := View.ld t10 rT8; let v265 := View.ld t11 rT8
  let v291 := View.ld t00 rT9; let v293 := View.ld t01 rT9
  let v288 := k0_pay30 v241 v248 v253 v259 v261 v263 v265; let v289 := k0_pay31 v241 v248 v253 v259 v261 v263 v265
  let v290 := k0_pay32 v241 v248 v253 v259 v261 v263 v265; let v292 := k0_pay33 v291
  let v295 := View.ld t10 rT9; let v297 := View.ld t11 rT9; let v321 := View.ld bb rB
  View.canon [⟨rX, k0_pay1 v288 v289 v290 v292 v293 v295 v297 v321⟩]

/-- The row block after stages 0 to 4 (the body's value `%160`). -/
def mid (x0 : Vec F S512x1024 .f32) (t00 t01 t10 t11 : Vec F S10x1024 .f32) : Vec F S512x1024 .f32 :=
  let v0 := View.ld x0 rX
  let v3 := View.ld t00 rT0; let v5 := View.ld t01 rT0; let v7 := View.ld t10 rT0; let v9 := View.ld t11 rT0
  let v35 := View.ld t00 rT1; let v37 := View.ld t01 rT1
  let v32 := k0_pay2 v0 v3 v5 v7 v9; let v33 := k0_pay3 v0 v3 v5 v7 v9; let v34 := k0_pay4 v0 v3 v5 v7 v9; let v36 := k0_pay5 v35
  let v39 := View.ld t10 rT1; let v41 := View.ld t11 rT1
  let v67 := View.ld t00 rT2; let v69 := View.ld t01 rT2; let v71 := View.ld t10 rT2; let v73 := View.ld t11 rT2
  let v64 := k0_pay6 v32 v33 v34 v36 v37 v39 v41; let v66 := k0_pay7 v32 v33 v34 v36 v37 v39 v41
  let v72 := k0_pay8 v71; let v74 := k0_pay9 v73
  let v77 := k0_pay10 v32 v33 v34 v36 v37 v39 v41 v67; let v80 := k0_pay11 v32 v33 v34 v36 v37 v39 v41 v69
  let v99 := View.ld t00 rT3; let v101 := View.ld t01 rT3; let v103 := View.ld t10 rT3; let v105 := View.ld t11 rT3
  let v113 := k0_pay13 v64 v66 v72 v74 v77 v80 v99 v101; let v120 := k0_pay14 v64 v66 v72 v74 v77 v80 v103 v105
  let v125 : IVec S512x1024 32 := k0_pay15
  let v131 := View.ld t00 rT4; let v133 := View.ld t01 rT4; let v135 := View.ld t10 rT4; let v137 := View.ld t11 rT4
  k0_pay16 v113 v120 v125 v131 v133 v135 v137

/-- Stages 5 to 9 and the bias on a row block `h` (the body's values from `%161` on, its `%160` being `h`). -/
def tailv (h : Vec F S512x1024 .f32) (t00 t01 t10 t11 : Vec F S10x1024 .f32) (bb : Vec F S1024 .f32) : Vec F S512x1024 .f32 :=
  let v161 : FVec F S512x1024 .f32 := dynamicRotate 1 992#32 none h rotates_S512x1024_d1
  let v162 : FVec F S512x1024 .f32 := dynamicRotate 1 32#32 none h rotates_S512x1024_d1
  let v163 := View.ld t00 rT5; let v165 := View.ld t01 rT5
  let v164 := k0_pay19 v163
  let v167 := View.ld t10 rT5; let v169 := View.ld t11 rT5
  let v195 := View.ld t00 rT6; let v197 := View.ld t01 rT6; let v199 := View.ld t10 rT6; let v201 := View.ld t11 rT6
  let v192 := k0_pay20 h v161 v162 v164 v165 v167 v169; let v194 := k0_pay21 h v161 v162 v164 v165 v167 v169
  let v200 := k0_pay22 v199; let v202 := k0_pay23 v201
  let v205 := k0_pay24 h v161 v162 v164 v165 v167 v169 v195; let v208 := k0_pay25 h v161 v162 v164 v165 v167 v169 v197
  let v227 := View.ld t00 rT7; let v229 := View.ld t01 rT7; let v231 := View.ld t10 rT7; let v233 := View.ld t11 rT7
  let v241 := k0_pay27 v192 v194 v200 v202 v205 v208 v227 v229; let v248 := k0_pay28 v192 v194 v200 v202 v205 v208 v231 v233
  let v253 : IVec S512x1024 32 := k0_pay29
  let v259 := View.ld t00 rT8; let v261 := View.ld t01 rT8; let v263 := View.ld t10 rT8; let v265 := View.ld t11 rT8
  let v291 := View.ld t00 rT9; let v293 := View.ld t01 rT9
  let v288 := k0_pay30 v241 v248 v253 v259 v261 v263 v265; let v289 := k0_pay31 v241 v248 v253 v259 v261 v263 v265
  let v290 := k0_pay32 v241 v248 v253 v259 v261 v263 v265; let v292 := k0_pay33 v291
  let v295 := View.ld t10 rT9; let v297 := View.ld t11 rT9; let v321 := View.ld bb rB
  k0_pay1 v288 v289 v290 v292 v293 v295 v297 v321

/-- The body's stored block is stages 5 to 9 and the bias on the block after stages 0 to 4. -/
theorem outv_eq_tail (x0 : Vec F S512x1024 .f32) (t00 t01 t10 t11 : Vec F S10x1024 .f32) (bb : Vec F S1024 .f32) :
    outv x0 t00 t01 t10 t11 bb = View.canon [⟨rX, tailv (mid x0 t00 t01 t10 t11) t00 t01 t10 t11 bb⟩] := rfl

end Cert.KernelIdeal.Bfly

end
-- ==== Proof.KiFrame.lean ====
/-
  The frame of the butterfly program: every weakly fair execution terminates without a fault and leaves the three
  arguments as launched. The kernel body, on whole staging buffers holding a block of `x`, the four entry arrays and
  the bias, runs to the end and leaves the inputs' buffers as they were and the output's at `outv` of them (its one
  store covers the block); the pipeline's proof data says so at every grid point; the library's frame theorem runs
  the 64 points.
-/
import proofs.«126611_j34359738515_1_alg».proof.Proof.KiEntry
import proofs.«126611_j34359738515_1_alg».proof.Proof.KiBody
import Idealize.ShloMosaic.Lib.Pipeline.FrameBody
import Idealize.ShloMosaic.Lib.Ring
import Idealize.ShloMosaic.Lib.Tactic

set_option maxRecDepth 16384

noncomputable section

namespace Cert.KernelIdeal.Bfly

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's one store is the whole output block, so it covers it. -/
theorem cover_out (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

set_option maxHeartbeats 4000000 in
/-- The kernel body on whole staging memrefs, the inputs' at contents `x0 … bb` and the output's at anything, runs to
    the continuation holding the inputs' as they were and the output's at `outv` of the inputs'. -/
theorem sound_kernel (c : Dev nD) (E : Set ℕ) (i : grid0.Coords)
    (arg1 : Memref sig .tc .vmem S512x1024 .f32) (harg1 : arg1.IsWhole) (arg2 : Memref sig .tc .vmem S10x1024 .f32) (harg2 : arg2.IsWhole)
    (arg3 : Memref sig .tc .vmem S10x1024 .f32) (harg3 : arg3.IsWhole) (arg4 : Memref sig .tc .vmem S10x1024 .f32) (harg4 : arg4.IsWhole)
    (arg5 : Memref sig .tc .vmem S10x1024 .f32) (harg5 : arg5.IsWhole) (arg6 : Memref sig .tc .vmem S1024 .f32) (harg6 : arg6.IsWhole)
    (arg7 : Memref sig .tc .vmem S512x1024 .f32) (harg7 : arg7.IsWhole)
    (x0 : Vec F S512x1024 .f32) (t00 t01 t10 t11 : Vec F S10x1024 .f32) (bb : Vec F S1024 .f32) (K : PUnit → sProp 𝕄) :
    iprop(owns (c : Thread nD τ) arg1 fullShare x0 ∗ owns (c : Thread nD τ) arg2 fullShare t00 ∗ owns (c : Thread nD τ) arg3 fullShare t01
        ∗ owns (c : Thread nD τ) arg4 fullShare t10 ∗ owns (c : Thread nD τ) arg5 fullShare t11 ∗ owns (c : Thread nD τ) arg6 fullShare bb
        ∗ (∃ d, owns (c : Thread nD τ) arg7 fullShare d)
        ∗ (iprop(owns (c : Thread nD τ) arg1 fullShare x0 ∗ owns (c : Thread nD τ) arg2 fullShare t00 ∗ owns (c : Thread nD τ) arg3 fullShare t01
            ∗ owns (c : Thread nD τ) arg4 fullShare t10 ∗ owns (c : Thread nD τ) arg5 fullShare t11 ∗ owns (c : Thread nD τ) arg6 fullShare bb
            ∗ owns (c : Thread nD τ) arg7 fullShare (outv x0 t00 t01 t10 t11 bb)) -∗ K ⟨⟩))
      ⊢ wp frame (wpE (defs₀ (F := F)) Variants.none c none) E (cc0__butterfly_kernel i arg1 harg1 arg2 harg2 arg3 harg3 arg4 harg4 arg5 harg5 arg6 harg6 arg7 harg7) K := by
  simp only [cc0__butterfly_kernel_eq_skeleton]; unfold cc0__butterfly_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-- The proof data of the one pipeline on core `c`: the arrays as the region finds them; after the body at point `t`
    each input's buffer at its block and the output's at `outv` of the input blocks; the invariant the untouched scoped
    rest and generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outv (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outv (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Bfly

end
-- ==== Proof.Spec.lean ====
/-
  The butterfly network as one function of the argument arrays, over the extended reals.

  A row `h` of length 1024 goes through ten stages. Stage `k` has stride `s = 2^k`: the positions split into
  pairs `(p, p + s)` with bit `k` of `p` clear, the pair's number is `pairIdx k p = (p / 2s) · s + p % s`, and the
  pair is multiplied by a 2×2 matrix: position `p` with bit `k` clear receives `T 0 0 p · h p + T 0 1 p · h (p + s)`,
  position `p` with bit `k` set receives `T 1 0 p · h (p − s) + T 1 1 p · h p`. The matrix entries of stage `k` at
  position `p` are the twiddle array's `[0, k, pairIdx k p, o, i]`. After the tenth stage the bias is added.

  Arrays are read at NATURAL coordinates (`rd`: zero outside the array), so that the two programs' statements about
  blocks, rows and re-laid arrays compose without casts between index types.
-/
import Idealize.ShloMosaic.PureOps.Ideal
import Idealize.ShloMosaic.Lib.ValueIdx

noncomputable section

namespace Butterfly

open Idealize.ShloMosaic Idealize.ShloMosaic.ValueIdx

/-- An array read at natural coordinates: the entry when every coordinate is inside, zero otherwise. -/
def rd (s : Shape) (x : s.Idx → EReal) (c : Fin s.rank → ℕ) : EReal :=
  if h : ∀ a, c a < s.size a then x (fun a => ⟨c a, h a⟩) else 0

/-- An entry is the array read at the index's coordinates. -/
theorem rd_idx (s : Shape) (x : s.Idx → EReal) (i : s.Idx) : rd s x (fun a => (i a).val) = x i := by
  unfold rd
  rw [dif_pos (fun a => (i a).isLt)]

/-- Reading inside the array. -/
theorem rd_of_lt (s : Shape) (x : s.Idx → EReal) (c : Fin s.rank → ℕ) (h : ∀ a, c a < s.size a) :
    rd s x c = x (fun a => ⟨c a, h a⟩) := by
  unfold rd
  rw [dif_pos h]

/-- Reading outside the array. -/
theorem rd_of_not_lt (s : Shape) (x : s.Idx → EReal) (c : Fin s.rank → ℕ) (h : ¬ ∀ a, c a < s.size a) :
    rd s x c = 0 := by
  unfold rd
  rw [dif_neg h]

/-- The number of the pair that position `p` belongs to at stage `k`. -/
def pairIdx (k p : ℕ) : ℕ := (p / 2 ^ (k + 1)) * 2 ^ k + p % 2 ^ k

/-- One stage on a row, the matrix entries given per position: `T o i p`. -/
def stageT (T : ℕ → ℕ → ℕ → EReal) (k : ℕ) (h : ℕ → EReal) (p : ℕ) : EReal :=
  if (p / 2 ^ k) % 2 = 0 then T 0 0 p * h p + T 0 1 p * h (p + 2 ^ k)
  else T 1 0 p * h (p - 2 ^ k) + T 1 1 p * h p

/-- The first `n` stages, the entries given per stage and position: `T k o i p`. -/
def netT (T : ℕ → ℕ → ℕ → ℕ → EReal) : ℕ → (ℕ → EReal) → ℕ → EReal
  | 0, h => h
  | k + 1, h => stageT (T k) k (netT T k h)

theorem netT_zero (T : ℕ → ℕ → ℕ → ℕ → EReal) (h : ℕ → EReal) : netT T 0 h = h := rfl
theorem netT_succ (T : ℕ → ℕ → ℕ → ℕ → EReal) (k : ℕ) (h : ℕ → EReal) :
    netT T (k + 1) h = stageT (T k) k (netT T k h) := rfl

/-- Inside a row of length `2^(k+1) · a`, a position with bit `k` clear has its partner `p + 2^k` inside the row. -/
theorem partner_lt {k p N : ℕ} (hN : 2 ^ (k + 1) ∣ N) (hp : p < N) (hbit : (p / 2 ^ k) % 2 = 0) : p + 2 ^ k < N := by
  obtain ⟨a, rfl⟩ := hN
  have h2 : 0 < 2 ^ k := Nat.pos_of_ne_zero (by positivity)
  have hpow : 2 ^ (k + 1) = 2 ^ k * 2 := pow_succ 2 k
  rw [hpow] at hp ⊢
  have hq : p / 2 ^ k < 2 * a := by
    rw [Nat.div_lt_iff_lt_mul h2]; nlinarith
  have hq2 : p / 2 ^ k + 1 < 2 * a := by omega
  have : p < (p / 2 ^ k + 1) * 2 ^ k := Nat.lt_mul_of_div_lt (by omega) h2 |> fun h => by
    have := Nat.lt_succ_iff.mpr (le_refl (p / 2 ^ k))
    exact (Nat.div_lt_iff_lt_mul h2).mp this
  nlinarith

/-- One stage depends only on the entries and the row inside the row's length. -/
theorem stageT_congr {T T' : ℕ → ℕ → ℕ → EReal} {k N : ℕ} {h h' : ℕ → EReal} (hN : 2 ^ (k + 1) ∣ N)
    (hT : ∀ o i p, p < N → T o i p = T' o i p) (hh : ∀ p, p < N → h p = h' p) (p : ℕ) (hp : p < N) :
    stageT T k h p = stageT T' k h' p := by
  unfold stageT
  by_cases hbit : (p / 2 ^ k) % 2 = 0
  · rw [if_pos hbit, if_pos hbit, hT 0 0 p hp, hT 0 1 p hp, hh p hp, hh _ (partner_lt hN hp hbit)]
  · rw [if_neg hbit, if_neg hbit, hT 1 0 p hp, hT 1 1 p hp, hh p hp, hh _ (lt_of_le_of_lt (Nat.sub_le _ _) hp)]

/-- The first `n` stages depend only on the entries and the row inside the row's length. -/
theorem netT_congr {T T' : ℕ → ℕ → ℕ → ℕ → EReal} {N : ℕ} {h h' : ℕ → EReal} (n : ℕ) (hN : 2 ^ n ∣ N)
    (hT : ∀ k, k < n → ∀ o i p, p < N → T k o i p = T' k o i p) (hh : ∀ p, p < N → h p = h' p) :
    ∀ p, p < N → netT T n h p = netT T' n h' p := by
  induction n with
  | zero => exact hh
  | succ k ih =>
    intro p hp
    rw [netT_succ, netT_succ]
    exact stageT_congr hN (hT k (Nat.lt_succ_self k))
      (ih (Dvd.dvd.trans (pow_dvd_pow 2 (Nat.le_succ k)) hN) (fun j hj => hT j (Nat.lt_succ_of_lt hj))) p hp

/-- Stages `a, a+1, …, a+n-1` run on a row. -/
def netFrom (T : ℕ → ℕ → ℕ → ℕ → EReal) (a : ℕ) : ℕ → (ℕ → EReal) → ℕ → EReal
  | 0, h => h
  | n + 1, h => stageT (T (a + n)) (a + n) (netFrom T a n h)

theorem netFrom_succ (T : ℕ → ℕ → ℕ → ℕ → EReal) (a n : ℕ) (h : ℕ → EReal) :
    netFrom T a (n + 1) h = stageT (T (a + n)) (a + n) (netFrom T a n h) := rfl

/-- The first `a + n` stages are the first `a` followed by stages `a … a+n-1`. -/
theorem netT_add (T : ℕ → ℕ → ℕ → ℕ → EReal) (a n : ℕ) (h : ℕ → EReal) :
    netT T (a + n) h = netFrom T a n (netT T a h) := by
  induction n with
  | zero => rfl
  | succ n ih => rw [← Nat.add_assoc, netT_succ, netFrom_succ, ih]

/-- Stages `a … a+n-1` depend only on the entries and the row inside the row's length. -/
theorem netFrom_congr {T T' : ℕ → ℕ → ℕ → ℕ → EReal} {N : ℕ} {h h' : ℕ → EReal} (a n : ℕ) (hN : 2 ^ (a + n) ∣ N)
    (hT : ∀ k, k < a + n → ∀ o i p, p < N → T k o i p = T' k o i p) (hh : ∀ p, p < N → h p = h' p) :
    ∀ p, p < N → netFrom T a n h p = netFrom T' a n h' p := by
  induction n with
  | zero => exact hh
  | succ k ih =>
    intro p hp
    rw [netFrom_succ, netFrom_succ]
    exact stageT_congr (by rw [Nat.add_assoc] at *; exact hN) (hT (a + k) (by omega))
      (ih (Dvd.dvd.trans (pow_dvd_pow 2 (by omega)) hN) (fun j hj => hT j (by omega))) p hp

/-- A pair's number at stage `k < 10` of a row of 1024 is below 512. -/
theorem pairIdx_lt {k p : ℕ} (hk : k < 10) (hp : p < 1024) : pairIdx k p < 512 := by
  unfold pairIdx
  interval_cases k <;> norm_num <;> omega

/-- Reading at the coordinates of `ix1`, `ix2`, `ix3`, `ix5`. -/
theorem rd_ix1 {n0 : ℕ} (x : (⟨1, ![n0]⟩ : Shape).Idx → EReal) (a : Fin n0) :
    rd ⟨1, ![n0]⟩ x ![a.val] = x (ix1 a) := by
  rw [rd_of_lt _ _ _ (fun d => by match d with | ⟨0, _⟩ => exact a.isLt)]
  exact congrArg x (funext fun d => by match d with | ⟨0, _⟩ => rfl)
theorem rd_ix2 {n0 n1 : ℕ} (x : (⟨2, ![n0, n1]⟩ : Shape).Idx → EReal) (a : Fin n0) (b : Fin n1) :
    rd ⟨2, ![n0, n1]⟩ x ![a.val, b.val] = x (ix2 a b) := by
  rw [rd_of_lt _ _ _ (fun d => by match d with | ⟨0, _⟩ => exact a.isLt | ⟨1, _⟩ => exact b.isLt)]
  exact congrArg x (funext fun d => by match d with | ⟨0, _⟩ => rfl | ⟨1, _⟩ => rfl)
theorem rd_ix3 {n0 n1 n2 : ℕ} (x : (⟨3, ![n0, n1, n2]⟩ : Shape).Idx → EReal) (a : Fin n0) (b : Fin n1) (c : Fin n2) :
    rd ⟨3, ![n0, n1, n2]⟩ x ![a.val, b.val, c.val] = x (ix3 a b c) := by
  rw [rd_of_lt _ _ _ (fun d => by match d with | ⟨0, _⟩ => exact a.isLt | ⟨1, _⟩ => exact b.isLt | ⟨2, _⟩ => exact c.isLt)]
  exact congrArg x (funext fun d => by match d with | ⟨0, _⟩ => rfl | ⟨1, _⟩ => rfl | ⟨2, _⟩ => rfl)
theorem rd_ix5 {n0 n1 n2 n3 n4 : ℕ} (x : (⟨5, ![n0, n1, n2, n3, n4]⟩ : Shape).Idx → EReal)
    (a : Fin n0) (b : Fin n1) (c : Fin n2) (d : Fin n3) (e : Fin n4) :
    rd ⟨5, ![n0, n1, n2, n3, n4]⟩ x ![a.val, b.val, c.val, d.val, e.val] = x (ix5 a b c d e) := by
  rw [rd_of_lt _ _ _ (fun f => by
    match f with | ⟨0, _⟩ => exact a.isLt | ⟨1, _⟩ => exact b.isLt | ⟨2, _⟩ => exact c.isLt | ⟨3, _⟩ => exact d.isLt | ⟨4, _⟩ => exact e.isLt)]
  exact congrArg x (funext fun f => by match f with | ⟨0, _⟩ => rfl | ⟨1, _⟩ => rfl | ⟨2, _⟩ => rfl | ⟨3, _⟩ => rfl | ⟨4, _⟩ => rfl)

/-- Reading a rank-2 array outside its second extent gives zero. -/
theorem rd2_of_ge {n0 n1 : ℕ} (x : (⟨2, ![n0, n1]⟩ : Shape).Idx → EReal) (a b : ℕ) (hb : n1 ≤ b) :
    rd ⟨2, ![n0, n1]⟩ x ![a, b] = 0 :=
  rd_of_not_lt _ _ _ (fun h => absurd (h (1 : Fin 2)) (by show ¬ b < n1; omega))

/-- The twiddle array's matrix entries per stage and position. -/
def Ttw (tw : (⟨5, ![1, 10, 512, 2, 2]⟩ : Shape).Idx → EReal) (k o i p : ℕ) : EReal :=
  rd ⟨5, ![1, 10, 512, 2, 2]⟩ tw ![0, k, pairIdx k p, o, i]

/-- THE RESULT: entry `(b, p)` is the ten stages run on row `b` of `x`, read at `p`, plus the bias at `p`. -/
def G (x : (⟨2, ![32768, 1024]⟩ : Shape).Idx → EReal) (tw : (⟨5, ![1, 10, 512, 2, 2]⟩ : Shape).Idx → EReal)
    (bias : (⟨1, ![1024]⟩ : Shape).Idx → EReal) : (⟨2, ![32768, 1024]⟩ : Shape).Idx → EReal :=
  fun i => netT (Ttw tw) 10 (fun p => rd ⟨2, ![32768, 1024]⟩ x ![(i 0).val, p]) (i 1).val
    + rd ⟨1, ![1024]⟩ bias ![(i 1).val]

end Butterfly

end
-- ==== Proof.KiTrows.lean ====
/-
  The four entry arrays of the kernel, read as the matrix entries of the network's stages: entry `(o, i)` of stage
  `k` at position `p` is row `k`, column `p` of the array for `(o, i)`.
-/
import proofs.«126611_j34359738515_1_alg».proof.Proof.KiBody
import proofs.«126611_j34359738515_1_alg».proof.Proof.Spec

noncomputable section

namespace Cert.KernelIdeal.Bfly

open Idealize.ShloMosaic Idealize.ShloMosaic.ValueIdx Cert.KernelIdeal Butterfly

/-- The kernel's matrix entries per stage and position, from its four entry arrays `[10, 1024]`. -/
def Trows (t00 t01 t10 t11 : Vec Ideal S10x1024 .f32) (k o i p : ℕ) : EReal :=
  rd S10x1024 (if o = 0 then (if i = 0 then t00 else t01) else (if i = 0 then t10 else t11)) ![k, p]

theorem Trows_00 (t00 t01 t10 t11 : Vec Ideal S10x1024 .f32) (k p : ℕ) : Trows t00 t01 t10 t11 k 0 0 p = rd S10x1024 t00 ![k, p] := rfl
theorem Trows_01 (t00 t01 t10 t11 : Vec Ideal S10x1024 .f32) (k p : ℕ) : Trows t00 t01 t10 t11 k 0 1 p = rd S10x1024 t01 ![k, p] := rfl
theorem Trows_10 (t00 t01 t10 t11 : Vec Ideal S10x1024 .f32) (k p : ℕ) : Trows t00 t01 t10 t11 k 1 0 p = rd S10x1024 t10 ![k, p] := rfl
theorem Trows_11 (t00 t01 t10 t11 : Vec Ideal S10x1024 .f32) (k p : ℕ) : Trows t00 t01 t10 t11 k 1 1 p = rd S10x1024 t11 ![k, p] := rfl

end Cert.KernelIdeal.Bfly

end
-- ==== Proof.KiStageLemmas.lean ====
/-
  One stage of the kernel's body on a row block, read at an entry. A stage with stride `s = 2^k` tests bit `k` of the
  lane number, and at a lane with the bit clear takes `a00 · h + a01 · (h at lane p + s)`, at a lane with the bit set
  `a10 · (h at lane p − s) + a11 · h`, the four rows `a..` being broadcast over the block's rows. Read at `(r, p)` this is
  the network's `stageT` on row `r`.
-/
import proofs.«126611_j34359738515_1_alg».proof.Proof.KiTrows
import Idealize.ShloMosaic.Lib.Pipeline.Value
import Idealize.ShloMosaic.Lib.ValueLayout
import Idealize.ShloMosaic.Lib.KernelVsHost

noncomputable section

namespace Cert.KernelIdeal.Bfly

open Idealize.ShloMosaic Idealize.ShloMosaic.ValueIdx Cert.KernelIdeal Cert.KernelIdeal.Gen Butterfly

/-! ## Words: the test of bit `k` of a lane number -/

/-- For a lane number `p < 1024` and `k < 10`, the word `(p >> k) & 1` compared with zero is the bit `1` exactly when
    bit `k` of `p` is clear: the arithmetic shift of a non-negative word is the logical one, whose value is
    `p / 2^k`, and the conjunction with `1` is the remainder modulo 2. -/
theorem bitword (k p : ℕ) (hk : k < 10) (hp : p < 1024) :
    IntOp.cmpi .eq (IntOp.andi (IntOp.shrsi .vector (BitVec.ofNat 32 p) (BitVec.ofNat 32 k)) 1#32) 0#32
      = if (p / 2 ^ k) % 2 = 0 then 1#1 else 0#1 := by
  have hkt : (BitVec.ofNat 32 k).toNat = k := by
    rw [BitVec.toNat_ofNat]; exact Nat.mod_eq_of_lt (by omega)
  have hpt : (BitVec.ofNat 32 p).toNat = p := by
    rw [BitVec.toNat_ofNat]; exact Nat.mod_eq_of_lt (by omega)
  have hmsb : (BitVec.ofNat 32 p).msb = false := by
    rw [BitVec.msb_eq_decide, hpt]; exact decide_eq_false (by omega)
  unfold IntOp.cmpi IntOp.andi IntOp.shrsi
  rw [if_pos (by rw [hkt]; omega)]
  show BitVec.ofBool ((BitVec.ofNat 32 p).sshiftRight (BitVec.ofNat 32 k).toNat &&& 1#32 == 0#32) = _
  rw [hkt, BitVec.sshiftRight_eq_of_msb_false hmsb]
  have hq : ((BitVec.ofNat 32 p >>> k) &&& 1#32).toNat = (p / 2 ^ k) % 2 := by
    rw [BitVec.toNat_and, BitVec.toNat_ushiftRight, hpt, Nat.shiftRight_eq_div_pow]
    exact Nat.and_one_is_mod _
  by_cases hb : (p / 2 ^ k) % 2 = 0
  · rw [if_pos hb]
    have : (BitVec.ofNat 32 p >>> k) &&& 1#32 = 0#32 := BitVec.eq_of_toNat_eq (by rw [hq, hb]; rfl)
    rw [this]; rfl
  · rw [if_neg hb]
    have : ((BitVec.ofNat 32 p >>> k) &&& 1#32 == 0#32) = false := by
      rw [beq_eq_false_iff_ne]
      intro h
      exact hb (by rw [← hq, h]; rfl)
    rw [this]; rfl

/-- The lane number of the block, read at `(r, p)`, is the word of `p`. -/
theorem lane_apply (r : Fin 512) (p : Fin 1024) :
    iota .tc S512x1024 32 [1] iota_S512x1024_d1_w32 (ix2 r p) = BitVec.ofNat 32 p.val := by
  show BitVec.ofNat 32 (0 * 1024 + p.val) = BitVec.ofNat 32 p.val
  rw [Nat.zero_mul, Nat.zero_add]

/-- The bit test of a stage, read at `(r, p)`. -/
theorem bittest_apply (k : ℕ) (hk : k < 10) (r : Fin 512) (p : Fin 1024) :
    cmpi .eq (andi (shrsi (iota .tc S512x1024 32 [1] iota_S512x1024_d1_w32) (broadcast S512x1024 (BitVec.ofNat 32 k)))
      (broadcast S512x1024 1#32)) (broadcast S512x1024 0#32) (ix2 r p)
      = if (p.val / 2 ^ k) % 2 = 0 then 1#1 else 0#1 := by
  show IntOp.cmpi .eq (IntOp.andi (IntOp.shrsi .vector (iota .tc S512x1024 32 [1] iota_S512x1024_d1_w32 (ix2 r p))
    (BitVec.ofNat 32 k)) 1#32) 0#32 = _
  rw [lane_apply]
  exact bitword k p.val hk p.isLt

/-! ## Rows of the entry arrays -/

/-- A row `[1, 1024]` cast to `[1024]`, back to `[1, 1024]` and broadcast over the 512 rows of the block. -/
abbrev rowb (a : Vec Ideal S1x1024 .f32) : FVec Ideal S512x1024 .f32 :=
  broadcastTo S512x1024 (shapeCast S1x1024 (shapeCast S1024 a shapeCasts_S1x1024_S1024) shapeCasts_S1024_S1x1024)
    broadcasts_S1x1024_S512x1024

/-- It reads, at `(r, p)`, the row at `p`. -/
theorem rowb_apply (a : Vec Ideal S1x1024 .f32) (r : Fin 512) (p : Fin 1024) :
    rowb a (ix2 r p) = a (ix2 (0 : Fin 1) p) :=
  (broadcastTo_1b_ab_apply _ _ r p).trans ((shapeCast_a_1a_apply _ _ 0 p).trans (shapeCast_1a_a_apply _ _ p))

/-- Row `k` of an entry array `[10, 1024]`, loaded as a `[1, 1024]` slice, reads at `(0, p)` the array at `(k, p)`. -/
theorem ld_row (t : Vec Ideal S10x1024 .f32) (k : ℕ) (hk : k < 10)
    (inb : ∀ a, (![k, 0] : Fin 2 → Nat) a + S1x1024.size a ≤ S10x1024.size a) (p : Fin 1024) :
    View.ld t (Rect.unit (s := S10x1024) ![k, 0] S1x1024.size inb) (ix2 (0 : Fin 1) p) = rd S10x1024 t ![k, p.val] := by
  refine Eq.trans ?_ (rd_ix2 t (⟨k, hk⟩ : Fin 10) p).symm
  refine congrArg t (funext fun a => Fin.ext ?_)
  match a with
  | ⟨0, _⟩ => show k + 1 * 0 = k; omega
  | ⟨1, _⟩ => show 0 + 1 * p.val = p.val; omega

/-! ## The two lane rolls -/

/-- A roll of the lanes by `1024 − s` reads, at a lane `p` with `p + s` inside the row, the operand at lane `p + s`. -/
theorem rot_up (h : FVec Ideal S512x1024 .f32) (sb : BitVec 32) (s : ℕ) (hs : s ≤ 1024) (hsb : sb.toNat = 1024 - s)
    (r : Fin 512) (p : Fin 1024) (hlt : p.val + s < 1024) :
    dynamicRotate 1 sb none h rotates_S512x1024_d1 (ix2 r p) = h (ix2 r (⟨p.val + s, hlt⟩ : Fin 1024)) := by
  refine dynamicRotate_apply 1 sb h rotates_S512x1024_d1 (ix2 r p) (ix2 r (⟨p.val + s, hlt⟩ : Fin 1024)) (fun b => ?_)
  match b with
  | ⟨0, _⟩ => rfl
  | ⟨1, _⟩ =>
    show p.val + s = (p.val + 1024 - sb.toNat % 1024) % 1024
    rw [hsb]; omega

/-- A roll of the lanes by `s` reads, at a lane `p ≥ s`, the operand at lane `p − s`. -/
theorem rot_dn (h : FVec Ideal S512x1024 .f32) (sb : BitVec 32) (s : ℕ) (hs : s < 1024) (hsb : sb.toNat = s)
    (r : Fin 512) (p : Fin 1024) (hle : s ≤ p.val) :
    dynamicRotate 1 sb none h rotates_S512x1024_d1 (ix2 r p)
      = h (ix2 r (⟨p.val - s, lt_of_le_of_lt (Nat.sub_le _ _) p.isLt⟩ : Fin 1024)) := by
  refine dynamicRotate_apply 1 sb h rotates_S512x1024_d1 (ix2 r p)
    (ix2 r (⟨p.val - s, lt_of_le_of_lt (Nat.sub_le _ _) p.isLt⟩ : Fin 1024)) (fun b => ?_)
  match b with
  | ⟨0, _⟩ => rfl
  | ⟨1, _⟩ =>
    show p.val - s = (p.val + 1024 - sb.toNat % 1024) % 1024
    have := p.isLt
    rw [hsb]; omega

/-! ## One stage -/

/-- One stage of the body on a row block `h`: `kb` the bit tested, `up` and `dn` the two roll amounts, `a..` the four
    rows of matrix entries. -/
def stageV (kb up dn : BitVec 32) (h : FVec Ideal S512x1024 .f32) (a00 a01 a10 a11 : Vec Ideal S1x1024 .f32) :
    FVec Ideal S512x1024 .f32 :=
  select
    (cmpi .eq (andi (shrsi (iota .tc S512x1024 32 [1] iota_S512x1024_d1_w32) (broadcast S512x1024 kb))
      (broadcast S512x1024 1#32)) (broadcast S512x1024 0#32))
    (addf (mulf (rowb a00) h) (mulf (rowb a01) (dynamicRotate 1 up none h rotates_S512x1024_d1)))
    (addf (mulf (rowb a10) (dynamicRotate 1 dn none h rotates_S512x1024_d1)) (mulf (rowb a11) h))

/-- A stage read at `(r, p)` is the network's stage on row `r`: `g` is row `r` of `h` as a function of the natural
    lane number and `T o i` the rows `a..` likewise. The partner lane is read only where it is inside the row. -/
theorem stageV_apply (k : ℕ) (hk : k < 10) (kb up dn : BitVec 32) (hkb : kb = BitVec.ofNat 32 k)
    (hup : up.toNat = 1024 - 2 ^ k) (hdn : dn.toNat = 2 ^ k)
    (h : FVec Ideal S512x1024 .f32) (a00 a01 a10 a11 : Vec Ideal S1x1024 .f32)
    (T : ℕ → ℕ → ℕ → EReal) (g : ℕ → EReal) (r : Fin 512)
    (hg : ∀ q : Fin 1024, h (ix2 r q) = g q.val)
    (h00 : ∀ q : Fin 1024, a00 (ix2 (0 : Fin 1) q) = T 0 0 q.val)
    (h01 : ∀ q : Fin 1024, a01 (ix2 (0 : Fin 1) q) = T 0 1 q.val)
    (h10 : ∀ q : Fin 1024, a10 (ix2 (0 : Fin 1) q) = T 1 0 q.val)
    (h11 : ∀ q : Fin 1024, a11 (ix2 (0 : Fin 1) q) = T 1 1 q.val)
    (p : Fin 1024) :
    stageV kb up dn h a00 a01 a10 a11 (ix2 r p) = stageT T k g p.val := by
  have hs9 : 2 ^ k ≤ 2 ^ 9 := Nat.pow_le_pow_right (by norm_num) (by omega)
  have hs : 2 ^ k < 1024 := lt_of_le_of_lt hs9 (by norm_num)
  have hs0 : 0 < 2 ^ k := Nat.pos_of_ne_zero (by positivity)
  subst hkb
  unfold stageV stageT
  rw [select_apply, bittest_apply k hk r p, addf_apply, addf_apply, mulf_apply, mulf_apply, mulf_apply, mulf_apply,
    rowb_apply, rowb_apply, rowb_apply, rowb_apply, h00, h01, h10, h11, hg]
  by_cases hb : (p.val / 2 ^ k) % 2 = 0
  · rw [if_pos hb, if_pos hb, select_one]
    have hlt : p.val + 2 ^ k < 1024 :=
      partner_lt (N := 1024) (by rw [show 1024 = 2 ^ 10 by norm_num]; exact pow_dvd_pow 2 (by omega)) p.isLt hb
    rw [rot_up h up (2 ^ k) (le_of_lt hs) hup r p hlt, hg]
  · rw [if_neg hb, if_neg hb, select_zero]
    have hle : 2 ^ k ≤ p.val := by
      by_contra hc
      exact hb (by rw [Nat.div_eq_of_lt (by omega)])
    rw [rot_dn h dn (2 ^ k) hs hdn r p hle, hg]

/-- A stage whose four rows are row `k` of the four entry arrays, read at `(r, p)`: the network's stage `k` with the
    arrays' rows as matrix entries. -/
theorem stageV_rows_apply (k : ℕ) (hk : k < 10) (kb up dn : BitVec 32) (hkb : kb = BitVec.ofNat 32 k)
    (hup : up.toNat = 1024 - 2 ^ k) (hdn : dn.toNat = 2 ^ k)
    (h : FVec Ideal S512x1024 .f32) (t00 t01 t10 t11 : Vec Ideal S10x1024 .f32)
    (inb : ∀ a, (![k, 0] : Fin 2 → Nat) a + S1x1024.size a ≤ S10x1024.size a)
    (g : ℕ → EReal) (r : Fin 512) (hg : ∀ q : Fin 1024, h (ix2 r q) = g q.val) (p : Fin 1024) :
    stageV kb up dn h (View.ld t00 (Rect.unit (s := S10x1024) ![k, 0] S1x1024.size inb))
      (View.ld t01 (Rect.unit (s := S10x1024) ![k, 0] S1x1024.size inb))
      (View.ld t10 (Rect.unit (s := S10x1024) ![k, 0] S1x1024.size inb))
      (View.ld t11 (Rect.unit (s := S10x1024) ![k, 0] S1x1024.size inb)) (ix2 r p)
      = stageT (Trows t00 t01 t10 t11 k) k g p.val :=
  stageV_apply k hk kb up dn hkb hup hdn h _ _ _ _ (Trows t00 t01 t10 t11 k) g r hg
    (fun q => ld_row t00 k hk inb q) (fun q => ld_row t01 k hk inb q)
    (fun q => ld_row t10 k hk inb q) (fun q => ld_row t11 k hk inb q) p

end Cert.KernelIdeal.Bfly

end
-- ==== Proof.KiVal1.lean ====
/-
  Stages 0 to 4 of the kernel's body, read at an entry of the row block.
-/
import proofs.«126611_j34359738515_1_alg».proof.Proof.KiTrows
import proofs.«126611_j34359738515_1_alg».proof.Proof.KiStageLemmas
import Idealize.ShloMosaic.Lib.Pipeline.Value
import Idealize.ShloMosaic.Lib.ValueLayout
import Idealize.ShloMosaic.Lib.KernelVsHost

noncomputable section

namespace Cert.KernelIdeal.Bfly

open Idealize.ShloMosaic Idealize.ShloMosaic.ValueIdx Cert.KernelIdeal Cert.KernelIdeal.Gen Butterfly

/-- The row block after stages 0 to 4 is five stages of the body, strides 1, 2, 4, 8, 16, on the block of `x`, each
    with its row of the four entry arrays. -/
theorem mid_eq (x0 : Vec Ideal S512x1024 .f32) (t00 t01 t10 t11 : Vec Ideal S10x1024 .f32) :
    mid x0 t00 t01 t10 t11 =
      stageV 4#32 1008#32 16#32
        (stageV 3#32 1016#32 8#32
          (stageV 2#32 1020#32 4#32
            (stageV 1#32 1022#32 2#32
              (stageV 0#32 1023#32 1#32 (View.ld x0 rX)
                (View.ld t00 rT0) (View.ld t01 rT0) (View.ld t10 rT0) (View.ld t11 rT0))
              (View.ld t00 rT1) (View.ld t01 rT1) (View.ld t10 rT1) (View.ld t11 rT1))
            (View.ld t00 rT2) (View.ld t01 rT2) (View.ld t10 rT2) (View.ld t11 rT2))
          (View.ld t00 rT3) (View.ld t01 rT3) (View.ld t10 rT3) (View.ld t11 rT3))
        (View.ld t00 rT4) (View.ld t01 rT4) (View.ld t10 rT4) (View.ld t11 rT4) := rfl

/-- The block of `x`, loaded whole, reads at `(r, q)` the array at `(r, q)`. -/
theorem ld_block (x0 : Vec Ideal S512x1024 .f32) (r : Fin 512) (q : Fin 1024) :
    View.ld x0 rX (ix2 r q) = rd S512x1024 x0 ![r.val, q.val] := by
  refine Eq.trans ?_ (rd_ix2 x0 r q).symm
  refine congrArg x0 (funext fun a => Fin.ext ?_)
  match a with
  | ⟨0, _⟩ => show 0 + 1 * r.val = r.val; omega
  | ⟨1, _⟩ => show 0 + 1 * q.val = q.val; omega

/-- Entry `(r, p)` of the row block after stages 0 to 4 is the first five stages of the network run on row `r` of
    the block of `x`, with the entry arrays' rows as matrix entries. -/
theorem mid_apply (x0 : Vec Ideal S512x1024 .f32) (t00 t01 t10 t11 : Vec Ideal S10x1024 .f32) (r : Fin 512) (p : Fin 1024) :
    mid x0 t00 t01 t10 t11 (ix2 r p)
      = netT (Trows t00 t01 t10 t11) 5 (fun p' => rd S512x1024 x0 ![r.val, p']) p.val := by
  rw [mid_eq]
  -- stage by stage along row `r`: after stage `k` the row is the network's first `k + 1` stages
  have e0 : ∀ q : Fin 1024,
      stageV 0#32 1023#32 1#32 (View.ld x0 rX) (View.ld t00 rT0) (View.ld t01 rT0) (View.ld t10 rT0) (View.ld t11 rT0) (ix2 r q)
        = netT (Trows t00 t01 t10 t11) 1 (fun p' => rd S512x1024 x0 ![r.val, p']) q.val :=
    fun q => stageV_rows_apply 0 (by norm_num) 0#32 1023#32 1#32 rfl rfl rfl _ t00 t01 t10 t11 inb_S10x1024_S1x1024_0_0
      (netT (Trows t00 t01 t10 t11) 0 (fun p' => rd S512x1024 x0 ![r.val, p'])) r (ld_block x0 r) q
  have e1 := fun q : Fin 1024 =>
    stageV_rows_apply 1 (by norm_num) 1#32 1022#32 2#32 rfl rfl rfl _ t00 t01 t10 t11 inb_S10x1024_S1x1024_1_0
      (netT (Trows t00 t01 t10 t11) 1 (fun p' => rd S512x1024 x0 ![r.val, p'])) r e0 q
  have e2 := fun q : Fin 1024 =>
    stageV_rows_apply 2 (by norm_num) 2#32 1020#32 4#32 rfl rfl rfl _ t00 t01 t10 t11 inb_S10x1024_S1x1024_2_0
      (netT (Trows t00 t01 t10 t11) 2 (fun p' => rd S512x1024 x0 ![r.val, p'])) r e1 q
  have e3 := fun q : Fin 1024 =>
    stageV_rows_apply 3 (by norm_num) 3#32 1016#32 8#32 rfl rfl rfl _ t00 t01 t10 t11 inb_S10x1024_S1x1024_3_0
      (netT (Trows t00 t01 t10 t11) 3 (fun p' => rd S512x1024 x0 ![r.val, p'])) r e2 q
  exact stageV_rows_apply 4 (by norm_num) 4#32 1008#32 16#32 rfl rfl rfl _ t00 t01 t10 t11 inb_S10x1024_S1x1024_4_0
    (netT (Trows t00 t01 t10 t11) 4 (fun p' => rd S512x1024 x0 ![r.val, p'])) r e3 p

end Cert.KernelIdeal.Bfly

end
-- ==== Proof.KiVal2.lean ====
/-
  Stages 5 to 9 of the kernel's body and the bias, read at an entry of the row block.

  Each stage is a selected sum of two products: the entry rows broadcast down the block, times the block and its two
  lane rolls (a stride further on, a stride back), the choice made by bit `k` of the lane number. Read at entry
  `(r, p)` this is one stage of the network on row `r`; where a roll wraps around the end
  of the row, the bit test chooses the other branch.
-/
import proofs.«126611_j34359738515_1_alg».proof.Proof.KiTrows
import Idealize.ShloMosaic.Lib.Pipeline.Value
import Idealize.ShloMosaic.Lib.ValueLayout
import Idealize.ShloMosaic.Lib.KernelVsHost

noncomputable section

namespace Cert.KernelIdeal.Bfly

open Idealize.ShloMosaic Idealize.ShloMosaic.ValueIdx Cert.KernelIdeal Cert.KernelIdeal.Gen Butterfly

/-- A one-row array cast to a vector and back, broadcast down the rows, reads the row at the column. -/
private theorem bcRow (a : Vec Ideal S1x1024 .f32) (r : Fin 512) (p : Fin 1024) :
    broadcastTo S512x1024 (shapeCast S1x1024 (shapeCast S1024 a shapeCasts_S1x1024_S1024) shapeCasts_S1024_S1x1024)
      broadcasts_S1x1024_S512x1024 (ix2 r p) = a (ix2 (0 : Fin 1) p) :=
  (broadcastTo_1b_ab_apply _ _ r p).trans
    ((shapeCast_a_1a_apply _ _ (0 : Fin 1) p).trans (shapeCast_1a_a_apply _ _ p))

/-- Row `k` of an entry array, loaded as a one-row array, reads the array at `(k, p)`. -/
private theorem ldRow (t : Vec Ideal S10x1024 .f32) (k : ℕ) (hk : k < 10)
    (inb : ∀ a, (![k, 0] : Fin 2 → ℕ) a + S1x1024.size a ≤ S10x1024.size a) (p : Fin 1024) :
    View.ld t (Rect.unit (s := S10x1024) ![k, 0] S1x1024.size inb) (ix2 (0 : Fin 1) p) = rd S10x1024 t ![k, p.val] := by
  refine Eq.trans ?_ (rd_ix2 t (⟨k, hk⟩ : Fin 10) p).symm
  refine congrArg t (funext fun a => Fin.ext ?_)
  match a with
  | ⟨0, _⟩ => show k + 1 * 0 = k; omega
  | ⟨1, _⟩ => show 0 + 1 * p.val = p.val; omega

/-- A lane roll by `1024 - s` reads the row `s` places further on, where that is inside the row. -/
private theorem rollUp (g : FVec Ideal S512x1024 .f32) (f : ℕ → EReal) (r : Fin 512)
    (hg : ∀ q : Fin 1024, g (ix2 r q) = f q.val) (sb : BitVec 32) (s : ℕ) (hsb : sb.toNat = 1024 - s) (hs : s ≤ 1024)
    (p : Fin 1024) (hp : p.val + s < 1024) :
    dynamicRotate 1 sb none g rotates_S512x1024_d1 (ix2 r p) = f (p.val + s) := by
  refine (dynamicRotate_apply (1 : Fin 2) sb g rotates_S512x1024_d1 (ix2 r p)
    (ix2 r (⟨p.val + s, hp⟩ : Fin 1024)) (fun b => ?_)).trans (hg ⟨p.val + s, hp⟩)
  match b with
  | ⟨0, _⟩ => rfl
  | ⟨1, _⟩ =>
    show p.val + s = (p.val + 1024 - sb.toNat % 1024) % 1024
    rw [hsb]; omega

/-- A lane roll by `s` reads the row `s` places back, where that is inside the row. -/
private theorem rollDown (g : FVec Ideal S512x1024 .f32) (f : ℕ → EReal) (r : Fin 512)
    (hg : ∀ q : Fin 1024, g (ix2 r q) = f q.val) (sb : BitVec 32) (s : ℕ) (hsb : sb.toNat = s)
    (p : Fin 1024) (hp : s ≤ p.val) :
    dynamicRotate 1 sb none g rotates_S512x1024_d1 (ix2 r p) = f (p.val - s) := by
  have hlt : p.val - s < 1024 := lt_of_le_of_lt (Nat.sub_le _ _) p.isLt
  refine (dynamicRotate_apply (1 : Fin 2) sb g rotates_S512x1024_d1 (ix2 r p)
    (ix2 r (⟨p.val - s, hlt⟩ : Fin 1024)) (fun b => ?_)).trans (hg ⟨p.val - s, hlt⟩)
  match b with
  | ⟨0, _⟩ => rfl
  | ⟨1, _⟩ =>
    show p.val - s = (p.val + 1024 - sb.toNat % 1024) % 1024
    have := p.isLt
    rw [hsb]; omega

/-- The word test of bit `k` of a position below 1024: shift right by `k`, mask with one, compare with zero. -/
private theorem bitTest (k : ℕ) (hk : k < 32) (p : ℕ) (hp : p < 1024) :
    IntOp.cmpi .eq (IntOp.andi (IntOp.shrsi .vector (BitVec.ofNat 32 p) (BitVec.ofNat 32 k)) 1#32) 0#32
      = if (p / 2 ^ k) % 2 = 0 then 1#1 else 0#1 := by
  have hp32 : p < 2 ^ 32 := by omega
  have hk32 : k < 2 ^ 32 := by omega
  have hx : (BitVec.ofNat 32 p).toNat = p := by rw [BitVec.toNat_ofNat]; exact Nat.mod_eq_of_lt hp32
  have hy : (BitVec.ofNat 32 k).toNat = k := by rw [BitVec.toNat_ofNat]; exact Nat.mod_eq_of_lt hk32
  have hmsb : (BitVec.ofNat 32 p).msb = false := by
    rw [BitVec.msb_eq_false_iff_two_mul_lt, hx]; omega
  have hval : (IntOp.andi (IntOp.shrsi .vector (BitVec.ofNat 32 p) (BitVec.ofNat 32 k)) 1#32).toNat = (p / 2 ^ k) % 2 := by
    unfold IntOp.andi IntOp.shrsi
    rw [if_pos (by rw [hy]; exact hk), BitVec.sshiftRight', BitVec.sshiftRight_eq_of_msb_false hmsb, BitVec.toNat_and,
      BitVec.toNat_ushiftRight, hx, hy, Nat.shiftRight_eq_div_pow]
    exact Nat.and_one_is_mod _
  generalize IntOp.andi (IntOp.shrsi .vector (BitVec.ofNat 32 p) (BitVec.ofNat 32 k)) 1#32 = w at hval
  unfold IntOp.cmpi
  by_cases hb : (p / 2 ^ k) % 2 = 0
  · rw [if_pos hb]
    have hw : w = 0#32 := BitVec.eq_of_toNat_eq (by rw [hval, hb]; rfl)
    rw [hw]; rfl
  · rw [if_neg hb]
    have hw : (w == 0#32) = false := by
      rw [beq_eq_false_iff_ne]; intro h; apply hb; rw [← hval, h]; rfl
    show BitVec.ofBool (w == 0#32) = 0#1
    rw [hw]; rfl

/-- The kernel's test of bit `k` of the lane number, read at an entry of the block. -/
private theorem bitAt (k : ℕ) (hk : k < 32) (r : Fin 512) (q : Fin 1024) :
    cmpi .eq (andi (shrsi (iota .tc S512x1024 32 [1] iota_S512x1024_d1_w32) (broadcast S512x1024 (BitVec.ofNat 32 k)))
        (broadcast S512x1024 1#32)) (broadcast S512x1024 0#32) (ix2 r q)
      = if (q.val / 2 ^ k) % 2 = 0 then 1#1 else 0#1 := by
  show IntOp.cmpi .eq (IntOp.andi (IntOp.shrsi .vector (iota .tc S512x1024 32 [1] iota_S512x1024_d1_w32 (ix2 r q))
    (BitVec.ofNat 32 k)) 1#32) 0#32 = _
  rw [iota_single_apply]
  exact bitTest k hk q.val q.isLt

/-- One stage read at an entry of a row block: given that row `r` of the block `g` is `f`, that the two rolled blocks
    read `f` a stride further on and a stride back where those positions are inside the row, that the four broadcast
    entry rows read row `k` of the four entry arrays, and that the mask tests bit `k` of the position, the selected sum
    is stage `k` of `f`. -/
private theorem stageVal (k s : ℕ) (hs : 2 ^ k = s) (hk : k < 10) (t00 t01 t10 t11 : Vec Ideal S10x1024 .f32)
    (g gp gm : FVec Ideal S512x1024 .f32) (f : ℕ → EReal) (r : Fin 512)
    (hg : ∀ q : Fin 1024, g (ix2 r q) = f q.val)
    (hgp : ∀ q : Fin 1024, q.val + s < 1024 → gp (ix2 r q) = f (q.val + s))
    (hgm : ∀ q : Fin 1024, s ≤ q.val → gm (ix2 r q) = f (q.val - s))
    (a00 a01 a10 a11 : FVec Ideal S512x1024 .f32)
    (h00 : ∀ q : Fin 1024, a00 (ix2 r q) = rd S10x1024 t00 ![k, q.val])
    (h01 : ∀ q : Fin 1024, a01 (ix2 r q) = rd S10x1024 t01 ![k, q.val])
    (h10 : ∀ q : Fin 1024, a10 (ix2 r q) = rd S10x1024 t10 ![k, q.val])
    (h11 : ∀ q : Fin 1024, a11 (ix2 r q) = rd S10x1024 t11 ![k, q.val])
    (c : IVec S512x1024 1) (hc : ∀ q : Fin 1024, c (ix2 r q) = if (q.val / 2 ^ k) % 2 = 0 then 1#1 else 0#1)
    (p : Fin 1024) :
    select c (addf (mulf a00 g) (mulf a01 gp)) (addf (mulf a10 gm) (mulf a11 g)) (ix2 r p)
      = stageT (Trows t00 t01 t10 t11 k) k f p.val := by
  subst hs
  show Scalar.select (c (ix2 r p)) (a00 (ix2 r p) * g (ix2 r p) + a01 (ix2 r p) * gp (ix2 r p))
    (a10 (ix2 r p) * gm (ix2 r p) + a11 (ix2 r p) * g (ix2 r p)) = _
  rw [hc p, h00 p, h01 p, h10 p, h11 p, hg p]
  unfold stageT
  by_cases hb : (p.val / 2 ^ k) % 2 = 0
  · have hN : 2 ^ (k + 1) ∣ 1024 := by
      have h2 : (1024 : ℕ) = 2 ^ 10 := by norm_num
      rw [h2]; exact pow_dvd_pow 2 (by omega)
    rw [if_pos hb, if_pos hb, select_one, hgp p (partner_lt hN p.isLt hb)]
    rfl
  · have hge : 2 ^ k ≤ p.val := by
      by_contra hlt
      exact hb (by rw [Nat.div_eq_of_lt (Nat.lt_of_not_le hlt)])
    rw [if_neg hb, if_neg hb, select_zero, hgm p hge]
    rfl

/-- A loaded entry row, cast to a vector and back and broadcast down the rows, reads the entry array at `(k, q)`. -/
private theorem bcLd (t : Vec Ideal S10x1024 .f32) (k : ℕ) (hk : k < 10)
    (inb : ∀ a, (![k, 0] : Fin 2 → ℕ) a + S1x1024.size a ≤ S10x1024.size a) (r : Fin 512) (q : Fin 1024) :
    broadcastTo S512x1024 (shapeCast S1x1024 (shapeCast S1024 (View.ld t (Rect.unit (s := S10x1024) ![k, 0] S1x1024.size inb))
      shapeCasts_S1x1024_S1024) shapeCasts_S1024_S1x1024) broadcasts_S1x1024_S512x1024 (ix2 r q)
      = rd S10x1024 t ![k, q.val] :=
  (bcRow _ r q).trans (ldRow t k hk inb q)

/-- Stage 5 (stride 32) read at an entry. -/
private theorem stage5 (t00 t01 t10 t11 : Vec Ideal S10x1024 .f32) (g : FVec Ideal S512x1024 .f32) (f : ℕ → EReal)
    (r : Fin 512) (hg : ∀ q : Fin 1024, g (ix2 r q) = f q.val) (p : Fin 1024) :
    k0_pay20 g (dynamicRotate 1 992#32 none g rotates_S512x1024_d1) (dynamicRotate 1 32#32 none g rotates_S512x1024_d1)
      (k0_pay19 (View.ld t00 rT5)) (View.ld t01 rT5) (View.ld t10 rT5) (View.ld t11 rT5) (ix2 r p)
      = stageT (Trows t00 t01 t10 t11 5) 5 f p.val := by
  unfold k0_pay20 k0_pay19
  exact stageVal 5 32 (by norm_num) (by norm_num) t00 t01 t10 t11 g _ _ f r hg
    (fun q hq => rollUp g f r hg 992#32 32 (by decide) (by norm_num) q hq)
    (fun q hq => rollDown g f r hg 32#32 32 (by decide) q hq)
    _ _ _ _
    (fun q => bcLd t00 5 (by norm_num) _ r q) (fun q => bcLd t01 5 (by norm_num) _ r q)
    (fun q => bcLd t10 5 (by norm_num) _ r q) (fun q => bcLd t11 5 (by norm_num) _ r q)
    _ (fun q => bitAt 5 (by norm_num) r q) p

/-- Stage 6 (stride 64) read at an entry. -/
private theorem stage6 (t00 t01 t10 t11 : Vec Ideal S10x1024 .f32) (v160 v161 v162 : FVec Ideal S512x1024 .f32)
    (v164 : FVec Ideal S1024 .f32) (v165 v167 v169 : Vec Ideal S1x1024 .f32) (f : ℕ → EReal) (r : Fin 512)
    (hg : ∀ q : Fin 1024, k0_pay20 v160 v161 v162 v164 v165 v167 v169 (ix2 r q) = f q.val) (p : Fin 1024) :
    k0_pay26 (k0_pay20 v160 v161 v162 v164 v165 v167 v169) (k0_pay21 v160 v161 v162 v164 v165 v167 v169)
      (k0_pay22 (View.ld t10 rT6)) (k0_pay23 (View.ld t11 rT6))
      (k0_pay24 v160 v161 v162 v164 v165 v167 v169 (View.ld t00 rT6))
      (k0_pay25 v160 v161 v162 v164 v165 v167 v169 (View.ld t01 rT6)) (ix2 r p)
      = stageT (Trows t00 t01 t10 t11 6) 6 f p.val := by
  unfold k0_pay26 k0_pay21 k0_pay22 k0_pay23 k0_pay24 k0_pay25
  generalize k0_pay20 v160 v161 v162 v164 v165 v167 v169 = g at hg ⊢
  exact stageVal 6 64 (by norm_num) (by norm_num) t00 t01 t10 t11 g _ _ f r hg
    (fun q hq => rollUp g f r hg 960#32 64 (by decide) (by norm_num) q hq)
    (fun q hq => rollDown g f r hg 64#32 64 (by decide) q hq)
    _ _ _ _
    (fun q => bcLd t00 6 (by norm_num) _ r q) (fun q => bcLd t01 6 (by norm_num) _ r q)
    (fun q => bcLd t10 6 (by norm_num) _ r q) (fun q => bcLd t11 6 (by norm_num) _ r q)
    _ (fun q => bitAt 6 (by norm_num) r q) p

/-- Stage 7 (stride 128) read at an entry. -/
private theorem stage7 (t00 t01 t10 t11 : Vec Ideal S10x1024 .f32) (v192 v194 : FVec Ideal S512x1024 .f32)
    (v200 v202 : FVec Ideal S1024 .f32) (v205 v208 : FVec Ideal S512x1024 .f32) (f : ℕ → EReal) (r : Fin 512)
    (hg : ∀ q : Fin 1024, k0_pay26 v192 v194 v200 v202 v205 v208 (ix2 r q) = f q.val) (p : Fin 1024) :
    select (cmpi .eq k0_pay29 (broadcast S512x1024 0#32))
      (k0_pay27 v192 v194 v200 v202 v205 v208 (View.ld t00 rT7) (View.ld t01 rT7))
      (k0_pay28 v192 v194 v200 v202 v205 v208 (View.ld t10 rT7) (View.ld t11 rT7)) (ix2 r p)
      = stageT (Trows t00 t01 t10 t11 7) 7 f p.val := by
  unfold k0_pay27 k0_pay28 k0_pay29
  generalize k0_pay26 v192 v194 v200 v202 v205 v208 = g at hg ⊢
  exact stageVal 7 128 (by norm_num) (by norm_num) t00 t01 t10 t11 g _ _ f r hg
    (fun q hq => rollUp g f r hg 896#32 128 (by decide) (by norm_num) q hq)
    (fun q hq => rollDown g f r hg 128#32 128 (by decide) q hq)
    _ _ _ _
    (fun q => bcLd t00 7 (by norm_num) _ r q) (fun q => bcLd t01 7 (by norm_num) _ r q)
    (fun q => bcLd t10 7 (by norm_num) _ r q) (fun q => bcLd t11 7 (by norm_num) _ r q)
    _ (fun q => bitAt 7 (by norm_num) r q) p

/-- Stage 8 (stride 256) read at an entry. -/
private theorem stage8 (t00 t01 t10 t11 : Vec Ideal S10x1024 .f32) (v241 v248 : FVec Ideal S512x1024 .f32)
    (v253 : IVec S512x1024 32) (f : ℕ → EReal) (r : Fin 512)
    (hg : ∀ q : Fin 1024, select (cmpi .eq v253 (broadcast S512x1024 0#32)) v241 v248 (ix2 r q) = f q.val) (p : Fin 1024) :
    k0_pay30 v241 v248 v253 (View.ld t00 rT8) (View.ld t01 rT8) (View.ld t10 rT8) (View.ld t11 rT8) (ix2 r p)
      = stageT (Trows t00 t01 t10 t11 8) 8 f p.val := by
  unfold k0_pay30
  exact stageVal 8 256 (by norm_num) (by norm_num) t00 t01 t10 t11
    (select (cmpi .eq v253 (broadcast S512x1024 0#32)) v241 v248) _ _ f r hg
    (fun q hq => rollUp _ f r hg 768#32 256 (by decide) (by norm_num) q hq)
    (fun q hq => rollDown _ f r hg 256#32 256 (by decide) q hq)
    _ _ _ _
    (fun q => bcLd t00 8 (by norm_num) _ r q) (fun q => bcLd t01 8 (by norm_num) _ r q)
    (fun q => bcLd t10 8 (by norm_num) _ r q) (fun q => bcLd t11 8 (by norm_num) _ r q)
    _ (fun q => bitAt 8 (by norm_num) r q) p

/-- The bias, cast to one row and broadcast down the rows, reads the bias at the column. -/
private theorem biasAt (bb : Vec Ideal S1024 .f32) (r : Fin 512) (p : Fin 1024) :
    broadcastTo S512x1024 (shapeCast S1x1024 (View.ld bb rB) shapeCasts_S1024_S1x1024) broadcasts_S1x1024_S512x1024 (ix2 r p)
      = rd S1024 bb ![p.val] := by
  refine (broadcastTo_1b_ab_apply _ _ r p).trans ((shapeCast_a_1a_apply _ _ (0 : Fin 1) p).trans ?_)
  refine Eq.trans ?_ (rd_ix1 bb p).symm
  refine congrArg bb (funext fun a => Fin.ext ?_)
  match a with
  | ⟨0, _⟩ => show 0 + 1 * p.val = p.val; omega

/-- A sum of two blocks read at an entry, each summand's value given. -/
private theorem addAt (a b : FVec Ideal S512x1024 .f32) (i : S512x1024.Idx) (x y : EReal) (ha : a i = x) (hb : b i = y) :
    addf a b i = x + y := by
  rw [addf_apply, ha, hb]

/-- Stage 9 (stride 512) and the bias read at an entry. -/
private theorem stage9 (t00 t01 t10 t11 : Vec Ideal S10x1024 .f32) (bb : Vec Ideal S1024 .f32)
    (v241 v248 : FVec Ideal S512x1024 .f32) (v253 : IVec S512x1024 32) (v259 v261 v263 v265 : Vec Ideal S1x1024 .f32)
    (f : ℕ → EReal) (r : Fin 512)
    (hg : ∀ q : Fin 1024, k0_pay30 v241 v248 v253 v259 v261 v263 v265 (ix2 r q) = f q.val) (p : Fin 1024) :
    k0_pay1 (k0_pay30 v241 v248 v253 v259 v261 v263 v265) (k0_pay31 v241 v248 v253 v259 v261 v263 v265)
      (k0_pay32 v241 v248 v253 v259 v261 v263 v265) (k0_pay33 (View.ld t00 rT9)) (View.ld t01 rT9) (View.ld t10 rT9)
      (View.ld t11 rT9) (View.ld bb rB) (ix2 r p)
      = stageT (Trows t00 t01 t10 t11 9) 9 f p.val + rd S1024 bb ![p.val] := by
  unfold k0_pay1 k0_pay31 k0_pay32 k0_pay33
  generalize k0_pay30 v241 v248 v253 v259 v261 v263 v265 = g at hg ⊢
  exact addAt _ _ _ _ _
    (stageVal 9 512 (by norm_num) (by norm_num) t00 t01 t10 t11 g _ _ f r hg
      (fun q hq => rollUp g f r hg 512#32 512 (by decide) (by norm_num) q hq)
      (fun q hq => rollDown g f r hg 512#32 512 (by decide) q hq)
      _ _ _ _
      (fun q => bcLd t00 9 (by norm_num) _ r q) (fun q => bcLd t01 9 (by norm_num) _ r q)
      (fun q => bcLd t10 9 (by norm_num) _ r q) (fun q => bcLd t11 9 (by norm_num) _ r q)
      _ (fun q => bitAt 9 (by norm_num) r q) p)
    (biasAt bb r p)

/-- Entry `(r, p)` of what stages 5 to 9 and the bias make of a row block `h`: stages 5 to 9 of the network run on
    row `r` of `h`, read at `p`, plus the bias at `p`. -/
theorem tailv_apply (h : Vec Ideal S512x1024 .f32) (t00 t01 t10 t11 : Vec Ideal S10x1024 .f32) (bb : Vec Ideal S1024 .f32)
    (r : Fin 512) (p : Fin 1024) :
    tailv h t00 t01 t10 t11 bb (ix2 r p)
      = netFrom (Trows t00 t01 t10 t11) 5 5 (fun p' => rd S512x1024 h ![r.val, p']) p.val + rd S1024 bb ![p.val] := by
  have h5 := fun q : Fin 1024 => stage5 t00 t01 t10 t11 h (fun p' => rd S512x1024 h ![r.val, p']) r
    (fun q => (rd_ix2 h r q).symm) q
  have h6 := fun q : Fin 1024 => stage6 t00 t01 t10 t11 _ _ _ _ _ _ _ _ r h5 q
  have h7 := fun q : Fin 1024 => stage7 t00 t01 t10 t11 _ _ _ _ _ _ _ r h6 q
  have h8 := fun q : Fin 1024 => stage8 t00 t01 t10 t11 _ _ _ _ r h7 q
  exact stage9 t00 t01 t10 t11 bb _ _ _ _ _ _ _ _ r h8 p

end Cert.KernelIdeal.Bfly

end
-- ==== Proof.KiHostRows.lean ====
/-
  One row of an entry array, as a function of the twiddle array and of a stage's index vector, read at an entry.

  Stage `k`'s 512 matrices are the slice `[0, k]` of the twiddle array with its two unit axes dropped. The stage's
  index vector `q : [1024]` (entries below 512, so not negative as signed words) passes a wrap of negative entries
  that leaves it, becomes a column, and the matrices are gathered along the pair axis at it: result `(p, o, i)` is
  matrix `q p`'s entry `(o, i)`, the start index clamped into `[0, 511]`, which leaves an entry below 512. A slice
  keeps one `(o, i)`, a reshape and a broadcast make it a 1×1024 row; ten rows are stacked along the first axis.
-/
import proofs.«126611_j34359738515_1_alg».proof.Proof.Gen.KernelIdeal
import Idealize.ShloMosaic.Lib.ValueIdx
import Idealize.ShloMosaic.Lib.Pipeline.Value

noncomputable section

namespace Cert.KernelIdeal.Bfly

open Idealize.ShloMosaic Idealize.ShloMosaic.ValueIdx Idealize.SL.Sem
open Cert.KernelIdeal Cert.KernelIdeal.Gen

/-! ## Words: a table entry below 512 is not negative, and the gather's clamp leaves it -/

/-- A word below 512 is not below zero as a signed integer. -/
theorem slt_zero_of_lt (n : Nat) (hn : n < 512) : IntOp.cmpi .slt (BitVec.ofNat 32 n) 0#32 = 0#1 := by
  have h : ∀ k : Fin 512, IntOp.cmpi .slt (BitVec.ofNat 32 k.val) 0#32 = 0#1 := by decide +kernel
  exact h ⟨n, hn⟩

/-- A word below 512, read signed and clamped into `[0, 511]`, is itself. -/
theorem clamp_of_lt (n : Nat) (hn : n < 512) : min (BitVec.ofNat 32 n).toInt.toNat 511 = n := by
  have h : ∀ k : Fin 512, min (BitVec.ofNat 32 k.val).toInt.toNat 511 = k.val := by decide +kernel
  exact h ⟨n, hn⟩

section Rows
variable {α : Type}

/-- The gather along the pair axis read at `(p, o, i)`: the operand's row at the start index `q[p, 0]`, read signed
    and clamped into `[0, 511]`, its 2×2 entry `(o, i)`. -/
theorem gather_entry (w : S512x2x2.Idx → α) (q : IVec S1024x1 32) (p : Fin 1024) (o i : Fin 2) :
    Host.gather gather_S512x2x2_S1024x1_S1024x2x2_12_0_n_n_0_1_122 w q (ix3 p o i)
      = w (ix3 ⟨min (q (ix2 p 0)).toInt.toNat 511, Nat.lt_succ_of_le (Nat.min_le_right _ _)⟩ o i) := by
  unfold Host.gather
  refine congrArg w (funext fun a => Fin.ext ?_)
  match a with
  | ⟨0, _⟩ =>
    show gather_S512x2x2_S1024x1_S1024x2x2_12_0_n_n_0_1_122.start (ix3 p o i) q 0
        + gather_S512x2x2_S1024x1_S1024x2x2_12_0_n_n_0_1_122.batchCoord (ix3 p o i) 0
        + gather_S512x2x2_S1024x1_S1024x2x2_12_0_n_n_0_1_122.offCoord (ix3 p o i) 0 = min (q (ix2 p 0)).toInt.toNat 511
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S512x2x2_S1024x1_S1024x2x2_12_0_n_n_0_1_122.startIndexMap from List.mem_singleton.mpr rfl)]
    have hsi : gather_S512x2x2_S1024x1_S1024x2x2_12_0_n_n_0_1_122.siIdx (ix3 p o i)
        ⟨List.idxOf (0 : Fin 3) gather_S512x2x2_S1024x1_S1024x2x2_12_0_n_n_0_1_122.startIndexMap,
          List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show gather_S512x2x2_S1024x1_S1024x2x2_12_0_n_n_0_1_122.start (ix3 p o i) q 1
        + gather_S512x2x2_S1024x1_S1024x2x2_12_0_n_n_0_1_122.batchCoord (ix3 p o i) 1
        + gather_S512x2x2_S1024x1_S1024x2x2_12_0_n_n_0_1_122.offCoord (ix3 p o i) 1 = o.val
    have h1 : gather_S512x2x2_S1024x1_S1024x2x2_12_0_n_n_0_1_122.start (ix3 p o i) q 1 = 0 := rfl
    have h2 : gather_S512x2x2_S1024x1_S1024x2x2_12_0_n_n_0_1_122.batchCoord (ix3 p o i) 1 = 0 := rfl
    have h3 : gather_S512x2x2_S1024x1_S1024x2x2_12_0_n_n_0_1_122.offCoord (ix3 p o i) 1 = o.val := rfl
    rw [h1, h2, h3, Nat.zero_add]
  | ⟨2, _⟩ =>
    show gather_S512x2x2_S1024x1_S1024x2x2_12_0_n_n_0_1_122.start (ix3 p o i) q 2
        + gather_S512x2x2_S1024x1_S1024x2x2_12_0_n_n_0_1_122.batchCoord (ix3 p o i) 2
        + gather_S512x2x2_S1024x1_S1024x2x2_12_0_n_n_0_1_122.offCoord (ix3 p o i) 2 = i.val
    have h1 : gather_S512x2x2_S1024x1_S1024x2x2_12_0_n_n_0_1_122.start (ix3 p o i) q 2 = 0 := rfl
    have h2 : gather_S512x2x2_S1024x1_S1024x2x2_12_0_n_n_0_1_122.batchCoord (ix3 p o i) 2 = 0 := rfl
    have h3 : gather_S512x2x2_S1024x1_S1024x2x2_12_0_n_n_0_1_122.offCoord (ix3 p o i) 2 = i.val := rfl
    rw [h1, h2, h3, Nat.zero_add]

end Rows

section Rows2
variable {α : Type}

/-- A stage's index vector as the host lays it out before the gather: an entry below zero is moved up by 512, and the
    vector becomes a column. -/
def wrapIdx (q : IVec S1024 32) : IVec S1024x1 32 :=
  broadcastInDim S1024x1 ![0] bcast_S1024_S1024x1_0
    (select (cmpi .slt q (broadcastInDim S1024 ![] bcast_S_S1024 (constantI S_ 32 0#32)))
      (addi q (broadcastInDim S1024 ![] bcast_S_S1024 (constantI S_ 32 512#32))) q)

/-- An entry below 512 is not below zero: the column holds it unchanged. -/
theorem wrapIdx_apply (q : IVec S1024 32) (p : Fin 1024) (n : Nat) (hq : q (ix1 p) = BitVec.ofNat 32 n) (hn : n < 512) :
    wrapIdx q (ix2 p 0) = BitVec.ofNat 32 n := by
  unfold wrapIdx
  refine (broadcastInDim_apply _ bcast_S1024_S1024x1_0 _ (ix2 p 0) (ix1 p) (fun a => match a with
    | ⟨0, _⟩ => by show p.val = if (1024 : Nat) = 1 then 0 else p.val; rw [if_neg (by decide)])).trans ?_
  show Scalar.select (IntOp.cmpi .slt (q (ix1 p)) 0#32) (IntOp.addi (q (ix1 p)) 512#32) (q (ix1 p)) = _
  rw [hq, slt_zero_of_lt n hn, select_zero]

/-- Stage `k`'s 512 matrices: the slice of the twiddle array at `[0, k]`, its two unit axes dropped. -/
def stageTw (x : S1x10x512x2x2.Idx → α) (off : Fin 5 → Nat) (h : S1x10x512x2x2.Slices off S1x1x512x2x2) : S512x2x2.Idx → α :=
  shapeCast S512x2x2 (extractStridedSlice S1x1x512x2x2 off x h) shapeCasts_S1x1x512x2x2_S512x2x2

/-- Its entry `(q, o, i)` is the twiddle array's `[0, k, q, o, i]`. -/
theorem stageTw_apply (x : S1x10x512x2x2.Idx → α) (k : Fin 10) (off : Fin 5 → Nat) (h : S1x10x512x2x2.Slices off S1x1x512x2x2)
    (hoff : off = ![0, k.val, 0, 0, 0]) (q : Fin 512) (o i : Fin 2) :
    stageTw x off h (ix3 q o i) = x (ix5 0 k q o i) := by
  subst hoff
  unfold stageTw
  refine (shapeCast_apply _ shapeCasts_S1x1x512x2x2_S512x2x2 (ix3 q o i) (ix5 0 0 q o i) (by
    rewrite [Shape.rowMajor_val_five, Shape.rowMajor_val_three]
    show ((((0 * 1 + 0) * 512 + q.val) * 2 + o.val) * 2 + i.val) = (q.val * 2 + o.val) * 2 + i.val
    omega)).trans ?_
  exact extractStridedSlice_apply _ x h (ix5 0 0 q o i) (ix5 0 k q o i) (fun a => match a with
    | ⟨0, _⟩ => by show (0 : Nat) = 0 + 0; omega
    | ⟨1, _⟩ => by show k.val = k.val + 0; omega
    | ⟨2, _⟩ => by show q.val = 0 + q.val; omega
    | ⟨3, _⟩ => by show o.val = 0 + o.val; omega
    | ⟨4, _⟩ => by show i.val = 0 + i.val; omega)

/-- One row of an entry array: the stage's matrices gathered at the stage's index vector, the entry `off = (0, o, i)`
    of each kept, as a 1×1024 row. -/
def rowOf (w : S512x2x2.Idx → α) (q : IVec S1024 32) (off : Fin 3 → Nat) (h : S1024x2x2.Slices off S1024x1x1) : S1x1024.Idx → α :=
  broadcastInDim S1x1024 ![1] bcast_S1024_S1x1024_1
    (shapeCast S1024 (extractStridedSlice S1024x1x1 off
      (Host.gather gather_S512x2x2_S1024x1_S1024x2x2_12_0_n_n_0_1_122 w (wrapIdx q)) h) shapeCasts_S1024x1x1_S1024)

/-- The row at `p`, the index vector's entry `p` being `n < 512`: the matrix `n`'s entry `(o, i)`. -/
theorem rowOf_apply (w : S512x2x2.Idx → α) (q : IVec S1024 32) (o i : Fin 2) (off : Fin 3 → Nat) (h : S1024x2x2.Slices off S1024x1x1)
    (hoff : off = ![0, o.val, i.val]) (p : Fin 1024) (n : Nat) (hq : q (ix1 p) = BitVec.ofNat 32 n) (hn : n < 512) :
    rowOf w q off h (ix2 0 p) = w (ix3 ⟨n, hn⟩ o i) := by
  subst hoff
  unfold rowOf
  refine (broadcastInDim_apply _ bcast_S1024_S1x1024_1 _ (ix2 0 p) (ix1 p) (fun a => match a with
    | ⟨0, _⟩ => by show p.val = if (1024 : Nat) = 1 then 0 else p.val; rw [if_neg (by decide)])).trans ?_
  refine (shapeCast_apply _ shapeCasts_S1024x1x1_S1024 (ix1 p) (ix3 p 0 0) (by
    rewrite [Shape.rowMajor_val_three, Shape.rowMajor_val_one]
    show (p.val * 1 + 0) * 1 + 0 = p.val
    omega)).trans ?_
  refine (extractStridedSlice_apply _ _ h (ix3 p 0 0) (ix3 p o i) (fun a => match a with
    | ⟨0, _⟩ => by show p.val = 0 + p.val; omega
    | ⟨1, _⟩ => by show o.val = o.val + 0; omega
    | ⟨2, _⟩ => by show i.val = i.val + 0; omega)).trans ?_
  rw [gather_entry, wrapIdx_apply q p n hq hn]
  exact congrArg w (funext fun a => match a with
    | ⟨0, _⟩ => Fin.ext (clamp_of_lt n hn)
    | ⟨1, _⟩ => rfl
    | ⟨2, _⟩ => rfl)

/-- Ten rows stacked, read at row `k`, column `p`: row `k` at `p`. -/
theorem stack10_apply (r : Fin 10 → S1x1024.Idx → α)
    (h : Shape.Concatenates [S1x1024, S1x1024, S1x1024, S1x1024, S1x1024, S1x1024, S1x1024, S1x1024, S1x1024, S1x1024] S10x1024 0)
    (k : Fin 10) (p : Fin 1024) :
    concatenate S10x1024 0 [⟨S1x1024, r 0⟩, ⟨S1x1024, r 1⟩, ⟨S1x1024, r 2⟩, ⟨S1x1024, r 3⟩, ⟨S1x1024, r 4⟩,
      ⟨S1x1024, r 5⟩, ⟨S1x1024, r 6⟩, ⟨S1x1024, r 7⟩, ⟨S1x1024, r 8⟩, ⟨S1x1024, r 9⟩] h (ix2 k p) = r k (ix2 0 p) :=
  concatenate_ofFn_unit_apply (t := S10x1024) (s₁ := S1x1024) 0 r h rfl rfl (ix2 k p) k rfl (ix2 0 p)
    (fun b hb => match b with
      | ⟨0, _⟩ => absurd rfl hb
      | ⟨1, _⟩ => rfl)

end Rows2

end Cert.KernelIdeal.Bfly

end
-- ==== Proof.KiTables.lean ====
/-
  The ten literal index tables of the host's gathers: entry `p` of stage `k`'s table is the pair index
  `pairIdx k p = (p / 2^(k+1)) · 2^k + p % 2^k`, as a 32-bit word. Decided entry by entry over the 1024 positions.
-/
import proofs.«126611_j34359738515_1_alg».proof.KernelIdeal
import proofs.«126611_j34359738515_1_alg».proof.Proof.Spec

namespace Cert.KernelIdeal.Bfly

open Cert.KernelIdeal Butterfly

theorem lit0_eq : ∀ p : Fin 1024, lit0 p = BitVec.ofNat 32 (pairIdx 0 p.val) := by decide +kernel
theorem lit1_eq : ∀ p : Fin 1024, lit1 p = BitVec.ofNat 32 (pairIdx 1 p.val) := by decide +kernel
theorem lit2_eq : ∀ p : Fin 1024, lit2 p = BitVec.ofNat 32 (pairIdx 2 p.val) := by decide +kernel
theorem lit3_eq : ∀ p : Fin 1024, lit3 p = BitVec.ofNat 32 (pairIdx 3 p.val) := by decide +kernel
theorem lit4_eq : ∀ p : Fin 1024, lit4 p = BitVec.ofNat 32 (pairIdx 4 p.val) := by decide +kernel
theorem lit5_eq : ∀ p : Fin 1024, lit5 p = BitVec.ofNat 32 (pairIdx 5 p.val) := by decide +kernel
theorem lit6_eq : ∀ p : Fin 1024, lit6 p = BitVec.ofNat 32 (pairIdx 6 p.val) := by decide +kernel
theorem lit7_eq : ∀ p : Fin 1024, lit7 p = BitVec.ofNat 32 (pairIdx 7 p.val) := by decide +kernel
theorem lit8_eq : ∀ p : Fin 1024, lit8 p = BitVec.ofNat 32 (pairIdx 8 p.val) := by decide +kernel
theorem lit9_eq : ∀ p : Fin 1024, lit9 p = BitVec.ofNat 32 (pairIdx 9 p.val) := by decide +kernel

end Cert.KernelIdeal.Bfly
-- ==== Proof.KiHostT.lean ====
/-
  The four entry arrays the host operations lay out before the kernel region, read at an entry: row `k`, column `p`
  of the array for `(o, i)` is the twiddle array's `[0, k, pairIdx k p, o, i]` — a slice of stage `k`, a gather along
  the pair axis at a literal index table whose entry `p` is `pairIdx k p`, a slice of the 2×2 matrix's `(o, i)`, and
  the ten stages' rows stacked.
-/
import proofs.«126611_j34359738515_1_alg».proof.Proof.KiEntry
import proofs.«126611_j34359738515_1_alg».proof.Proof.Spec
import proofs.«126611_j34359738515_1_alg».proof.Proof.KiHostRows
import proofs.«126611_j34359738515_1_alg».proof.Proof.KiTables
import Idealize.ShloMosaic.Lib.ValueIdx
import Idealize.ShloMosaic.Lib.Pipeline.Value
import Idealize.ShloMosaic.Lib.StableHlo.Run

noncomputable section

namespace Cert.KernelIdeal.Bfly

open Idealize.ShloMosaic Idealize.ShloMosaic.TcCoe Idealize.ShloMosaic.ValueIdx Idealize.SL.Sem
open Idealize.ShloMosaic.StableHlo
open Cert.KernelIdeal Cert.KernelIdeal.Gen Butterfly

section Rows
variable {α : Type}

/-- A stage's index table as its buffer holds it, read at `p`: the pair's number of position `p`. -/
theorem tbl_apply (L : Fin 1024 → BitVec 32) (K : Nat) (hL : ∀ p : Fin 1024, L p = BitVec.ofNat 32 (pairIdx K p.val)) (p : Fin 1024) :
    (fun j : S1024.Idx => L (S1024.rowMajor j)) (ix1 p) = BitVec.ofNat 32 (pairIdx K p.val) := by
  show L (S1024.rowMajor (ix1 p)) = _
  rw [← hL p]
  exact congrArg L (Fin.ext (Shape.rowMajor_val_one (ix1 p)))

/-- The ten stages' rows of the entry array for the 2×2 entry at `off = (0, o, i)`: stage `k`'s matrices gathered at
    stage `k`'s table. -/
def rowsOI (x : S1x10x512x2x2.Idx → α) (off : Fin 3 → Nat) (hs : S1024x2x2.Slices off S1024x1x1) : Fin 10 → S1x1024.Idx → α :=
  ![rowOf (stageTw x ![0, 0, 0, 0, 0] slices_S1x10x512x2x2_S1x1x512x2x2_0_0_0_0_0) (fun j => lit0 (S1024.rowMajor j)) off hs,
    rowOf (stageTw x ![0, 1, 0, 0, 0] slices_S1x10x512x2x2_S1x1x512x2x2_0_1_0_0_0) (fun j => lit1 (S1024.rowMajor j)) off hs,
    rowOf (stageTw x ![0, 2, 0, 0, 0] slices_S1x10x512x2x2_S1x1x512x2x2_0_2_0_0_0) (fun j => lit2 (S1024.rowMajor j)) off hs,
    rowOf (stageTw x ![0, 3, 0, 0, 0] slices_S1x10x512x2x2_S1x1x512x2x2_0_3_0_0_0) (fun j => lit3 (S1024.rowMajor j)) off hs,
    rowOf (stageTw x ![0, 4, 0, 0, 0] slices_S1x10x512x2x2_S1x1x512x2x2_0_4_0_0_0) (fun j => lit4 (S1024.rowMajor j)) off hs,
    rowOf (stageTw x ![0, 5, 0, 0, 0] slices_S1x10x512x2x2_S1x1x512x2x2_0_5_0_0_0) (fun j => lit5 (S1024.rowMajor j)) off hs,
    rowOf (stageTw x ![0, 6, 0, 0, 0] slices_S1x10x512x2x2_S1x1x512x2x2_0_6_0_0_0) (fun j => lit6 (S1024.rowMajor j)) off hs,
    rowOf (stageTw x ![0, 7, 0, 0, 0] slices_S1x10x512x2x2_S1x1x512x2x2_0_7_0_0_0) (fun j => lit7 (S1024.rowMajor j)) off hs,
    rowOf (stageTw x ![0, 8, 0, 0, 0] slices_S1x10x512x2x2_S1x1x512x2x2_0_8_0_0_0) (fun j => lit8 (S1024.rowMajor j)) off hs,
    rowOf (stageTw x ![0, 9, 0, 0, 0] slices_S1x10x512x2x2_S1x1x512x2x2_0_9_0_0_0) (fun j => lit9 (S1024.rowMajor j)) off hs]

/-- Row `k` at `p` is the twiddle array's `[0, k, pairIdx k p, o, i]`. -/
theorem rowsOI_apply (x : S1x10x512x2x2.Idx → α) (o i : Fin 2) (off : Fin 3 → Nat) (hs : S1024x2x2.Slices off S1024x1x1)
    (hoff : off = ![0, o.val, i.val]) (k : Fin 10) (p : Fin 1024) :
    rowsOI x off hs k (ix2 0 p) = x (ix5 0 k ⟨pairIdx k.val p.val, pairIdx_lt k.isLt p.isLt⟩ o i) := by
  match k with
  | ⟨0, hk⟩ =>
    show rowOf (stageTw x ![0, 0, 0, 0, 0] slices_S1x10x512x2x2_S1x1x512x2x2_0_0_0_0_0) (fun j => lit0 (S1024.rowMajor j)) off hs (ix2 0 p) = _
    refine (rowOf_apply _ _ o i off hs hoff p (pairIdx 0 p.val) (tbl_apply lit0 0 lit0_eq p) (pairIdx_lt hk p.isLt)).trans ?_
    exact stageTw_apply x ⟨0, hk⟩ _ _ rfl ⟨pairIdx 0 p.val, pairIdx_lt hk p.isLt⟩ o i
  | ⟨1, hk⟩ =>
    show rowOf (stageTw x ![0, 1, 0, 0, 0] slices_S1x10x512x2x2_S1x1x512x2x2_0_1_0_0_0) (fun j => lit1 (S1024.rowMajor j)) off hs (ix2 0 p) = _
    refine (rowOf_apply _ _ o i off hs hoff p (pairIdx 1 p.val) (tbl_apply lit1 1 lit1_eq p) (pairIdx_lt hk p.isLt)).trans ?_
    exact stageTw_apply x ⟨1, hk⟩ _ _ rfl ⟨pairIdx 1 p.val, pairIdx_lt hk p.isLt⟩ o i
  | ⟨2, hk⟩ =>
    show rowOf (stageTw x ![0, 2, 0, 0, 0] slices_S1x10x512x2x2_S1x1x512x2x2_0_2_0_0_0) (fun j => lit2 (S1024.rowMajor j)) off hs (ix2 0 p) = _
    refine (rowOf_apply _ _ o i off hs hoff p (pairIdx 2 p.val) (tbl_apply lit2 2 lit2_eq p) (pairIdx_lt hk p.isLt)).trans ?_
    exact stageTw_apply x ⟨2, hk⟩ _ _ rfl ⟨pairIdx 2 p.val, pairIdx_lt hk p.isLt⟩ o i
  | ⟨3, hk⟩ =>
    show rowOf (stageTw x ![0, 3, 0, 0, 0] slices_S1x10x512x2x2_S1x1x512x2x2_0_3_0_0_0) (fun j => lit3 (S1024.rowMajor j)) off hs (ix2 0 p) = _
    refine (rowOf_apply _ _ o i off hs hoff p (pairIdx 3 p.val) (tbl_apply lit3 3 lit3_eq p) (pairIdx_lt hk p.isLt)).trans ?_
    exact stageTw_apply x ⟨3, hk⟩ _ _ rfl ⟨pairIdx 3 p.val, pairIdx_lt hk p.isLt⟩ o i
  | ⟨4, hk⟩ =>
    show rowOf (stageTw x ![0, 4, 0, 0, 0] slices_S1x10x512x2x2_S1x1x512x2x2_0_4_0_0_0) (fun j => lit4 (S1024.rowMajor j)) off hs (ix2 0 p) = _
    refine (rowOf_apply _ _ o i off hs hoff p (pairIdx 4 p.val) (tbl_apply lit4 4 lit4_eq p) (pairIdx_lt hk p.isLt)).trans ?_
    exact stageTw_apply x ⟨4, hk⟩ _ _ rfl ⟨pairIdx 4 p.val, pairIdx_lt hk p.isLt⟩ o i
  | ⟨5, hk⟩ =>
    show rowOf (stageTw x ![0, 5, 0, 0, 0] slices_S1x10x512x2x2_S1x1x512x2x2_0_5_0_0_0) (fun j => lit5 (S1024.rowMajor j)) off hs (ix2 0 p) = _
    refine (rowOf_apply _ _ o i off hs hoff p (pairIdx 5 p.val) (tbl_apply lit5 5 lit5_eq p) (pairIdx_lt hk p.isLt)).trans ?_
    exact stageTw_apply x ⟨5, hk⟩ _ _ rfl ⟨pairIdx 5 p.val, pairIdx_lt hk p.isLt⟩ o i
  | ⟨6, hk⟩ =>
    show rowOf (stageTw x ![0, 6, 0, 0, 0] slices_S1x10x512x2x2_S1x1x512x2x2_0_6_0_0_0) (fun j => lit6 (S1024.rowMajor j)) off hs (ix2 0 p) = _
    refine (rowOf_apply _ _ o i off hs hoff p (pairIdx 6 p.val) (tbl_apply lit6 6 lit6_eq p) (pairIdx_lt hk p.isLt)).trans ?_
    exact stageTw_apply x ⟨6, hk⟩ _ _ rfl ⟨pairIdx 6 p.val, pairIdx_lt hk p.isLt⟩ o i
  | ⟨7, hk⟩ =>
    show rowOf (stageTw x ![0, 7, 0, 0, 0] slices_S1x10x512x2x2_S1x1x512x2x2_0_7_0_0_0) (fun j => lit7 (S1024.rowMajor j)) off hs (ix2 0 p) = _
    refine (rowOf_apply _ _ o i off hs hoff p (pairIdx 7 p.val) (tbl_apply lit7 7 lit7_eq p) (pairIdx_lt hk p.isLt)).trans ?_
    exact stageTw_apply x ⟨7, hk⟩ _ _ rfl ⟨pairIdx 7 p.val, pairIdx_lt hk p.isLt⟩ o i
  | ⟨8, hk⟩ =>
    show rowOf (stageTw x ![0, 8, 0, 0, 0] slices_S1x10x512x2x2_S1x1x512x2x2_0_8_0_0_0) (fun j => lit8 (S1024.rowMajor j)) off hs (ix2 0 p) = _
    refine (rowOf_apply _ _ o i off hs hoff p (pairIdx 8 p.val) (tbl_apply lit8 8 lit8_eq p) (pairIdx_lt hk p.isLt)).trans ?_
    exact stageTw_apply x ⟨8, hk⟩ _ _ rfl ⟨pairIdx 8 p.val, pairIdx_lt hk p.isLt⟩ o i
  | ⟨9, hk⟩ =>
    show rowOf (stageTw x ![0, 9, 0, 0, 0] slices_S1x10x512x2x2_S1x1x512x2x2_0_9_0_0_0) (fun j => lit9 (S1024.rowMajor j)) off hs (ix2 0 p) = _
    refine (rowOf_apply _ _ o i off hs hoff p (pairIdx 9 p.val) (tbl_apply lit9 9 lit9_eq p) (pairIdx_lt hk p.isLt)).trans ?_
    exact stageTw_apply x ⟨9, hk⟩ _ _ rfl ⟨pairIdx 9 p.val, pairIdx_lt hk p.isLt⟩ o i

end Rows

variable {F : FTy → Type} [FloatOps F]
variable (m : (ℓ : Loc nD τ sig) → Buf (Elt F) ℓ)

set_option maxHeartbeats 4000000 in
/-- The entry array for `(0, 0)` is the ten stages' rows for `(0, 0)`, stacked. -/
theorem V180_eq (c : Dev nD) :
    (V m c main_v180 : S10x1024.Idx → Elt F .f32)
      = concatenate S10x1024 0
         [⟨S1x1024, rowsOI (m ((c : Thread nD τ).loc main_arg1) : S1x10x512x2x2.Idx → Elt F .f32) ![0, 0, 0] slices_S1024x2x2_S1024x1x1_0_0_0 0⟩,
          ⟨S1x1024, rowsOI (m ((c : Thread nD τ).loc main_arg1) : S1x10x512x2x2.Idx → Elt F .f32) ![0, 0, 0] slices_S1024x2x2_S1024x1x1_0_0_0 1⟩,
          ⟨S1x1024, rowsOI (m ((c : Thread nD τ).loc main_arg1) : S1x10x512x2x2.Idx → Elt F .f32) ![0, 0, 0] slices_S1024x2x2_S1024x1x1_0_0_0 2⟩,
          ⟨S1x1024, rowsOI (m ((c : Thread nD τ).loc main_arg1) : S1x10x512x2x2.Idx → Elt F .f32) ![0, 0, 0] slices_S1024x2x2_S1024x1x1_0_0_0 3⟩,
          ⟨S1x1024, rowsOI (m ((c : Thread nD τ).loc main_arg1) : S1x10x512x2x2.Idx → Elt F .f32) ![0, 0, 0] slices_S1024x2x2_S1024x1x1_0_0_0 4⟩,
          ⟨S1x1024, rowsOI (m ((c : Thread nD τ).loc main_arg1) : S1x10x512x2x2.Idx → Elt F .f32) ![0, 0, 0] slices_S1024x2x2_S1024x1x1_0_0_0 5⟩,
          ⟨S1x1024, rowsOI (m ((c : Thread nD τ).loc main_arg1) : S1x10x512x2x2.Idx → Elt F .f32) ![0, 0, 0] slices_S1024x2x2_S1024x1x1_0_0_0 6⟩,
          ⟨S1x1024, rowsOI (m ((c : Thread nD τ).loc main_arg1) : S1x10x512x2x2.Idx → Elt F .f32) ![0, 0, 0] slices_S1024x2x2_S1024x1x1_0_0_0 7⟩,
          ⟨S1x1024, rowsOI (m ((c : Thread nD τ).loc main_arg1) : S1x10x512x2x2.Idx → Elt F .f32) ![0, 0, 0] slices_S1024x2x2_S1024x1x1_0_0_0 8⟩,
          ⟨S1x1024, rowsOI (m ((c : Thread nD τ).loc main_arg1) : S1x10x512x2x2.Idx → Elt F .f32) ![0, 0, 0] slices_S1024x2x2_S1024x1x1_0_0_0 9⟩]
          concatenates_S1x1024_S1x1024_S1x1024_S1x1024_S1x1024_S1x1024_S1x1024_S1x1024_S1x1024_S1x1024_S10x1024_d0 := by
  dsimp only [V]
  simp only [hostOps0, List.flatten_cons, List.flatten_nil, List.append_nil]
  after_results_simp
  rfl

set_option maxHeartbeats 4000000 in
/-- The entry array for `(0, 1)` is the ten stages' rows for `(0, 1)`, stacked. -/
theorem V191_eq (c : Dev nD) :
    (V m c main_v191 : S10x1024.Idx → Elt F .f32)
      = concatenate S10x1024 0
         [⟨S1x1024, rowsOI (m ((c : Thread nD τ).loc main_arg1) : S1x10x512x2x2.Idx → Elt F .f32) ![0, 0, 1] slices_S1024x2x2_S1024x1x1_0_0_1 0⟩,
          ⟨S1x1024, rowsOI (m ((c : Thread nD τ).loc main_arg1) : S1x10x512x2x2.Idx → Elt F .f32) ![0, 0, 1] slices_S1024x2x2_S1024x1x1_0_0_1 1⟩,
          ⟨S1x1024, rowsOI (m ((c : Thread nD τ).loc main_arg1) : S1x10x512x2x2.Idx → Elt F .f32) ![0, 0, 1] slices_S1024x2x2_S1024x1x1_0_0_1 2⟩,
          ⟨S1x1024, rowsOI (m ((c : Thread nD τ).loc main_arg1) : S1x10x512x2x2.Idx → Elt F .f32) ![0, 0, 1] slices_S1024x2x2_S1024x1x1_0_0_1 3⟩,
          ⟨S1x1024, rowsOI (m ((c : Thread nD τ).loc main_arg1) : S1x10x512x2x2.Idx → Elt F .f32) ![0, 0, 1] slices_S1024x2x2_S1024x1x1_0_0_1 4⟩,
          ⟨S1x1024, rowsOI (m ((c : Thread nD τ).loc main_arg1) : S1x10x512x2x2.Idx → Elt F .f32) ![0, 0, 1] slices_S1024x2x2_S1024x1x1_0_0_1 5⟩,
          ⟨S1x1024, rowsOI (m ((c : Thread nD τ).loc main_arg1) : S1x10x512x2x2.Idx → Elt F .f32) ![0, 0, 1] slices_S1024x2x2_S1024x1x1_0_0_1 6⟩,
          ⟨S1x1024, rowsOI (m ((c : Thread nD τ).loc main_arg1) : S1x10x512x2x2.Idx → Elt F .f32) ![0, 0, 1] slices_S1024x2x2_S1024x1x1_0_0_1 7⟩,
          ⟨S1x1024, rowsOI (m ((c : Thread nD τ).loc main_arg1) : S1x10x512x2x2.Idx → Elt F .f32) ![0, 0, 1] slices_S1024x2x2_S1024x1x1_0_0_1 8⟩,
          ⟨S1x1024, rowsOI (m ((c : Thread nD τ).loc main_arg1) : S1x10x512x2x2.Idx → Elt F .f32) ![0, 0, 1] slices_S1024x2x2_S1024x1x1_0_0_1 9⟩]
          concatenates_S1x1024_S1x1024_S1x1024_S1x1024_S1x1024_S1x1024_S1x1024_S1x1024_S1x1024_S1x1024_S10x1024_d0 := by
  dsimp only [V]
  simp only [hostOps0, List.flatten_cons, List.flatten_nil, List.append_nil]
  after_results_simp
  rfl

set_option maxHeartbeats 4000000 in
/-- The entry array for `(1, 0)` is the ten stages' rows for `(1, 0)`, stacked. -/
theorem V202_eq (c : Dev nD) :
    (V m c main_v202 : S10x1024.Idx → Elt F .f32)
      = concatenate S10x1024 0
         [⟨S1x1024, rowsOI (m ((c : Thread nD τ).loc main_arg1) : S1x10x512x2x2.Idx → Elt F .f32) ![0, 1, 0] slices_S1024x2x2_S1024x1x1_0_1_0 0⟩,
          ⟨S1x1024, rowsOI (m ((c : Thread nD τ).loc main_arg1) : S1x10x512x2x2.Idx → Elt F .f32) ![0, 1, 0] slices_S1024x2x2_S1024x1x1_0_1_0 1⟩,
          ⟨S1x1024, rowsOI (m ((c : Thread nD τ).loc main_arg1) : S1x10x512x2x2.Idx → Elt F .f32) ![0, 1, 0] slices_S1024x2x2_S1024x1x1_0_1_0 2⟩,
          ⟨S1x1024, rowsOI (m ((c : Thread nD τ).loc main_arg1) : S1x10x512x2x2.Idx → Elt F .f32) ![0, 1, 0] slices_S1024x2x2_S1024x1x1_0_1_0 3⟩,
          ⟨S1x1024, rowsOI (m ((c : Thread nD τ).loc main_arg1) : S1x10x512x2x2.Idx → Elt F .f32) ![0, 1, 0] slices_S1024x2x2_S1024x1x1_0_1_0 4⟩,
          ⟨S1x1024, rowsOI (m ((c : Thread nD τ).loc main_arg1) : S1x10x512x2x2.Idx → Elt F .f32) ![0, 1, 0] slices_S1024x2x2_S1024x1x1_0_1_0 5⟩,
          ⟨S1x1024, rowsOI (m ((c : Thread nD τ).loc main_arg1) : S1x10x512x2x2.Idx → Elt F .f32) ![0, 1, 0] slices_S1024x2x2_S1024x1x1_0_1_0 6⟩,
          ⟨S1x1024, rowsOI (m ((c : Thread nD τ).loc main_arg1) : S1x10x512x2x2.Idx → Elt F .f32) ![0, 1, 0] slices_S1024x2x2_S1024x1x1_0_1_0 7⟩,
          ⟨S1x1024, rowsOI (m ((c : Thread nD τ).loc main_arg1) : S1x10x512x2x2.Idx → Elt F .f32) ![0, 1, 0] slices_S1024x2x2_S1024x1x1_0_1_0 8⟩,
          ⟨S1x1024, rowsOI (m ((c : Thread nD τ).loc main_arg1) : S1x10x512x2x2.Idx → Elt F .f32) ![0, 1, 0] slices_S1024x2x2_S1024x1x1_0_1_0 9⟩]
          concatenates_S1x1024_S1x1024_S1x1024_S1x1024_S1x1024_S1x1024_S1x1024_S1x1024_S1x1024_S1x1024_S10x1024_d0 := by
  dsimp only [V]
  simp only [hostOps0, List.flatten_cons, List.flatten_nil, List.append_nil]
  after_results_simp
  rfl

set_option maxHeartbeats 4000000 in
/-- The entry array for `(1, 1)` is the ten stages' rows for `(1, 1)`, stacked. -/
theorem V213_eq (c : Dev nD) :
    (V m c main_v213 : S10x1024.Idx → Elt F .f32)
      = concatenate S10x1024 0
         [⟨S1x1024, rowsOI (m ((c : Thread nD τ).loc main_arg1) : S1x10x512x2x2.Idx → Elt F .f32) ![0, 1, 1] slices_S1024x2x2_S1024x1x1_0_1_1 0⟩,
          ⟨S1x1024, rowsOI (m ((c : Thread nD τ).loc main_arg1) : S1x10x512x2x2.Idx → Elt F .f32) ![0, 1, 1] slices_S1024x2x2_S1024x1x1_0_1_1 1⟩,
          ⟨S1x1024, rowsOI (m ((c : Thread nD τ).loc main_arg1) : S1x10x512x2x2.Idx → Elt F .f32) ![0, 1, 1] slices_S1024x2x2_S1024x1x1_0_1_1 2⟩,
          ⟨S1x1024, rowsOI (m ((c : Thread nD τ).loc main_arg1) : S1x10x512x2x2.Idx → Elt F .f32) ![0, 1, 1] slices_S1024x2x2_S1024x1x1_0_1_1 3⟩,
          ⟨S1x1024, rowsOI (m ((c : Thread nD τ).loc main_arg1) : S1x10x512x2x2.Idx → Elt F .f32) ![0, 1, 1] slices_S1024x2x2_S1024x1x1_0_1_1 4⟩,
          ⟨S1x1024, rowsOI (m ((c : Thread nD τ).loc main_arg1) : S1x10x512x2x2.Idx → Elt F .f32) ![0, 1, 1] slices_S1024x2x2_S1024x1x1_0_1_1 5⟩,
          ⟨S1x1024, rowsOI (m ((c : Thread nD τ).loc main_arg1) : S1x10x512x2x2.Idx → Elt F .f32) ![0, 1, 1] slices_S1024x2x2_S1024x1x1_0_1_1 6⟩,
          ⟨S1x1024, rowsOI (m ((c : Thread nD τ).loc main_arg1) : S1x10x512x2x2.Idx → Elt F .f32) ![0, 1, 1] slices_S1024x2x2_S1024x1x1_0_1_1 7⟩,
          ⟨S1x1024, rowsOI (m ((c : Thread nD τ).loc main_arg1) : S1x10x512x2x2.Idx → Elt F .f32) ![0, 1, 1] slices_S1024x2x2_S1024x1x1_0_1_1 8⟩,
          ⟨S1x1024, rowsOI (m ((c : Thread nD τ).loc main_arg1) : S1x10x512x2x2.Idx → Elt F .f32) ![0, 1, 1] slices_S1024x2x2_S1024x1x1_0_1_1 9⟩]
          concatenates_S1x1024_S1x1024_S1x1024_S1x1024_S1x1024_S1x1024_S1x1024_S1x1024_S1x1024_S1x1024_S10x1024_d0 := by
  dsimp only [V]
  simp only [hostOps0, List.flatten_cons, List.flatten_nil, List.append_nil]
  after_results_simp
  rfl

/-- The entry array for `(0, 0)` (`%180`). -/
theorem T00_apply (c : Dev nD) (k : Fin 10) (p : Fin 1024) :
    (V m c main_v180 : S10x1024.Idx → Elt F .f32) (ix2 k p)
      = (m ((c : Thread nD τ).loc main_arg1) : S1x10x512x2x2.Idx → Elt F .f32)
          (ix5 0 k ⟨pairIdx k.val p.val, pairIdx_lt k.isLt p.isLt⟩ 0 0) := by
  rw [V180_eq m c, stack10_apply]
  exact rowsOI_apply _ 0 0 _ _ rfl k p

/-- The entry array for `(0, 1)` (`%191`). -/
theorem T01_apply (c : Dev nD) (k : Fin 10) (p : Fin 1024) :
    (V m c main_v191 : S10x1024.Idx → Elt F .f32) (ix2 k p)
      = (m ((c : Thread nD τ).loc main_arg1) : S1x10x512x2x2.Idx → Elt F .f32)
          (ix5 0 k ⟨pairIdx k.val p.val, pairIdx_lt k.isLt p.isLt⟩ 0 1) := by
  rw [V191_eq m c, stack10_apply]
  exact rowsOI_apply _ 0 1 _ _ rfl k p

/-- The entry array for `(1, 0)` (`%202`). -/
theorem T10_apply (c : Dev nD) (k : Fin 10) (p : Fin 1024) :
    (V m c main_v202 : S10x1024.Idx → Elt F .f32) (ix2 k p)
      = (m ((c : Thread nD τ).loc main_arg1) : S1x10x512x2x2.Idx → Elt F .f32)
          (ix5 0 k ⟨pairIdx k.val p.val, pairIdx_lt k.isLt p.isLt⟩ 1 0) := by
  rw [V202_eq m c, stack10_apply]
  exact rowsOI_apply _ 1 0 _ _ rfl k p

/-- The entry array for `(1, 1)` (`%213`). -/
theorem T11_apply (c : Dev nD) (k : Fin 10) (p : Fin 1024) :
    (V m c main_v213 : S10x1024.Idx → Elt F .f32) (ix2 k p)
      = (m ((c : Thread nD τ).loc main_arg1) : S1x10x512x2x2.Idx → Elt F .f32)
          (ix5 0 k ⟨pairIdx k.val p.val, pairIdx_lt k.isLt p.isLt⟩ 1 1) := by
  rw [V213_eq m c, stack10_apply]
  exact rowsOI_apply _ 1 1 _ _ rfl k p

end Cert.KernelIdeal.Bfly

end
-- ==== Proof.SpecLemmas.lean ====
/-
  The network's stages read only the four matrix entries (o, i) with o, i below 2: two families of entries that agree
  there (and inside the row) give the same network.
-/
import proofs.«126611_j34359738515_1_alg».proof.Proof.Spec

noncomputable section

namespace Butterfly

/-- One stage depends only on the four entries and the row inside the row's length. -/
theorem stageT_congr2 {T T' : ℕ → ℕ → ℕ → EReal} {k N : ℕ} {h h' : ℕ → EReal} (hN : 2 ^ (k + 1) ∣ N)
    (hT : ∀ o i p, o < 2 → i < 2 → p < N → T o i p = T' o i p) (hh : ∀ p, p < N → h p = h' p) (p : ℕ) (hp : p < N) :
    stageT T k h p = stageT T' k h' p := by
  unfold stageT
  by_cases hbit : (p / 2 ^ k) % 2 = 0
  · rw [if_pos hbit, if_pos hbit, hT 0 0 p (by omega) (by omega) hp, hT 0 1 p (by omega) (by omega) hp, hh p hp,
      hh _ (partner_lt hN hp hbit)]
  · rw [if_neg hbit, if_neg hbit, hT 1 0 p (by omega) (by omega) hp, hT 1 1 p (by omega) (by omega) hp, hh p hp,
      hh _ (lt_of_le_of_lt (Nat.sub_le _ _) hp)]

/-- The first `n` stages depend only on the four entries per stage and the row inside the row's length. -/
theorem netT_congr2 {T T' : ℕ → ℕ → ℕ → ℕ → EReal} {N : ℕ} {h h' : ℕ → EReal} (n : ℕ) (hN : 2 ^ n ∣ N)
    (hT : ∀ k, k < n → ∀ o i p, o < 2 → i < 2 → p < N → T k o i p = T' k o i p) (hh : ∀ p, p < N → h p = h' p) :
    ∀ p, p < N → netT T n h p = netT T' n h' p := by
  induction n with
  | zero => exact hh
  | succ k ih =>
    intro p hp
    rw [netT_succ, netT_succ]
    exact stageT_congr2 hN (hT k (Nat.lt_succ_self k))
      (ih (Dvd.dvd.trans (pow_dvd_pow 2 (Nat.le_succ k)) hN) (fun j hj => hT j (Nat.lt_succ_of_lt hj))) p hp

end Butterfly

end
-- ==== Proof.KiFinal.lean ====
/-
  From blocks to the array. Grid point `t` of the kernel handles rows `512 t … 512 t + 511` of `x`; the four entry
  arrays and the bias are whole blocks, the same at every point. What point `t` writes back is block `t` of
  `Butterfly.G` of the three arguments: entry `(r, p)` of the stored block is the ten stages run on row `512 t + r`
  (stages 0 to 4, then stages 5 to 9 and the bias), the entry arrays' rows being the twiddle array's entries at the
  pair index. The 64 blocks cover the result array, so after the run the array is `G` of the arguments.
-/
import proofs.«126611_j34359738515_1_alg».proof.Proof.KiFrame
import proofs.«126611_j34359738515_1_alg».proof.Proof.KiVal1
import proofs.«126611_j34359738515_1_alg».proof.Proof.KiVal2
import proofs.«126611_j34359738515_1_alg».proof.Proof.KiHostT
import proofs.«126611_j34359738515_1_alg».proof.Proof.SpecLemmas
import Idealize.ShloMosaic.Lib.Pipeline.Value

set_option maxRecDepth 16384

noncomputable section

namespace Cert.KernelIdeal.Bfly

open Idealize.ShloMosaic Idealize.ShloMosaic.TcCoe Idealize.ShloMosaic.ValueIdx Idealize.SL.Sem
open Idealize.ShloMosaic.Pipeline (Dat)
open Cert.KernelIdeal Cert.KernelIdeal.Gen Butterfly

/-! ## One stored block, over variables of the literal types -/

/-- Entry `(r, p)` of the block the body stores, when the block of `x` is rows `512 tv …` of `X`, the entry arrays'
    rows are `TW`'s entries at the pair index and the bias block is `B`: entry `(512 tv + r, p)` of `G X TW B`. -/
theorem block_value (x0 : Vec Ideal S512x1024 .f32) (t00 t01 t10 t11 : Vec Ideal S10x1024 .f32) (bb : Vec Ideal S1024 .f32)
    (X : S32768x1024.Idx → EReal) (TW : S1x10x512x2x2.Idx → EReal) (B : S1024.Idx → EReal) (tv : ℕ) (ht : tv < 64)
    (hx : ∀ (r : Fin 512) (p : Fin 1024), x0 (ix2 r p) = X (ix2 ⟨tv * 512 + r.val, by omega⟩ p))
    (h00 : ∀ (k : Fin 10) (p : Fin 1024), t00 (ix2 k p) = TW (ix5 0 k ⟨pairIdx k.val p.val, pairIdx_lt k.isLt p.isLt⟩ 0 0))
    (h01 : ∀ (k : Fin 10) (p : Fin 1024), t01 (ix2 k p) = TW (ix5 0 k ⟨pairIdx k.val p.val, pairIdx_lt k.isLt p.isLt⟩ 0 1))
    (h10 : ∀ (k : Fin 10) (p : Fin 1024), t10 (ix2 k p) = TW (ix5 0 k ⟨pairIdx k.val p.val, pairIdx_lt k.isLt p.isLt⟩ 1 0))
    (h11 : ∀ (k : Fin 10) (p : Fin 1024), t11 (ix2 k p) = TW (ix5 0 k ⟨pairIdx k.val p.val, pairIdx_lt k.isLt p.isLt⟩ 1 1))
    (hb : ∀ p : Fin 1024, bb (ix1 p) = B (ix1 p)) (r : Fin 512) (p : Fin 1024) :
    tailv (mid x0 t00 t01 t10 t11) t00 t01 t10 t11 bb (ix2 r p) = G X TW B (ix2 ⟨tv * 512 + r.val, by omega⟩ p) := by
  rw [tailv_apply]
  show netFrom (Trows t00 t01 t10 t11) 5 5 (fun p' => rd S512x1024 (mid x0 t00 t01 t10 t11) ![r.val, p']) p.val + rd S1024 bb ![p.val]
    = netT (Ttw TW) 10 (fun p' => rd S32768x1024 X ![tv * 512 + r.val, p']) p.val + rd S1024 B ![p.val]
  -- the entries: the arrays' rows are the twiddle array's entries at the pair index
  have hT : ∀ k, k < 10 → ∀ o i p', o < 2 → i < 2 → p' < 1024 → Trows t00 t01 t10 t11 k o i p' = Ttw TW k o i p' := by
    intro k hk o i p' ho hi hp'
    have e5 : ∀ (o' i' : Fin 2), rd S1x10x512x2x2 TW ![0, k, pairIdx k p', o'.val, i'.val]
        = TW (ix5 0 ⟨k, hk⟩ ⟨pairIdx k p', pairIdx_lt hk hp'⟩ o' i') := fun o' i' =>
      rd_ix5 TW (0 : Fin 1) (⟨k, hk⟩ : Fin 10) (⟨pairIdx k p', pairIdx_lt hk hp'⟩ : Fin 512) o' i'
    have e2 : ∀ (u : Vec Ideal S10x1024 .f32), rd S10x1024 u ![k, p'] = u (ix2 ⟨k, hk⟩ ⟨p', hp'⟩) := fun u =>
      rd_ix2 u (⟨k, hk⟩ : Fin 10) (⟨p', hp'⟩ : Fin 1024)
    unfold Ttw
    interval_cases o <;> interval_cases i
    · rw [Trows_00, e2, h00]; exact (e5 0 0).symm
    · rw [Trows_01, e2, h01]; exact (e5 0 1).symm
    · rw [Trows_10, e2, h10]; exact (e5 1 0).symm
    · rw [Trows_11, e2, h11]; exact (e5 1 1).symm
  -- the row of x
  have hX : ∀ p', p' < 1024 → rd S512x1024 x0 ![r.val, p'] = rd S32768x1024 X ![tv * 512 + r.val, p'] := by
    intro p' hp'
    rw [rd_ix2 x0 r (⟨p', hp'⟩ : Fin 1024), hx]
    exact (rd_ix2 X (⟨tv * 512 + r.val, by omega⟩ : Fin 32768) (⟨p', hp'⟩ : Fin 1024)).symm
  -- the row after stages 0 to 4
  have hmid : ∀ p', p' < 1024 → rd S512x1024 (mid x0 t00 t01 t10 t11) ![r.val, p']
      = netT (Trows t00 t01 t10 t11) 5 (fun p'' => rd S512x1024 x0 ![r.val, p'']) p' := by
    intro p' hp'
    rw [rd_ix2 (mid x0 t00 t01 t10 t11) r (⟨p', hp'⟩ : Fin 1024)]
    exact mid_apply x0 t00 t01 t10 t11 r ⟨p', hp'⟩
  have hbias : rd S1024 bb ![p.val] = rd S1024 B ![p.val] := by
    rw [rd_ix1 bb p, rd_ix1 B p, hb]
  rw [hbias]
  refine congrArg (· + rd S1024 B ![p.val]) ?_
  refine (netFrom_congr (T := Trows t00 t01 t10 t11) (T' := Trows t00 t01 t10 t11) (N := 1024) 5 5 (by norm_num)
    (fun _ _ _ _ _ _ => rfl) hmid p.val p.isLt).trans ?_
  rw [← netT_add]
  exact netT_congr2 (N := 1024) 10 (by norm_num) hT hX p.val p.isLt

/-! ## The pipeline's blocks -/

variable (m : (ℓ : Loc nD τ sig) → Buf (Elt Ideal) ℓ) (ρ : Dev nD → PrngReg)

theorem hz2 : (![0, 0] : Fin 2 → Nat) = fun _ => 0 := funext fun a => by fin_cases a <;> rfl

/-- The printed index maps, decided over the 64 grid points: the blocks of `x` and of the result move with the
    point along the rows; the entry arrays and the bias are one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem t_lt (t : Fin cfg0.N) : t.val < 64 := lt_of_lt_of_eq t.isLt N_0

/-- The blocks at a point, at their literal types. -/
abbrev xb (c : Dev nD) (t : Fin cfg0.N) : Vec Ideal S512x1024 .f32 := iblk m c 0 t
abbrev e00 (c : Dev nD) (t : Fin cfg0.N) : Vec Ideal S10x1024 .f32 := iblk m c 1 t
abbrev e01 (c : Dev nD) (t : Fin cfg0.N) : Vec Ideal S10x1024 .f32 := iblk m c 2 t
abbrev e10 (c : Dev nD) (t : Fin cfg0.N) : Vec Ideal S10x1024 .f32 := iblk m c 3 t
abbrev e11 (c : Dev nD) (t : Fin cfg0.N) : Vec Ideal S10x1024 .f32 := iblk m c 4 t
abbrev bv (c : Dev nD) (t : Fin cfg0.N) : Vec Ideal S1024 .f32 := iblk m c 5 t

/-- The block of `x` at point `t` is rows `512 t …` of the argument. -/
theorem xb_apply (c : Dev nD) (t : Fin cfg0.N) (r : Fin 512) (p : Fin 1024) :
    xb m c t (ix2 r p) = ((m ((c : Thread nD τ).loc main_arg0)) : S32768x1024.Idx → EReal) (ix2 ⟨t.val * 512 + r.val, by have := t_lt t; omega⟩ p) := by
  show V m c main_arg0 (((cfg0.win 0).blk t).view.emb (ix2 r p)) = _
  rw [V_main_arg0]
  refine congrArg _ (funext fun a => Fin.ext ?_)
  obtain ⟨e0, e1, -⟩ := idx_facts t
  match a with
  | ⟨0, _⟩ => show win0_0.index t (0 : Fin 2) * 512 + 1 * r.val = t.val * 512 + r.val; omega
  | ⟨1, _⟩ => show win0_0.index t (1 : Fin 2) * 1024 + 1 * p.val = p.val; omega

/-- An entry array's block is the whole array, at every point. -/
theorem e00_apply (c : Dev nD) (t : Fin cfg0.N) (k : Fin 10) (p : Fin 1024) :
    e00 m c t (ix2 k p) = (V m c main_v180 : S10x1024.Idx → EReal) (ix2 k p) := by
  show V m c main_v180 (((cfg0.win 1).blk t).view.emb (ix2 k p)) = _
  refine congrArg _ (funext fun a => Fin.ext ?_)
  obtain ⟨-, -, e0, e1, -⟩ := idx_facts t
  match a with
  | ⟨0, _⟩ => show win0_1.index t (0 : Fin 2) * 10 + 1 * k.val = k.val; omega
  | ⟨1, _⟩ => show win0_1.index t (1 : Fin 2) * 1024 + 1 * p.val = p.val; omega
theorem e01_apply (c : Dev nD) (t : Fin cfg0.N) (k : Fin 10) (p : Fin 1024) :
    e01 m c t (ix2 k p) = (V m c main_v191 : S10x1024.Idx → EReal) (ix2 k p) := by
  show V m c main_v191 (((cfg0.win 2).blk t).view.emb (ix2 k p)) = _
  refine congrArg _ (funext fun a => Fin.ext ?_)
  obtain ⟨-, -, -, -, e0, e1, -⟩ := idx_facts t
  match a with
  | ⟨0, _⟩ => show win0_2.index t (0 : Fin 2) * 10 + 1 * k.val = k.val; omega
  | ⟨1, _⟩ => show win0_2.index t (1 : Fin 2) * 1024 + 1 * p.val = p.val; omega
theorem e10_apply (c : Dev nD) (t : Fin cfg0.N) (k : Fin 10) (p : Fin 1024) :
    e10 m c t (ix2 k p) = (V m c main_v202 : S10x1024.Idx → EReal) (ix2 k p) := by
  show V m c main_v202 (((cfg0.win 3).blk t).view.emb (ix2 k p)) = _
  refine congrArg _ (funext fun a => Fin.ext ?_)
  obtain ⟨-, -, -, -, -, -, e0, e1, -⟩ := idx_facts t
  match a with
  | ⟨0, _⟩ => show win0_3.index t (0 : Fin 2) * 10 + 1 * k.val = k.val; omega
  | ⟨1, _⟩ => show win0_3.index t (1 : Fin 2) * 1024 + 1 * p.val = p.val; omega
theorem e11_apply (c : Dev nD) (t : Fin cfg0.N) (k : Fin 10) (p : Fin 1024) :
    e11 m c t (ix2 k p) = (V m c main_v213 : S10x1024.Idx → EReal) (ix2 k p) := by
  show V m c main_v213 (((cfg0.win 4).blk t).view.emb (ix2 k p)) = _
  refine congrArg _ (funext fun a => Fin.ext ?_)
  obtain ⟨-, -, -, -, -, -, -, -, e0, e1, -⟩ := idx_facts t
  match a with
  | ⟨0, _⟩ => show win0_4.index t (0 : Fin 2) * 10 + 1 * k.val = k.val; omega
  | ⟨1, _⟩ => show win0_4.index t (1 : Fin 2) * 1024 + 1 * p.val = p.val; omega

/-- The bias block is the whole bias, as launched. -/
theorem bv_apply (c : Dev nD) (t : Fin cfg0.N) (p : Fin 1024) :
    bv m c t (ix1 p) = ((m ((c : Thread nD τ).loc main_arg2)) : S1024.Idx → EReal) (ix1 p) := by
  show V m c main_arg2 (((cfg0.win 5).blk t).view.emb (ix1 p)) = _
  rw [V_main_arg2]
  refine congrArg _ (funext fun a => Fin.ext ?_)
  obtain ⟨-, -, -, -, -, -, -, -, -, -, e0, -⟩ := idx_facts t
  match a with
  | ⟨0, _⟩ => show win0_5.index t (0 : Fin 1) * 1024 + 1 * p.val = p.val; omega

/-- WHAT POINT `t` WRITES BACK is block `t` of `G` of the three arguments. -/
theorem flushed6_eq (c : Dev nD) (t : Fin cfg0.N) :
    (dats m 0 c).flushed 6 t = ((cfg0.win 6).blk t).view.read (Elt Ideal)
      (G (m ((c : Thread nD τ).loc main_arg0)) (m ((c : Thread nD τ).loc main_arg1)) (m ((c : Thread nD τ).loc main_arg2))) := by
  show (cfg0.win 6).cut (grid0.coords t) ((dats m 0 c).after 6 t) = _
  rw [after0_6, outv_eq_tail, View.canon_unit_zero hz2]
  funext j
  obtain ⟨r, p, rfl⟩ : ∃ (r : Fin 512) (p : Fin 1024), j = ix2 r p := ⟨j 0, j 1, eq_ix2 (n0 := 512) (n1 := 1024) j⟩
  show tailv (mid (xb m c t) (e00 m c t) (e01 m c t) (e10 m c t) (e11 m c t)) (e00 m c t) (e01 m c t) (e10 m c t) (e11 m c t) (bv m c t) (ix2 r p)
    = G (m ((c : Thread nD τ).loc main_arg0)) (m ((c : Thread nD τ).loc main_arg1)) (m ((c : Thread nD τ).loc main_arg2)) (((cfg0.win 6).blk t).view.emb (ix2 r p))
  have hemb : ((cfg0.win 6).blk t).view.emb (ix2 r p) = (ix2 (⟨t.val * 512 + r.val, by have := t_lt t; omega⟩ : Fin 32768) p : S32768x1024.Idx) := by
    refine funext fun a => Fin.ext ?_
    obtain ⟨-, -, -, -, -, -, -, -, -, -, -, e0, e1⟩ := idx_facts t
    match a with
    | ⟨0, _⟩ => show win0_6.index t (0 : Fin 2) * 512 + 1 * r.val = t.val * 512 + r.val; omega
    | ⟨1, _⟩ => show win0_6.index t (1 : Fin 2) * 1024 + 1 * p.val = p.val; omega
  rw [hemb]
  exact block_value (xb m c t) (e00 m c t) (e01 m c t) (e10 m c t) (e11 m c t) (bv m c t) _ _ _ t.val (t_lt t)
    (fun r p => xb_apply m c t r p)
    (fun k p => (e00_apply m c t k p).trans (T00_apply m c k p))
    (fun k p => (e01_apply m c t k p).trans (T01_apply m c k p))
    (fun k p => (e10_apply m c t k p).trans (T10_apply m c k p))
    (fun k p => (e11_apply m c t k p).trans (T11_apply m c k p))
    (fun p => bv_apply m c t p) r p

/-- An index of the result array is in point `t`'s block iff each coordinate is in the block's range on its axis. -/
theorem mem_blk6 (t : Fin cfg0.N) (i : S32768x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v214).slice (win0_6.rect t)).set ↔ _
  rw [View.set_slice_whole, Rect.mem_set_unit]
  exact Iff.rfl

/-- Every index of the result array is in the block of the point that handles its row. -/
theorem cover6 (i : S32768x1024.Idx) : ∃ t : Fin cfg0.N, (cfg0.win 6).flush t = true ∧ i ∈ ((cfg0.win 6).blk t).view.set := by
  have hi0 : (i 0).val < 32768 := idx2_lt0 i
  have hi1 : (i 1).val < 1024 := idx2_lt1 i
  refine ⟨⟨(i 0).val / 512, by show (i 0).val / 512 < grid0.N; rw [N_0]; omega⟩, flush0_6 _, ?_⟩
  rw [mem_blk6]
  obtain ⟨-, -, -, -, -, -, -, -, -, -, -, e0, e1⟩ := idx_facts ⟨(i 0).val / 512, by show (i 0).val / 512 < grid0.N; rw [N_0]; omega⟩
  intro a
  match a with
  | ⟨0, _⟩ =>
    show win0_6.index _ (0 : Fin 2) * 512 ≤ (i 0).val ∧ (i 0).val < win0_6.index _ (0 : Fin 2) * 512 + 512
    rw [e0]; show (i 0).val / 512 * 512 ≤ (i 0).val ∧ (i 0).val < (i 0).val / 512 * 512 + 512; omega
  | ⟨1, _⟩ =>
    show win0_6.index _ (1 : Fin 2) * 1024 ≤ (i 1).val ∧ (i 1).val < win0_6.index _ (1 : Fin 2) * 1024 + 1024
    rw [e1]; omega

/-- THE RESULT ARRAY after the run is `G` of the three arguments. -/
theorem final6 (c : Dev nD) : (dats m 0 c).arrAt 6 cfg0.N
    = G (m ((c : Thread nD τ).loc main_arg0)) (m ((c : Thread nD τ).loc main_arg1)) (m ((c : Thread nD τ).loc main_arg2)) :=
  (dats m 0 c).arrAt_eq_of_cover 6 _ (fun t _ => flushed6_eq m c t) cover6

/-- The run, read: the result array at `G` of the arguments, the arguments unchanged. -/
theorem run : θ_run defs (onTc (τ := τ) (main (F := Ideal))) ⟨m, fun _ => 0, ρ⟩ fun r => ∀ c : Dev nD,
      r.2.mem ((c : Thread nD τ).loc main_v214) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 6).trans (final6 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 5).trans (((dats m 0 c).arrAt_in 5 rfl _).trans ((A_eq m c 5).trans (V_main_arg2 m c)))⟩)
    (run_main m ρ)

end Cert.KernelIdeal.Bfly

end
-- ==== Proof.RefA.lean ====
/-
  The reference program read at an entry: the row laid out for the stages, and stages 0 to 3.

  Stage `k` (stride `s = 2^k`, `nb = 512 / s` blocks) views the row as `[nb, 2, s]` (position `blk · 2s + i · s + j`), the
  stage's slice of the twiddle array as `[nb, 2, 2, s]` (entry `(blk, o, i, j)` is the array's `[0, k, blk · s + j, o, i]`),
  multiplies and sums over `i`; the result's position `p = blk · 2s + o · s + j` receives
  `Σ_{i < 2} twiddle[0, k, blk · s + j, o, i] · row[blk · 2s + i · s + j]`, and `blk · s + j` is the pair's number of `p`.
-/
import proofs.«126611_j34359738515_1_alg».proof.Proof.Gen.ReferenceIdeal.Read
import proofs.«126611_j34359738515_1_alg».proof.Proof.Spec
import Idealize.ShloMosaic.Lib.ValueIdx
import Idealize.ShloMosaic.Lib.ValueIdxRank6
import Idealize.ShloMosaic.Lib.Pipeline.Value
import Idealize.ShloMosaic.PureOps.Ideal.Laws

noncomputable section

namespace Cert.ReferenceIdeal.Bfly

open Idealize.ShloMosaic Idealize.ShloMosaic.ValueIdx Cert.ReferenceIdeal Cert.ReferenceIdeal.Read Butterfly

open Cert.ReferenceIdeal.Gen

/-- The reference's first operation only inserts a unit axis: row `b`, position `p'` of its result is `x` there. -/
theorem ref_head (x0 : (⟨S32768x1024, .f32⟩ : BufTy).Contents (Elt Ideal)) (b : Fin 32768) (p' : ℕ) :
    rd S32768x1x1024 (val_main_v0 (F := Ideal) x0) ![b.val, 0, p'] = rd S32768x1024 x0 ![b.val, p'] := by
  by_cases hp : p' < 1024
  · rw [rd_of_lt S32768x1x1024 _ _ (fun a => by
        match a with
        | ⟨0, _⟩ => exact b.isLt
        | ⟨1, _⟩ => exact Nat.one_pos
        | ⟨2, _⟩ => exact hp),
      rd_of_lt S32768x1024 _ _ (fun a => by
        match a with
        | ⟨0, _⟩ => exact b.isLt
        | ⟨1, _⟩ => exact hp),
      val_main_v0_apply]
    exact congrArg x0 (funext fun a => Fin.ext (by
      match a with
      | ⟨0, _⟩ => rfl
      | ⟨1, _⟩ => rfl))
  · rw [rd_of_not_lt S32768x1x1024 _ _ (fun h => hp (h (2 : Fin 3))),
      rd_of_not_lt S32768x1024 _ _ (fun h => hp (h (1 : Fin 2)))]

/-! ## Stage 0 (stride 1, 512 blocks) -/

/-- The row split into 512 blocks of 2 × 1: entry `(b, 0, blk, 0, i, j)` is the row's entry `blk · 2 + i · 1 + j`. -/
theorem v5_apply (x0 : (⟨S32768x1024, .f32⟩ : BufTy).Contents (Elt Ideal)) (i : S32768x1x512x1x2x1.Idx) :
    val_main_v5 (F := Ideal) x0 i
      = rd S32768x1x1024 (val_main_v0 (F := Ideal) x0) ![(i 0).val, 0, (i 2).val * 2 + (i 4).val * 1 + (i 5).val] := by
  have h0 : (i 0).val < 32768 := (i 0).isLt
  have h1 : (i 1).val < 1 := (i 1).isLt
  have h2 : (i 2).val < 512 := (i 2).isLt
  have h3 : (i 3).val < 1 := (i 3).isLt
  have h4 : (i 4).val < 2 := (i 4).isLt
  have h5 : (i 5).val < 1 := (i 5).isLt
  unfold val_main_v5
  generalize val_main_v0 (F := Ideal) x0 = y
  refine (shapeCast_apply y shapeCasts_S32768x1x1024_S32768x1x512x1x2x1 i
    (ix3 (i 0) 0 ⟨(i 2).val * 2 + (i 4).val * 1 + (i 5).val, by omega⟩) ?_).trans ?_
  · rewrite [Shape.rowMajor_val_three, Shape.rowMajor_val_six]
    show ((i 0).val * 1 + 0) * 1024 + ((i 2).val * 2 + (i 4).val * 1 + (i 5).val)
      = ((((((i 0).val * 1 + (i 1).val) * 512 + (i 2).val) * 1 + (i 3).val) * 2 + (i 4).val) * 1 + (i 5).val)
    omega
  · exact (rd_ix3 y (i 0) (0 : Fin 1) ⟨(i 2).val * 2 + (i 4).val * 1 + (i 5).val, by omega⟩).symm

/-- The matrix entry stage 0 multiplies with at block `blk`, output `o`, offset `j`, summand `k`: the twiddle array's
    `[0, 0, blk · 1 + j, o, k]`. -/
theorem tw0 (x1 : (⟨S1x10x512x2x2, .f32⟩ : BufTy).Contents (Elt Ideal)) (J : S32768x1x512x2x1.Idx) (k : Fin 2) :
    x1 (idx_main_v1 (idx_main_v2 (idx_main_v3 (idx_main_v4 (idx_main_v6 (idx_main_v7 (idx_main_v10 J k)))))))
      = rd S1x10x512x2x2 x1 ![0, 0, (J 2).val * 1 + (J 4).val, (J 3).val, k.val] := by
  refine (rd_idx S1x10x512x2x2 x1 _).symm.trans (congrArg (rd S1x10x512x2x2 x1) (funext fun a => ?_))
  match a with
  | ⟨0, _⟩ =>
    show _ = 0
    dsimp only [Matrix.cons_val]
  | ⟨1, _⟩ =>
    show _ = 0
    dsimp only [Matrix.cons_val]
  | ⟨2, _⟩ =>
    show _ = (J 2).val * 1 + (J 4).val
    dsimp only [Matrix.cons_val]
    omega
  | ⟨3, _⟩ =>
    show _ = (J 3).val
    dsimp only [Matrix.cons_val]
    omega
  | ⟨4, _⟩ =>
    show _ = k.val
    dsimp only [Matrix.cons_val]
    omega

/-- The row entry stage 0 multiplies with at block `blk`, offset `j`, summand `k`: position `blk · 2 + k · 1 + j`. -/
theorem in0 (y : S32768x1x1024.Idx → EReal) (J : S32768x1x512x2x1.Idx) (k : Fin 2) :
    rd S32768x1x1024 y ![(idx_main_v8 (idx_main_v10 J k) 0).val, 0,
        (idx_main_v8 (idx_main_v10 J k) 2).val * 2 + (idx_main_v8 (idx_main_v10 J k) 4).val * 1 + (idx_main_v8 (idx_main_v10 J k) 5).val]
      = rd S32768x1x1024 y ![(J 0).val, 0, (J 2).val * 2 + k.val * 1 + (J 4).val] := by
  refine congrArg (rd S32768x1x1024 y) (funext fun a => ?_)
  match a with
  | ⟨0, _⟩ => rfl
  | ⟨1, _⟩ => rfl
  | ⟨2, _⟩ =>
    show (idx_main_v8 (idx_main_v10 J k) 2).val * 2 + (idx_main_v8 (idx_main_v10 J k) 4).val * 1 + (idx_main_v8 (idx_main_v10 J k) 5).val
      = (J 2).val * 2 + k.val * 1 + (J 4).val
    dsimp only [Matrix.cons_val]
    omega

/-- Stage 0 of the reference (stride 1): its result at row `b`, position `p`, is the network's stage 0 run on row `b` of
    the stage's input, with the twiddle array's entries. -/
theorem ref_stage0 (x0 : (⟨S32768x1024, .f32⟩ : BufTy).Contents (Elt Ideal)) (x1 : (⟨S1x10x512x2x2, .f32⟩ : BufTy).Contents (Elt Ideal)) (b : Fin 32768) (p : Fin 1024) :
    val_main_v11 (F := Ideal) x0 x1 (ix3 b 0 p)
      = stageT (Ttw x1 0) 0 (fun p' => rd S32768x1x1024 (val_main_v0 (F := Ideal) x0) ![b.val, 0, p']) p.val := by
  have hp := p.isLt
  have hb := b.isLt
  have hJ0 : (idx_main_v11 (ix3 b 0 p) 0).val = b.val := by
    dsimp only [ix3, Matrix.cons_val]; omega
  have hJ2 : (idx_main_v11 (ix3 b 0 p) 2).val = p.val / 2 := by
    dsimp only [ix3, Matrix.cons_val]; omega
  have hJ3 : (idx_main_v11 (ix3 b 0 p) 3).val = p.val / 1 % 2 := by
    dsimp only [ix3, Matrix.cons_val]; omega
  have hJ4 : (idx_main_v11 (ix3 b 0 p) 4).val = p.val % 1 := by
    dsimp only [ix3, Matrix.cons_val]; omega
  rw [val_main_v11_apply, val_main_v10_apply, Fin.sum_univ_two, val_main_v9_apply, val_main_v9_apply,
    val_main_v7_apply, val_main_v7_apply, val_main_v6_apply, val_main_v6_apply, val_main_v4_apply, val_main_v4_apply,
    val_main_v3_apply, val_main_v3_apply, val_main_v2_apply, val_main_v2_apply, val_main_v1_apply, val_main_v1_apply,
    val_main_v8_apply, val_main_v8_apply, v5_apply, v5_apply, val_main_cst_apply,
    tw0 x1 _ 0, tw0 x1 _ 1, in0 _ _ 0, in0 _ _ 1, hJ0, hJ2, hJ3, hJ4, Fin.val_zero, Fin.val_one,
    Ideal.ofBits_def, Ideal.ofBits_zero_f32, zero_add, Ideal.mulf_def, Ideal.mulf_def]
  unfold stageT Ttw pairIdx
  have hs : (2 : ℕ) ^ 0 = 1 := by norm_num
  have hs2 : (2 : ℕ) ^ (0 + 1) = 2 := by norm_num
  rw [hs2, hs]
  by_cases hbit : p.val / 1 % 2 = 0
  · rw [if_pos hbit, hbit]
    have e0 : p.val / 2 * 2 + 0 * 1 + p.val % 1 = p.val := by omega
    have e1 : p.val / 2 * 2 + 1 * 1 + p.val % 1 = p.val + 1 := by omega
    rw [e0, e1]
  · rw [if_neg hbit]
    have e : p.val / 1 % 2 = 1 := by omega
    have e0 : p.val / 2 * 2 + 0 * 1 + p.val % 1 = p.val - 1 := by omega
    have e1 : p.val / 2 * 2 + 1 * 1 + p.val % 1 = p.val := by omega
    rw [e, e0, e1]

/-! ## Stage 1 (stride 2, 256 blocks) -/

/-- The row split into 256 blocks of 2 × 2: entry `(b, 0, blk, 0, i, j)` is the row's entry `blk · 4 + i · 2 + j`. -/
theorem v16_apply (x0 : (⟨S32768x1024, .f32⟩ : BufTy).Contents (Elt Ideal)) (x1 : (⟨S1x10x512x2x2, .f32⟩ : BufTy).Contents (Elt Ideal)) (i : S32768x1x256x1x2x2.Idx) :
    val_main_v16 (F := Ideal) x0 x1 i
      = rd S32768x1x1024 (val_main_v11 (F := Ideal) x0 x1) ![(i 0).val, 0, (i 2).val * 4 + (i 4).val * 2 + (i 5).val] := by
  have h0 : (i 0).val < 32768 := (i 0).isLt
  have h1 : (i 1).val < 1 := (i 1).isLt
  have h2 : (i 2).val < 256 := (i 2).isLt
  have h3 : (i 3).val < 1 := (i 3).isLt
  have h4 : (i 4).val < 2 := (i 4).isLt
  have h5 : (i 5).val < 2 := (i 5).isLt
  unfold val_main_v16
  generalize val_main_v11 (F := Ideal) x0 x1 = y
  refine (shapeCast_apply y shapeCasts_S32768x1x1024_S32768x1x256x1x2x2 i
    (ix3 (i 0) 0 ⟨(i 2).val * 4 + (i 4).val * 2 + (i 5).val, by omega⟩) ?_).trans ?_
  · rewrite [Shape.rowMajor_val_three, Shape.rowMajor_val_six]
    show ((i 0).val * 1 + 0) * 1024 + ((i 2).val * 4 + (i 4).val * 2 + (i 5).val)
      = ((((((i 0).val * 1 + (i 1).val) * 256 + (i 2).val) * 1 + (i 3).val) * 2 + (i 4).val) * 2 + (i 5).val)
    omega
  · exact (rd_ix3 y (i 0) (0 : Fin 1) ⟨(i 2).val * 4 + (i 4).val * 2 + (i 5).val, by omega⟩).symm

/-- The matrix entry stage 1 multiplies with at block `blk`, output `o`, offset `j`, summand `k`: the twiddle array's
    `[0, 1, blk · 2 + j, o, k]`. -/
theorem tw1 (x1 : (⟨S1x10x512x2x2, .f32⟩ : BufTy).Contents (Elt Ideal)) (J : S32768x1x256x2x2.Idx) (k : Fin 2) :
    x1 (idx_main_v12 (idx_main_v13 (idx_main_v14 (idx_main_v15 (idx_main_v17 (idx_main_v18 (idx_main_v21 J k)))))))
      = rd S1x10x512x2x2 x1 ![0, 1, (J 2).val * 2 + (J 4).val, (J 3).val, k.val] := by
  refine (rd_idx S1x10x512x2x2 x1 _).symm.trans (congrArg (rd S1x10x512x2x2 x1) (funext fun a => ?_))
  match a with
  | ⟨0, _⟩ =>
    show _ = 0
    dsimp only [Matrix.cons_val]
  | ⟨1, _⟩ =>
    show _ = 1
    dsimp only [Matrix.cons_val]
  | ⟨2, _⟩ =>
    show _ = (J 2).val * 2 + (J 4).val
    dsimp only [Matrix.cons_val]
    omega
  | ⟨3, _⟩ =>
    show _ = (J 3).val
    dsimp only [Matrix.cons_val]
    omega
  | ⟨4, _⟩ =>
    show _ = k.val
    dsimp only [Matrix.cons_val]
    omega

/-- The row entry stage 1 multiplies with at block `blk`, offset `j`, summand `k`: position `blk · 4 + k · 2 + j`. -/
theorem in1 (y : S32768x1x1024.Idx → EReal) (J : S32768x1x256x2x2.Idx) (k : Fin 2) :
    rd S32768x1x1024 y ![(idx_main_v19 (idx_main_v21 J k) 0).val, 0,
        (idx_main_v19 (idx_main_v21 J k) 2).val * 4 + (idx_main_v19 (idx_main_v21 J k) 4).val * 2 + (idx_main_v19 (idx_main_v21 J k) 5).val]
      = rd S32768x1x1024 y ![(J 0).val, 0, (J 2).val * 4 + k.val * 2 + (J 4).val] := rfl

/-- Stage 1 of the reference (stride 2): its result at row `b`, position `p`, is the network's stage 1 run on row `b` of
    the stage's input, with the twiddle array's entries. -/
theorem ref_stage1 (x0 : (⟨S32768x1024, .f32⟩ : BufTy).Contents (Elt Ideal)) (x1 : (⟨S1x10x512x2x2, .f32⟩ : BufTy).Contents (Elt Ideal)) (b : Fin 32768) (p : Fin 1024) :
    val_main_v22 (F := Ideal) x0 x1 (ix3 b 0 p)
      = stageT (Ttw x1 1) 1 (fun p' => rd S32768x1x1024 (val_main_v11 (F := Ideal) x0 x1) ![b.val, 0, p']) p.val := by
  have hp := p.isLt
  have hb := b.isLt
  have hJ0 : (idx_main_v22 (ix3 b 0 p) 0).val = b.val := by
    dsimp only [ix3, Matrix.cons_val]; omega
  have hJ2 : (idx_main_v22 (ix3 b 0 p) 2).val = p.val / 4 := by
    dsimp only [ix3, Matrix.cons_val]; omega
  have hJ3 : (idx_main_v22 (ix3 b 0 p) 3).val = p.val / 2 % 2 := by
    dsimp only [ix3, Matrix.cons_val]; omega
  have hJ4 : (idx_main_v22 (ix3 b 0 p) 4).val = p.val % 2 := by
    dsimp only [ix3, Matrix.cons_val]; omega
  rw [val_main_v22_apply, val_main_v21_apply, Fin.sum_univ_two, val_main_v20_apply, val_main_v20_apply,
    val_main_v18_apply, val_main_v18_apply, val_main_v17_apply, val_main_v17_apply, val_main_v15_apply, val_main_v15_apply,
    val_main_v14_apply, val_main_v14_apply, val_main_v13_apply, val_main_v13_apply, val_main_v12_apply, val_main_v12_apply,
    val_main_v19_apply, val_main_v19_apply, v16_apply, v16_apply, val_main_cst_0_apply,
    tw1 x1 _ 0, tw1 x1 _ 1, in1 _ _ 0, in1 _ _ 1, hJ0, hJ2, hJ3, hJ4, Fin.val_zero, Fin.val_one,
    Ideal.ofBits_def, Ideal.ofBits_zero_f32, zero_add, Ideal.mulf_def, Ideal.mulf_def]
  unfold stageT Ttw pairIdx
  have hs : (2 : ℕ) ^ 1 = 2 := by norm_num
  have hs2 : (2 : ℕ) ^ (1 + 1) = 4 := by norm_num
  rw [hs2, hs]
  by_cases hbit : p.val / 2 % 2 = 0
  · rw [if_pos hbit, hbit]
    have e0 : p.val / 4 * 4 + 0 * 2 + p.val % 2 = p.val := by omega
    have e1 : p.val / 4 * 4 + 1 * 2 + p.val % 2 = p.val + 2 := by omega
    rw [e0, e1]
  · rw [if_neg hbit]
    have e : p.val / 2 % 2 = 1 := by omega
    have e0 : p.val / 4 * 4 + 0 * 2 + p.val % 2 = p.val - 2 := by omega
    have e1 : p.val / 4 * 4 + 1 * 2 + p.val % 2 = p.val := by omega
    rw [e, e0, e1]

/-! ## Stage 2 (stride 4, 128 blocks) -/

/-- The row split into 128 blocks of 2 × 4: entry `(b, 0, blk, 0, i, j)` is the row's entry `blk · 8 + i · 4 + j`. -/
theorem v27_apply (x0 : (⟨S32768x1024, .f32⟩ : BufTy).Contents (Elt Ideal)) (x1 : (⟨S1x10x512x2x2, .f32⟩ : BufTy).Contents (Elt Ideal)) (i : S32768x1x128x1x2x4.Idx) :
    val_main_v27 (F := Ideal) x0 x1 i
      = rd S32768x1x1024 (val_main_v22 (F := Ideal) x0 x1) ![(i 0).val, 0, (i 2).val * 8 + (i 4).val * 4 + (i 5).val] := by
  have h0 : (i 0).val < 32768 := (i 0).isLt
  have h1 : (i 1).val < 1 := (i 1).isLt
  have h2 : (i 2).val < 128 := (i 2).isLt
  have h3 : (i 3).val < 1 := (i 3).isLt
  have h4 : (i 4).val < 2 := (i 4).isLt
  have h5 : (i 5).val < 4 := (i 5).isLt
  unfold val_main_v27
  generalize val_main_v22 (F := Ideal) x0 x1 = y
  refine (shapeCast_apply y shapeCasts_S32768x1x1024_S32768x1x128x1x2x4 i
    (ix3 (i 0) 0 ⟨(i 2).val * 8 + (i 4).val * 4 + (i 5).val, by omega⟩) ?_).trans ?_
  · rewrite [Shape.rowMajor_val_three, Shape.rowMajor_val_six]
    show ((i 0).val * 1 + 0) * 1024 + ((i 2).val * 8 + (i 4).val * 4 + (i 5).val)
      = ((((((i 0).val * 1 + (i 1).val) * 128 + (i 2).val) * 1 + (i 3).val) * 2 + (i 4).val) * 4 + (i 5).val)
    omega
  · exact (rd_ix3 y (i 0) (0 : Fin 1) ⟨(i 2).val * 8 + (i 4).val * 4 + (i 5).val, by omega⟩).symm

/-- The matrix entry stage 2 multiplies with at block `blk`, output `o`, offset `j`, summand `k`: the twiddle array's
    `[0, 2, blk · 4 + j, o, k]`. -/
theorem tw2 (x1 : (⟨S1x10x512x2x2, .f32⟩ : BufTy).Contents (Elt Ideal)) (J : S32768x1x128x2x4.Idx) (k : Fin 2) :
    x1 (idx_main_v23 (idx_main_v24 (idx_main_v25 (idx_main_v26 (idx_main_v28 (idx_main_v29 (idx_main_v32 J k)))))))
      = rd S1x10x512x2x2 x1 ![0, 2, (J 2).val * 4 + (J 4).val, (J 3).val, k.val] := by
  refine (rd_idx S1x10x512x2x2 x1 _).symm.trans (congrArg (rd S1x10x512x2x2 x1) (funext fun a => ?_))
  match a with
  | ⟨0, _⟩ =>
    show _ = 0
    dsimp only [Matrix.cons_val]
  | ⟨1, _⟩ =>
    show _ = 2
    dsimp only [Matrix.cons_val]
  | ⟨2, _⟩ =>
    show _ = (J 2).val * 4 + (J 4).val
    dsimp only [Matrix.cons_val]
    omega
  | ⟨3, _⟩ =>
    show _ = (J 3).val
    dsimp only [Matrix.cons_val]
    omega
  | ⟨4, _⟩ =>
    show _ = k.val
    dsimp only [Matrix.cons_val]
    omega

/-- The row entry stage 2 multiplies with at block `blk`, offset `j`, summand `k`: position `blk · 8 + k · 4 + j`. -/
theorem in2 (y : S32768x1x1024.Idx → EReal) (J : S32768x1x128x2x4.Idx) (k : Fin 2) :
    rd S32768x1x1024 y ![(idx_main_v30 (idx_main_v32 J k) 0).val, 0,
        (idx_main_v30 (idx_main_v32 J k) 2).val * 8 + (idx_main_v30 (idx_main_v32 J k) 4).val * 4 + (idx_main_v30 (idx_main_v32 J k) 5).val]
      = rd S32768x1x1024 y ![(J 0).val, 0, (J 2).val * 8 + k.val * 4 + (J 4).val] := rfl

/-- Stage 2 of the reference (stride 4): its result at row `b`, position `p`, is the network's stage 2 run on row `b` of
    the stage's input, with the twiddle array's entries. -/
theorem ref_stage2 (x0 : (⟨S32768x1024, .f32⟩ : BufTy).Contents (Elt Ideal)) (x1 : (⟨S1x10x512x2x2, .f32⟩ : BufTy).Contents (Elt Ideal)) (b : Fin 32768) (p : Fin 1024) :
    val_main_v33 (F := Ideal) x0 x1 (ix3 b 0 p)
      = stageT (Ttw x1 2) 2 (fun p' => rd S32768x1x1024 (val_main_v22 (F := Ideal) x0 x1) ![b.val, 0, p']) p.val := by
  have hp := p.isLt
  have hb := b.isLt
  have hJ0 : (idx_main_v33 (ix3 b 0 p) 0).val = b.val := by
    dsimp only [ix3, Matrix.cons_val]; omega
  have hJ2 : (idx_main_v33 (ix3 b 0 p) 2).val = p.val / 8 := by
    dsimp only [ix3, Matrix.cons_val]; omega
  have hJ3 : (idx_main_v33 (ix3 b 0 p) 3).val = p.val / 4 % 2 := by
    dsimp only [ix3, Matrix.cons_val]; omega
  have hJ4 : (idx_main_v33 (ix3 b 0 p) 4).val = p.val % 4 := by
    dsimp only [ix3, Matrix.cons_val]; omega
  rw [val_main_v33_apply, val_main_v32_apply, Fin.sum_univ_two, val_main_v31_apply, val_main_v31_apply,
    val_main_v29_apply, val_main_v29_apply, val_main_v28_apply, val_main_v28_apply, val_main_v26_apply, val_main_v26_apply,
    val_main_v25_apply, val_main_v25_apply, val_main_v24_apply, val_main_v24_apply, val_main_v23_apply, val_main_v23_apply,
    val_main_v30_apply, val_main_v30_apply, v27_apply, v27_apply, val_main_cst_1_apply,
    tw2 x1 _ 0, tw2 x1 _ 1, in2 _ _ 0, in2 _ _ 1, hJ0, hJ2, hJ3, hJ4, Fin.val_zero, Fin.val_one,
    Ideal.ofBits_def, Ideal.ofBits_zero_f32, zero_add, Ideal.mulf_def, Ideal.mulf_def]
  unfold stageT Ttw pairIdx
  have hs : (2 : ℕ) ^ 2 = 4 := by norm_num
  have hs2 : (2 : ℕ) ^ (2 + 1) = 8 := by norm_num
  rw [hs2, hs]
  by_cases hbit : p.val / 4 % 2 = 0
  · rw [if_pos hbit, hbit]
    have e0 : p.val / 8 * 8 + 0 * 4 + p.val % 4 = p.val := by omega
    have e1 : p.val / 8 * 8 + 1 * 4 + p.val % 4 = p.val + 4 := by omega
    rw [e0, e1]
  · rw [if_neg hbit]
    have e : p.val / 4 % 2 = 1 := by omega
    have e0 : p.val / 8 * 8 + 0 * 4 + p.val % 4 = p.val - 4 := by omega
    have e1 : p.val / 8 * 8 + 1 * 4 + p.val % 4 = p.val := by omega
    rw [e, e0, e1]

/-! ## Stage 3 (stride 8, 64 blocks) -/

/-- The row split into 64 blocks of 2 × 8: entry `(b, 0, blk, 0, i, j)` is the row's entry `blk · 16 + i · 8 + j`. -/
theorem v38_apply (x0 : (⟨S32768x1024, .f32⟩ : BufTy).Contents (Elt Ideal)) (x1 : (⟨S1x10x512x2x2, .f32⟩ : BufTy).Contents (Elt Ideal)) (i : S32768x1x64x1x2x8.Idx) :
    val_main_v38 (F := Ideal) x0 x1 i
      = rd S32768x1x1024 (val_main_v33 (F := Ideal) x0 x1) ![(i 0).val, 0, (i 2).val * 16 + (i 4).val * 8 + (i 5).val] := by
  have h0 : (i 0).val < 32768 := (i 0).isLt
  have h1 : (i 1).val < 1 := (i 1).isLt
  have h2 : (i 2).val < 64 := (i 2).isLt
  have h3 : (i 3).val < 1 := (i 3).isLt
  have h4 : (i 4).val < 2 := (i 4).isLt
  have h5 : (i 5).val < 8 := (i 5).isLt
  unfold val_main_v38
  generalize val_main_v33 (F := Ideal) x0 x1 = y
  refine (shapeCast_apply y shapeCasts_S32768x1x1024_S32768x1x64x1x2x8 i
    (ix3 (i 0) 0 ⟨(i 2).val * 16 + (i 4).val * 8 + (i 5).val, by omega⟩) ?_).trans ?_
  · rewrite [Shape.rowMajor_val_three, Shape.rowMajor_val_six]
    show ((i 0).val * 1 + 0) * 1024 + ((i 2).val * 16 + (i 4).val * 8 + (i 5).val)
      = ((((((i 0).val * 1 + (i 1).val) * 64 + (i 2).val) * 1 + (i 3).val) * 2 + (i 4).val) * 8 + (i 5).val)
    omega
  · exact (rd_ix3 y (i 0) (0 : Fin 1) ⟨(i 2).val * 16 + (i 4).val * 8 + (i 5).val, by omega⟩).symm

/-- The matrix entry stage 3 multiplies with at block `blk`, output `o`, offset `j`, summand `k`: the twiddle array's
    `[0, 3, blk · 8 + j, o, k]`. -/
theorem tw3 (x1 : (⟨S1x10x512x2x2, .f32⟩ : BufTy).Contents (Elt Ideal)) (J : S32768x1x64x2x8.Idx) (k : Fin 2) :
    x1 (idx_main_v34 (idx_main_v35 (idx_main_v36 (idx_main_v37 (idx_main_v39 (idx_main_v40 (idx_main_v43 J k)))))))
      = rd S1x10x512x2x2 x1 ![0, 3, (J 2).val * 8 + (J 4).val, (J 3).val, k.val] := by
  refine (rd_idx S1x10x512x2x2 x1 _).symm.trans (congrArg (rd S1x10x512x2x2 x1) (funext fun a => ?_))
  match a with
  | ⟨0, _⟩ =>
    show _ = 0
    dsimp only [Matrix.cons_val]
  | ⟨1, _⟩ =>
    show _ = 3
    dsimp only [Matrix.cons_val]
  | ⟨2, _⟩ =>
    show _ = (J 2).val * 8 + (J 4).val
    dsimp only [Matrix.cons_val]
    omega
  | ⟨3, _⟩ =>
    show _ = (J 3).val
    dsimp only [Matrix.cons_val]
    omega
  | ⟨4, _⟩ =>
    show _ = k.val
    dsimp only [Matrix.cons_val]
    omega

/-- The row entry stage 3 multiplies with at block `blk`, offset `j`, summand `k`: position `blk · 16 + k · 8 + j`. -/
theorem in3 (y : S32768x1x1024.Idx → EReal) (J : S32768x1x64x2x8.Idx) (k : Fin 2) :
    rd S32768x1x1024 y ![(idx_main_v41 (idx_main_v43 J k) 0).val, 0,
        (idx_main_v41 (idx_main_v43 J k) 2).val * 16 + (idx_main_v41 (idx_main_v43 J k) 4).val * 8 + (idx_main_v41 (idx_main_v43 J k) 5).val]
      = rd S32768x1x1024 y ![(J 0).val, 0, (J 2).val * 16 + k.val * 8 + (J 4).val] := rfl

/-- Stage 3 of the reference (stride 8): its result at row `b`, position `p`, is the network's stage 3 run on row `b` of
    the stage's input, with the twiddle array's entries. -/
theorem ref_stage3 (x0 : (⟨S32768x1024, .f32⟩ : BufTy).Contents (Elt Ideal)) (x1 : (⟨S1x10x512x2x2, .f32⟩ : BufTy).Contents (Elt Ideal)) (b : Fin 32768) (p : Fin 1024) :
    val_main_v44 (F := Ideal) x0 x1 (ix3 b 0 p)
      = stageT (Ttw x1 3) 3 (fun p' => rd S32768x1x1024 (val_main_v33 (F := Ideal) x0 x1) ![b.val, 0, p']) p.val := by
  have hp := p.isLt
  have hb := b.isLt
  have hJ0 : (idx_main_v44 (ix3 b 0 p) 0).val = b.val := by
    dsimp only [ix3, Matrix.cons_val]; omega
  have hJ2 : (idx_main_v44 (ix3 b 0 p) 2).val = p.val / 16 := by
    dsimp only [ix3, Matrix.cons_val]; omega
  have hJ3 : (idx_main_v44 (ix3 b 0 p) 3).val = p.val / 8 % 2 := by
    dsimp only [ix3, Matrix.cons_val]; omega
  have hJ4 : (idx_main_v44 (ix3 b 0 p) 4).val = p.val % 8 := by
    dsimp only [ix3, Matrix.cons_val]; omega
  rw [val_main_v44_apply, val_main_v43_apply, Fin.sum_univ_two, val_main_v42_apply, val_main_v42_apply,
    val_main_v40_apply, val_main_v40_apply, val_main_v39_apply, val_main_v39_apply, val_main_v37_apply, val_main_v37_apply,
    val_main_v36_apply, val_main_v36_apply, val_main_v35_apply, val_main_v35_apply, val_main_v34_apply, val_main_v34_apply,
    val_main_v41_apply, val_main_v41_apply, v38_apply, v38_apply, val_main_cst_2_apply,
    tw3 x1 _ 0, tw3 x1 _ 1, in3 _ _ 0, in3 _ _ 1, hJ0, hJ2, hJ3, hJ4, Fin.val_zero, Fin.val_one,
    Ideal.ofBits_def, Ideal.ofBits_zero_f32, zero_add, Ideal.mulf_def, Ideal.mulf_def]
  unfold stageT Ttw pairIdx
  have hs : (2 : ℕ) ^ 3 = 8 := by norm_num
  have hs2 : (2 : ℕ) ^ (3 + 1) = 16 := by norm_num
  rw [hs2, hs]
  by_cases hbit : p.val / 8 % 2 = 0
  · rw [if_pos hbit, hbit]
    have e0 : p.val / 16 * 16 + 0 * 8 + p.val % 8 = p.val := by omega
    have e1 : p.val / 16 * 16 + 1 * 8 + p.val % 8 = p.val + 8 := by omega
    rw [e0, e1]
  · rw [if_neg hbit]
    have e : p.val / 8 % 2 = 1 := by omega
    have e0 : p.val / 16 * 16 + 0 * 8 + p.val % 8 = p.val - 8 := by omega
    have e1 : p.val / 16 * 16 + 1 * 8 + p.val % 8 = p.val := by omega
    rw [e, e0, e1]

end Cert.ReferenceIdeal.Bfly

end
-- ==== Proof.RefB.lean ====
/-
  The reference program read at an entry: stages 4 to 6.
-/
import proofs.«126611_j34359738515_1_alg».proof.Proof.Gen.ReferenceIdeal.Read
import proofs.«126611_j34359738515_1_alg».proof.Proof.Spec
import Idealize.ShloMosaic.Lib.ValueIdx
import Idealize.ShloMosaic.Lib.ValueIdxRank6
import Idealize.ShloMosaic.Lib.Pipeline.Value
import Idealize.ShloMosaic.PureOps.Ideal.Laws

noncomputable section

namespace Cert.ReferenceIdeal.Bfly

open Idealize.ShloMosaic Idealize.ShloMosaic.ValueIdx Cert.ReferenceIdeal Cert.ReferenceIdeal.Read Butterfly

/-- The matrix entries of stage 4 (stride 16), broadcast over the rows, read at an index `(_, _, blk, o, c, j)`: the twiddle
    array's entry `[0, 4, blk · 16 + j, o, c]`. -/
theorem stage4_tw (x1 : (⟨S1x10x512x2x2, .f32⟩ : BufTy).Contents (Elt Ideal)) (i : S32768x1x32x2x2x16.Idx) :
    val_main_v51 (F := Ideal) x1 i
      = rd S1x10x512x2x2 x1 ![0, 4, (i 2).val * 16 + (i 5).val, (i 3).val, (i 4).val] := by
  have h2 : (i 2).val < 32 := (i 2).isLt
  have h3 : (i 3).val < 2 := (i 3).isLt
  have h4 : (i 4).val < 2 := (i 4).isLt
  have h5 : (i 5).val < 16 := (i 5).isLt
  rw [val_main_v51_apply, val_main_v50_apply, val_main_v48_apply, val_main_v47_apply, val_main_v46_apply, val_main_v45_apply]
  rw [rd_of_lt _ _ _ (fun a => by match a with
    | ⟨0, _⟩ => show 0 < 1; omega
    | ⟨1, _⟩ => show 4 < 10; omega
    | ⟨2, _⟩ => show (i 2).val * 16 + (i 5).val < 512; omega
    | ⟨3, _⟩ => exact h3
    | ⟨4, _⟩ => exact h4)]
  refine congrArg x1 (funext fun a => Fin.ext ?_)
  match a with
  | ⟨0, _⟩ => rfl
  | ⟨1, _⟩ => rfl
  | ⟨2, _⟩ => dsimp only; show _ = (i 2).val * 16 + (i 5).val; omega
  | ⟨3, _⟩ => dsimp only; show _ = (i 3).val; omega
  | ⟨4, _⟩ => dsimp only; show _ = (i 4).val; omega

/-- The input of stage 4, regrouped as `[row, 1, blk, 1, c, j]` and broadcast over `o`, read at an index: the input at
    `[row, 0, blk · 32 + c · 16 + j]`. -/
theorem stage4_in (x0 : (⟨S32768x1024, .f32⟩ : BufTy).Contents (Elt Ideal)) (x1 : (⟨S1x10x512x2x2, .f32⟩ : BufTy).Contents (Elt Ideal)) (i : S32768x1x32x2x2x16.Idx) :
    val_main_v52 (F := Ideal) x0 x1 i
      = rd S32768x1x1024 (val_main_v44 (F := Ideal) x0 x1) ![(i 0).val, 0, (i 2).val * 32 + (i 4).val * 16 + (i 5).val] := by
  have h0 : (i 0).val < 32768 := (i 0).isLt
  have h2 : (i 2).val < 32 := (i 2).isLt
  have h4 : (i 4).val < 2 := (i 4).isLt
  have h5 : (i 5).val < 16 := (i 5).isLt
  rw [val_main_v52_apply]
  unfold val_main_v49
  generalize val_main_v44 (F := Ideal) x0 x1 = y
  rw [rd_of_lt _ _ _ (fun a => by match a with
    | ⟨0, _⟩ => exact h0
    | ⟨1, _⟩ => show 0 < 1; omega
    | ⟨2, _⟩ => show (i 2).val * 32 + (i 4).val * 16 + (i 5).val < 1024; omega)]
  refine shapeCast_apply y Gen.shapeCasts_S32768x1x1024_S32768x1x32x1x2x16 (idx_main_v52 i) _ ?_
  rw [Shape.rowMajor_val_three, Shape.rowMajor_val_six]
  show ((i 0).val * 1 + 0) * 1024 + ((i 2).val * 32 + (i 4).val * 16 + (i 5).val)
    = (((((i 0).val * 1 + 0) * 32 + (i 2).val) * 1 + 0) * 2 + (i 4).val) * 16 + (i 5).val
  omega

/-- One summand of stage 4's result at row `b`, position `p`: with `blk = p / 32`, `o = (p / 16) % 2`, `j = p % 16`, the
    summand `c` is the twiddle entry `[0, 4, blk · 16 + j, o, c]` times the input at `blk · 32 + c · 16 + j`. -/
theorem stage4_term (x0 : (⟨S32768x1024, .f32⟩ : BufTy).Contents (Elt Ideal)) (x1 : (⟨S1x10x512x2x2, .f32⟩ : BufTy).Contents (Elt Ideal)) (b : Fin 32768) (p : Fin 1024) (c : Fin 2) :
    val_main_v53 (F := Ideal) x0 x1 (idx_main_v54 (idx_main_v55 (ix3 b 0 p)) c)
      = rd S1x10x512x2x2 x1 ![0, 4, pairIdx 4 p.val, p.val / 16 % 2, c.val]
        * rd S32768x1x1024 (val_main_v44 (F := Ideal) x0 x1) ![b.val, 0, p.val / 32 * 32 + c.val * 16 + p.val % 16] := by
  have hp : p.val < 1024 := p.isLt
  have hb : b.val < 32768 := b.isLt
  have hc : c.val < 2 := c.isLt
  rw [val_main_v53_apply, Ideal.mulf_def, stage4_tw, stage4_in]
  have e2 : ((idx_main_v54 (idx_main_v55 (ix3 b 0 p)) c) 2).val * 16 + ((idx_main_v54 (idx_main_v55 (ix3 b 0 p)) c) 5).val = pairIdx 4 p.val := by
    show ((b.val * 1 + 0) * 1024 + p.val) / 32 % 32 * 16 + ((b.val * 1 + 0) * 1024 + p.val) % 16 = p.val / 32 * 16 + p.val % 16
    omega
  have e3 : ((idx_main_v54 (idx_main_v55 (ix3 b 0 p)) c) 3).val = p.val / 16 % 2 := by
    show ((b.val * 1 + 0) * 1024 + p.val) / 16 % 2 = p.val / 16 % 2
    omega
  have e4 : ((idx_main_v54 (idx_main_v55 (ix3 b 0 p)) c) 4).val = c.val := rfl
  have e0 : ((idx_main_v54 (idx_main_v55 (ix3 b 0 p)) c) 0).val = b.val := by
    show ((b.val * 1 + 0) * 1024 + p.val) / 1024 = b.val
    omega
  have e5 : ((idx_main_v54 (idx_main_v55 (ix3 b 0 p)) c) 2).val * 32 + ((idx_main_v54 (idx_main_v55 (ix3 b 0 p)) c) 4).val * 16 + ((idx_main_v54 (idx_main_v55 (ix3 b 0 p)) c) 5).val
      = p.val / 32 * 32 + c.val * 16 + p.val % 16 := by
    show ((b.val * 1 + 0) * 1024 + p.val) / 32 % 32 * 32 + c.val * 16 + ((b.val * 1 + 0) * 1024 + p.val) % 16 = p.val / 32 * 32 + c.val * 16 + p.val % 16
    omega
  rw [e2, e3, e4, e0, e5]

/-- Stage 4 of the reference (stride 16): its result at row `b`, position `p`, is the network's stage 4 run on row `b` of
    the stage's input, with the twiddle array's entries. -/
theorem ref_stage4 (x0 : (⟨S32768x1024, .f32⟩ : BufTy).Contents (Elt Ideal)) (x1 : (⟨S1x10x512x2x2, .f32⟩ : BufTy).Contents (Elt Ideal)) (b : Fin 32768) (p : Fin 1024) :
    val_main_v55 (F := Ideal) x0 x1 (ix3 b 0 p)
      = stageT (Ttw x1 4) 4 (fun p' => rd S32768x1x1024 (val_main_v44 (F := Ideal) x0 x1) ![b.val, 0, p']) p.val := by
  have hp : p.val < 1024 := p.isLt
  rw [val_main_v55_apply, val_main_v54_apply, Fin.sum_univ_two, stage4_term, stage4_term, val_main_cst_3_apply, Ideal.ofBits_def,
    Ideal.ofBits_zero_f32, zero_add]
  unfold stageT Ttw
  by_cases hbit : (p.val / 2 ^ 4) % 2 = 0
  · have hbit' : p.val / 16 % 2 = 0 := hbit
    have e0 : p.val / 32 * 32 + (0 : Fin 2).val * 16 + p.val % 16 = p.val := by
      show p.val / 32 * 32 + 0 * 16 + p.val % 16 = p.val
      omega
    have e1 : p.val / 32 * 32 + (1 : Fin 2).val * 16 + p.val % 16 = p.val + 2 ^ 4 := by
      show p.val / 32 * 32 + 1 * 16 + p.val % 16 = p.val + 16
      omega
    rw [if_pos hbit, e0, e1, hbit']
    rfl
  · have hbit' : p.val / 16 % 2 = 1 := by
      have h : ¬ (p.val / 16 % 2 = 0) := hbit
      omega
    have e0 : p.val / 32 * 32 + (0 : Fin 2).val * 16 + p.val % 16 = p.val - 2 ^ 4 := by
      show p.val / 32 * 32 + 0 * 16 + p.val % 16 = p.val - 16
      omega
    have e1 : p.val / 32 * 32 + (1 : Fin 2).val * 16 + p.val % 16 = p.val := by
      show p.val / 32 * 32 + 1 * 16 + p.val % 16 = p.val
      omega
    rw [if_neg hbit, e0, e1, hbit']
    rfl

/-- The matrix entries of stage 5 (stride 32), broadcast over the rows, read at an index `(_, _, blk, o, c, j)`: the twiddle
    array's entry `[0, 5, blk · 32 + j, o, c]`. -/
theorem stage5_tw (x1 : (⟨S1x10x512x2x2, .f32⟩ : BufTy).Contents (Elt Ideal)) (i : S32768x1x16x2x2x32.Idx) :
    val_main_v62 (F := Ideal) x1 i
      = rd S1x10x512x2x2 x1 ![0, 5, (i 2).val * 32 + (i 5).val, (i 3).val, (i 4).val] := by
  have h2 : (i 2).val < 16 := (i 2).isLt
  have h3 : (i 3).val < 2 := (i 3).isLt
  have h4 : (i 4).val < 2 := (i 4).isLt
  have h5 : (i 5).val < 32 := (i 5).isLt
  rw [val_main_v62_apply, val_main_v61_apply, val_main_v59_apply, val_main_v58_apply, val_main_v57_apply, val_main_v56_apply]
  rw [rd_of_lt _ _ _ (fun a => by match a with
    | ⟨0, _⟩ => show 0 < 1; omega
    | ⟨1, _⟩ => show 5 < 10; omega
    | ⟨2, _⟩ => show (i 2).val * 32 + (i 5).val < 512; omega
    | ⟨3, _⟩ => exact h3
    | ⟨4, _⟩ => exact h4)]
  refine congrArg x1 (funext fun a => Fin.ext ?_)
  match a with
  | ⟨0, _⟩ => rfl
  | ⟨1, _⟩ => rfl
  | ⟨2, _⟩ => dsimp only; show _ = (i 2).val * 32 + (i 5).val; omega
  | ⟨3, _⟩ => dsimp only; show _ = (i 3).val; omega
  | ⟨4, _⟩ => dsimp only; show _ = (i 4).val; omega

/-- The input of stage 5, regrouped as `[row, 1, blk, 1, c, j]` and broadcast over `o`, read at an index: the input at
    `[row, 0, blk · 64 + c · 32 + j]`. -/
theorem stage5_in (x0 : (⟨S32768x1024, .f32⟩ : BufTy).Contents (Elt Ideal)) (x1 : (⟨S1x10x512x2x2, .f32⟩ : BufTy).Contents (Elt Ideal)) (i : S32768x1x16x2x2x32.Idx) :
    val_main_v63 (F := Ideal) x0 x1 i
      = rd S32768x1x1024 (val_main_v55 (F := Ideal) x0 x1) ![(i 0).val, 0, (i 2).val * 64 + (i 4).val * 32 + (i 5).val] := by
  have h0 : (i 0).val < 32768 := (i 0).isLt
  have h2 : (i 2).val < 16 := (i 2).isLt
  have h4 : (i 4).val < 2 := (i 4).isLt
  have h5 : (i 5).val < 32 := (i 5).isLt
  rw [val_main_v63_apply]
  unfold val_main_v60
  generalize val_main_v55 (F := Ideal) x0 x1 = y
  rw [rd_of_lt _ _ _ (fun a => by match a with
    | ⟨0, _⟩ => exact h0
    | ⟨1, _⟩ => show 0 < 1; omega
    | ⟨2, _⟩ => show (i 2).val * 64 + (i 4).val * 32 + (i 5).val < 1024; omega)]
  refine shapeCast_apply y Gen.shapeCasts_S32768x1x1024_S32768x1x16x1x2x32 (idx_main_v63 i) _ ?_
  rw [Shape.rowMajor_val_three, Shape.rowMajor_val_six]
  show ((i 0).val * 1 + 0) * 1024 + ((i 2).val * 64 + (i 4).val * 32 + (i 5).val)
    = (((((i 0).val * 1 + 0) * 16 + (i 2).val) * 1 + 0) * 2 + (i 4).val) * 32 + (i 5).val
  omega

/-- One summand of stage 5's result at row `b`, position `p`: with `blk = p / 64`, `o = (p / 32) % 2`, `j = p % 32`, the
    summand `c` is the twiddle entry `[0, 5, blk · 32 + j, o, c]` times the input at `blk · 64 + c · 32 + j`. -/
theorem stage5_term (x0 : (⟨S32768x1024, .f32⟩ : BufTy).Contents (Elt Ideal)) (x1 : (⟨S1x10x512x2x2, .f32⟩ : BufTy).Contents (Elt Ideal)) (b : Fin 32768) (p : Fin 1024) (c : Fin 2) :
    val_main_v64 (F := Ideal) x0 x1 (idx_main_v65 (idx_main_v66 (ix3 b 0 p)) c)
      = rd S1x10x512x2x2 x1 ![0, 5, pairIdx 5 p.val, p.val / 32 % 2, c.val]
        * rd S32768x1x1024 (val_main_v55 (F := Ideal) x0 x1) ![b.val, 0, p.val / 64 * 64 + c.val * 32 + p.val % 32] := by
  have hp : p.val < 1024 := p.isLt
  have hb : b.val < 32768 := b.isLt
  have hc : c.val < 2 := c.isLt
  rw [val_main_v64_apply, Ideal.mulf_def, stage5_tw, stage5_in]
  have e2 : ((idx_main_v65 (idx_main_v66 (ix3 b 0 p)) c) 2).val * 32 + ((idx_main_v65 (idx_main_v66 (ix3 b 0 p)) c) 5).val = pairIdx 5 p.val := by
    show ((b.val * 1 + 0) * 1024 + p.val) / 64 % 16 * 32 + ((b.val * 1 + 0) * 1024 + p.val) % 32 = p.val / 64 * 32 + p.val % 32
    omega
  have e3 : ((idx_main_v65 (idx_main_v66 (ix3 b 0 p)) c) 3).val = p.val / 32 % 2 := by
    show ((b.val * 1 + 0) * 1024 + p.val) / 32 % 2 = p.val / 32 % 2
    omega
  have e4 : ((idx_main_v65 (idx_main_v66 (ix3 b 0 p)) c) 4).val = c.val := rfl
  have e0 : ((idx_main_v65 (idx_main_v66 (ix3 b 0 p)) c) 0).val = b.val := by
    show ((b.val * 1 + 0) * 1024 + p.val) / 1024 = b.val
    omega
  have e5 : ((idx_main_v65 (idx_main_v66 (ix3 b 0 p)) c) 2).val * 64 + ((idx_main_v65 (idx_main_v66 (ix3 b 0 p)) c) 4).val * 32 + ((idx_main_v65 (idx_main_v66 (ix3 b 0 p)) c) 5).val
      = p.val / 64 * 64 + c.val * 32 + p.val % 32 := by
    show ((b.val * 1 + 0) * 1024 + p.val) / 64 % 16 * 64 + c.val * 32 + ((b.val * 1 + 0) * 1024 + p.val) % 32 = p.val / 64 * 64 + c.val * 32 + p.val % 32
    omega
  rw [e2, e3, e4, e0, e5]

/-- Stage 5 of the reference (stride 32): its result at row `b`, position `p`, is the network's stage 5 run on row `b` of
    the stage's input, with the twiddle array's entries. -/
theorem ref_stage5 (x0 : (⟨S32768x1024, .f32⟩ : BufTy).Contents (Elt Ideal)) (x1 : (⟨S1x10x512x2x2, .f32⟩ : BufTy).Contents (Elt Ideal)) (b : Fin 32768) (p : Fin 1024) :
    val_main_v66 (F := Ideal) x0 x1 (ix3 b 0 p)
      = stageT (Ttw x1 5) 5 (fun p' => rd S32768x1x1024 (val_main_v55 (F := Ideal) x0 x1) ![b.val, 0, p']) p.val := by
  have hp : p.val < 1024 := p.isLt
  rw [val_main_v66_apply, val_main_v65_apply, Fin.sum_univ_two, stage5_term, stage5_term, val_main_cst_4_apply, Ideal.ofBits_def,
    Ideal.ofBits_zero_f32, zero_add]
  unfold stageT Ttw
  by_cases hbit : (p.val / 2 ^ 5) % 2 = 0
  · have hbit' : p.val / 32 % 2 = 0 := hbit
    have e0 : p.val / 64 * 64 + (0 : Fin 2).val * 32 + p.val % 32 = p.val := by
      show p.val / 64 * 64 + 0 * 32 + p.val % 32 = p.val
      omega
    have e1 : p.val / 64 * 64 + (1 : Fin 2).val * 32 + p.val % 32 = p.val + 2 ^ 5 := by
      show p.val / 64 * 64 + 1 * 32 + p.val % 32 = p.val + 32
      omega
    rw [if_pos hbit, e0, e1, hbit']
    rfl
  · have hbit' : p.val / 32 % 2 = 1 := by
      have h : ¬ (p.val / 32 % 2 = 0) := hbit
      omega
    have e0 : p.val / 64 * 64 + (0 : Fin 2).val * 32 + p.val % 32 = p.val - 2 ^ 5 := by
      show p.val / 64 * 64 + 0 * 32 + p.val % 32 = p.val - 32
      omega
    have e1 : p.val / 64 * 64 + (1 : Fin 2).val * 32 + p.val % 32 = p.val := by
      show p.val / 64 * 64 + 1 * 32 + p.val % 32 = p.val
      omega
    rw [if_neg hbit, e0, e1, hbit']
    rfl

/-- The matrix entries of stage 6 (stride 64), broadcast over the rows, read at an index `(_, _, blk, o, c, j)`: the twiddle
    array's entry `[0, 6, blk · 64 + j, o, c]`. -/
theorem stage6_tw (x1 : (⟨S1x10x512x2x2, .f32⟩ : BufTy).Contents (Elt Ideal)) (i : S32768x1x8x2x2x64.Idx) :
    val_main_v73 (F := Ideal) x1 i
      = rd S1x10x512x2x2 x1 ![0, 6, (i 2).val * 64 + (i 5).val, (i 3).val, (i 4).val] := by
  have h2 : (i 2).val < 8 := (i 2).isLt
  have h3 : (i 3).val < 2 := (i 3).isLt
  have h4 : (i 4).val < 2 := (i 4).isLt
  have h5 : (i 5).val < 64 := (i 5).isLt
  rw [val_main_v73_apply, val_main_v72_apply, val_main_v70_apply, val_main_v69_apply, val_main_v68_apply, val_main_v67_apply]
  rw [rd_of_lt _ _ _ (fun a => by match a with
    | ⟨0, _⟩ => show 0 < 1; omega
    | ⟨1, _⟩ => show 6 < 10; omega
    | ⟨2, _⟩ => show (i 2).val * 64 + (i 5).val < 512; omega
    | ⟨3, _⟩ => exact h3
    | ⟨4, _⟩ => exact h4)]
  refine congrArg x1 (funext fun a => Fin.ext ?_)
  match a with
  | ⟨0, _⟩ => rfl
  | ⟨1, _⟩ => rfl
  | ⟨2, _⟩ => dsimp only; show _ = (i 2).val * 64 + (i 5).val; omega
  | ⟨3, _⟩ => dsimp only; show _ = (i 3).val; omega
  | ⟨4, _⟩ => dsimp only; show _ = (i 4).val; omega

/-- The input of stage 6, regrouped as `[row, 1, blk, 1, c, j]` and broadcast over `o`, read at an index: the input at
    `[row, 0, blk · 128 + c · 64 + j]`. -/
theorem stage6_in (x0 : (⟨S32768x1024, .f32⟩ : BufTy).Contents (Elt Ideal)) (x1 : (⟨S1x10x512x2x2, .f32⟩ : BufTy).Contents (Elt Ideal)) (i : S32768x1x8x2x2x64.Idx) :
    val_main_v74 (F := Ideal) x0 x1 i
      = rd S32768x1x1024 (val_main_v66 (F := Ideal) x0 x1) ![(i 0).val, 0, (i 2).val * 128 + (i 4).val * 64 + (i 5).val] := by
  have h0 : (i 0).val < 32768 := (i 0).isLt
  have h2 : (i 2).val < 8 := (i 2).isLt
  have h4 : (i 4).val < 2 := (i 4).isLt
  have h5 : (i 5).val < 64 := (i 5).isLt
  rw [val_main_v74_apply]
  unfold val_main_v71
  generalize val_main_v66 (F := Ideal) x0 x1 = y
  rw [rd_of_lt _ _ _ (fun a => by match a with
    | ⟨0, _⟩ => exact h0
    | ⟨1, _⟩ => show 0 < 1; omega
    | ⟨2, _⟩ => show (i 2).val * 128 + (i 4).val * 64 + (i 5).val < 1024; omega)]
  refine shapeCast_apply y Gen.shapeCasts_S32768x1x1024_S32768x1x8x1x2x64 (idx_main_v74 i) _ ?_
  rw [Shape.rowMajor_val_three, Shape.rowMajor_val_six]
  show ((i 0).val * 1 + 0) * 1024 + ((i 2).val * 128 + (i 4).val * 64 + (i 5).val)
    = (((((i 0).val * 1 + 0) * 8 + (i 2).val) * 1 + 0) * 2 + (i 4).val) * 64 + (i 5).val
  omega

/-- One summand of stage 6's result at row `b`, position `p`: with `blk = p / 128`, `o = (p / 64) % 2`, `j = p % 64`, the
    summand `c` is the twiddle entry `[0, 6, blk · 64 + j, o, c]` times the input at `blk · 128 + c · 64 + j`. -/
theorem stage6_term (x0 : (⟨S32768x1024, .f32⟩ : BufTy).Contents (Elt Ideal)) (x1 : (⟨S1x10x512x2x2, .f32⟩ : BufTy).Contents (Elt Ideal)) (b : Fin 32768) (p : Fin 1024) (c : Fin 2) :
    val_main_v75 (F := Ideal) x0 x1 (idx_main_v76 (idx_main_v77 (ix3 b 0 p)) c)
      = rd S1x10x512x2x2 x1 ![0, 6, pairIdx 6 p.val, p.val / 64 % 2, c.val]
        * rd S32768x1x1024 (val_main_v66 (F := Ideal) x0 x1) ![b.val, 0, p.val / 128 * 128 + c.val * 64 + p.val % 64] := by
  have hp : p.val < 1024 := p.isLt
  have hb : b.val < 32768 := b.isLt
  have hc : c.val < 2 := c.isLt
  rw [val_main_v75_apply, Ideal.mulf_def, stage6_tw, stage6_in]
  have e2 : ((idx_main_v76 (idx_main_v77 (ix3 b 0 p)) c) 2).val * 64 + ((idx_main_v76 (idx_main_v77 (ix3 b 0 p)) c) 5).val = pairIdx 6 p.val := by
    show ((b.val * 1 + 0) * 1024 + p.val) / 128 % 8 * 64 + ((b.val * 1 + 0) * 1024 + p.val) % 64 = p.val / 128 * 64 + p.val % 64
    omega
  have e3 : ((idx_main_v76 (idx_main_v77 (ix3 b 0 p)) c) 3).val = p.val / 64 % 2 := by
    show ((b.val * 1 + 0) * 1024 + p.val) / 64 % 2 = p.val / 64 % 2
    omega
  have e4 : ((idx_main_v76 (idx_main_v77 (ix3 b 0 p)) c) 4).val = c.val := rfl
  have e0 : ((idx_main_v76 (idx_main_v77 (ix3 b 0 p)) c) 0).val = b.val := by
    show ((b.val * 1 + 0) * 1024 + p.val) / 1024 = b.val
    omega
  have e5 : ((idx_main_v76 (idx_main_v77 (ix3 b 0 p)) c) 2).val * 128 + ((idx_main_v76 (idx_main_v77 (ix3 b 0 p)) c) 4).val * 64 + ((idx_main_v76 (idx_main_v77 (ix3 b 0 p)) c) 5).val
      = p.val / 128 * 128 + c.val * 64 + p.val % 64 := by
    show ((b.val * 1 + 0) * 1024 + p.val) / 128 % 8 * 128 + c.val * 64 + ((b.val * 1 + 0) * 1024 + p.val) % 64 = p.val / 128 * 128 + c.val * 64 + p.val % 64
    omega
  rw [e2, e3, e4, e0, e5]

/-- Stage 6 of the reference (stride 64): its result at row `b`, position `p`, is the network's stage 6 run on row `b` of
    the stage's input, with the twiddle array's entries. -/
theorem ref_stage6 (x0 : (⟨S32768x1024, .f32⟩ : BufTy).Contents (Elt Ideal)) (x1 : (⟨S1x10x512x2x2, .f32⟩ : BufTy).Contents (Elt Ideal)) (b : Fin 32768) (p : Fin 1024) :
    val_main_v77 (F := Ideal) x0 x1 (ix3 b 0 p)
      = stageT (Ttw x1 6) 6 (fun p' => rd S32768x1x1024 (val_main_v66 (F := Ideal) x0 x1) ![b.val, 0, p']) p.val := by
  have hp : p.val < 1024 := p.isLt
  rw [val_main_v77_apply, val_main_v76_apply, Fin.sum_univ_two, stage6_term, stage6_term, val_main_cst_5_apply, Ideal.ofBits_def,
    Ideal.ofBits_zero_f32, zero_add]
  unfold stageT Ttw
  by_cases hbit : (p.val / 2 ^ 6) % 2 = 0
  · have hbit' : p.val / 64 % 2 = 0 := hbit
    have e0 : p.val / 128 * 128 + (0 : Fin 2).val * 64 + p.val % 64 = p.val := by
      show p.val / 128 * 128 + 0 * 64 + p.val % 64 = p.val
      omega
    have e1 : p.val / 128 * 128 + (1 : Fin 2).val * 64 + p.val % 64 = p.val + 2 ^ 6 := by
      show p.val / 128 * 128 + 1 * 64 + p.val % 64 = p.val + 64
      omega
    rw [if_pos hbit, e0, e1, hbit']
    rfl
  · have hbit' : p.val / 64 % 2 = 1 := by
      have h : ¬ (p.val / 64 % 2 = 0) := hbit
      omega
    have e0 : p.val / 128 * 128 + (0 : Fin 2).val * 64 + p.val % 64 = p.val - 2 ^ 6 := by
      show p.val / 128 * 128 + 0 * 64 + p.val % 64 = p.val - 64
      omega
    have e1 : p.val / 128 * 128 + (1 : Fin 2).val * 64 + p.val % 64 = p.val := by
      show p.val / 128 * 128 + 1 * 64 + p.val % 64 = p.val
      omega
    rw [if_neg hbit, e0, e1, hbit']
    rfl

end Cert.ReferenceIdeal.Bfly

end
-- ==== Proof.RefC.lean ====
/-
  The reference program read at an entry: stages 7 and 8, and the closing operations (the unit axis dropped, the bias added).
-/
import proofs.«126611_j34359738515_1_alg».proof.Proof.Gen.ReferenceIdeal.Read
import proofs.«126611_j34359738515_1_alg».proof.Proof.Spec
import Idealize.ShloMosaic.Lib.ValueIdx
import Idealize.ShloMosaic.Lib.ValueIdxRank6
import Idealize.ShloMosaic.Lib.Pipeline.Value
import Idealize.ShloMosaic.PureOps.Ideal.Laws

noncomputable section

namespace Cert.ReferenceIdeal.Bfly

open Idealize.ShloMosaic Idealize.ShloMosaic.ValueIdx Cert.ReferenceIdeal Cert.ReferenceIdeal.Read Butterfly

/-! ### Reading an entry at natural coordinates -/

/-- An entry of an array is the array read at the entry's coordinates. -/
theorem rd_eq {s : Shape} (x : s.Idx → EReal) (i : s.Idx) (c : Fin s.rank → ℕ) (h : ∀ a, (i a).val = c a) :
    x i = rd s x c := by
  rw [rd_of_lt s x c (fun a => h a ▸ (i a).isLt)]
  exact congrArg x (funext fun a => Fin.ext (h a))

/-- An equation between natural-number coordinates of composed index maps: once the maps are opened it is linear
    arithmetic with quotients and remainders by literals. -/
local macro "coord" : tactic =>
  `(tactic| first
    | (dsimp only; (try simp only [Fin.val_zero, Fin.val_one]); omega)
    | omega
    | rfl)

/-! ### Stage 7 (stride 128, 4 blocks of 256) -/

/-- The stage's matrices as a list of 512 matrices: entry `(0, m, o, e)` is the twiddle array's `[0, 7, m, o, e]`. -/
theorem tw7_list (x1 : (⟨S1x10x512x2x2, .f32⟩ : BufTy).Contents (Elt Ideal)) (u : S1x512x2x2.Idx) (c o e : ℕ)
    (hc : (u 1).val = c) (ho : (u 2).val = o) (he : (u 3).val = e) :
    val_main_v79 (F := Ideal) x1 u = rd S1x10x512x2x2 x1 ![0, 7, c, o, e] := by
  subst hc ho he
  have b0 : (u 0).val < 1 := (u 0).isLt
  have b1 : (u 1).val < 512 := (u 1).isLt
  have b2 : (u 2).val < 2 := (u 2).isLt
  have b3 : (u 3).val < 2 := (u 3).isLt
  rw [val_main_v79_apply, val_main_v78_apply]
  refine rd_eq x1 _ _ (fun a => ?_)
  match a with
  | ⟨0, _⟩ => coord
  | ⟨1, _⟩ => coord
  | ⟨2, _⟩ => show _ = (u 1).val; coord
  | ⟨3, _⟩ => show _ = (u 2).val; coord
  | ⟨4, _⟩ => show _ = (u 3).val; coord

/-- The matrices grouped by block: entry `(0, blk, j, o, e)` is matrix `blk · 128 + j`. -/
theorem tw7_blocks (x1 : (⟨S1x10x512x2x2, .f32⟩ : BufTy).Contents (Elt Ideal)) (w : S1x4x128x2x2.Idx) (c o e : ℕ)
    (hc : (w 1).val * 128 + (w 2).val = c) (ho : (w 3).val = o) (he : (w 4).val = e) :
    val_main_v80 (F := Ideal) x1 w = rd S1x10x512x2x2 x1 ![0, 7, c, o, e] := by
  subst hc ho he
  have b0 : (w 0).val < 1 := (w 0).isLt
  have b1 : (w 1).val < 4 := (w 1).isLt
  have b2 : (w 2).val < 128 := (w 2).isLt
  have b3 : (w 3).val < 2 := (w 3).isLt
  have b4 : (w 4).val < 2 := (w 4).isLt
  rw [val_main_v80_apply]
  exact tw7_list x1 _ _ _ _ (by coord) (by coord) (by coord)

/-- The matrices spread over the rows: entry `(b, 0, blk, o, e, j)` is entry `(o, e)` of matrix `blk · 128 + j`. -/
theorem tw7_spread (x1 : (⟨S1x10x512x2x2, .f32⟩ : BufTy).Contents (Elt Ideal)) (g : S32768x1x4x2x2x128.Idx) (c o e : ℕ)
    (hc : (g 2).val * 128 + (g 5).val = c) (ho : (g 3).val = o) (he : (g 4).val = e) :
    val_main_v84 (F := Ideal) x1 g = rd S1x10x512x2x2 x1 ![0, 7, c, o, e] := by
  subst hc ho he
  have b2 : (g 2).val < 4 := (g 2).isLt
  have b3 : (g 3).val < 2 := (g 3).isLt
  have b4 : (g 4).val < 2 := (g 4).isLt
  have b5 : (g 5).val < 128 := (g 5).isLt
  rw [val_main_v84_apply, val_main_v83_apply, val_main_v81_apply]
  exact tw7_blocks x1 _ _ _ _ (by coord) (by coord) (by coord)

/-- The stage's input regrouped into blocks, read at an index: the input at the same row-major position. -/
theorem in7_regroup (x0 : (⟨S32768x1024, .f32⟩ : BufTy).Contents (Elt Ideal)) (x1 : (⟨S1x10x512x2x2, .f32⟩ : BufTy).Contents (Elt Ideal))
    (j : S32768x1x4x1x2x128.Idx) (r q : ℕ) (hr : r < 32768) (hq : q < 1024)
    (h : r * 1024 + q
      = (((((j 0).val * 1 + (j 1).val) * 4 + (j 2).val) * 1 + (j 3).val) * 2 + (j 4).val) * 128 + (j 5).val) :
    val_main_v82 (F := Ideal) x0 x1 j = rd S32768x1x1024 (val_main_v77 (F := Ideal) x0 x1) ![r, 0, q] := by
  rw [rd_of_lt _ _ _ (fun a => by match a with | ⟨0, _⟩ => exact hr | ⟨1, _⟩ => exact Nat.one_pos | ⟨2, _⟩ => exact hq)]
  unfold val_main_v82
  generalize val_main_v77 (F := Ideal) x0 x1 = y
  refine shapeCast_apply y Cert.ReferenceIdeal.Gen.shapeCasts_S32768x1x1024_S32768x1x4x1x2x128 j _ ?_
  rewrite [Shape.rowMajor_val_three, Shape.rowMajor_val_six]
  show (r * 1 + 0) * 1024 + q
    = (((((j 0).val * 1 + (j 1).val) * 4 + (j 2).val) * 1 + (j 3).val) * 2 + (j 4).val) * 128 + (j 5).val
  omega

/-- The input spread over the two output slots: entry `(b, 0, blk, o, e, j)` is the input at `(b, 0, blk · 256 + e · 128 + j)`. -/
theorem in7_spread (x0 : (⟨S32768x1024, .f32⟩ : BufTy).Contents (Elt Ideal)) (x1 : (⟨S1x10x512x2x2, .f32⟩ : BufTy).Contents (Elt Ideal)) (g : S32768x1x4x2x2x128.Idx) (r q : ℕ) (hr : r < 32768) (hq : q < 1024)
    (h : r * 1024 + q = (g 0).val * 1024 + (g 2).val * 256 + (g 4).val * 128 + (g 5).val) :
    val_main_v85 (F := Ideal) x0 x1 g = rd S32768x1x1024 (val_main_v77 (F := Ideal) x0 x1) ![r, 0, q] := by
  have b0 : (g 0).val < 32768 := (g 0).isLt
  have b2 : (g 2).val < 4 := (g 2).isLt
  have b4 : (g 4).val < 2 := (g 4).isLt
  have b5 : (g 5).val < 128 := (g 5).isLt
  rw [val_main_v85_apply]
  refine in7_regroup x0 x1 _ r q hr hq (h.trans ?_)
  coord

/-- The products summed over the pair: entry `(b, 0, blk, o, j)` is row `o` of matrix `blk · 128 + j` applied to the pair of inputs at `blk · 256 + j` and `blk · 256 + 128 + j`. -/
theorem sum7 (x0 : (⟨S32768x1024, .f32⟩ : BufTy).Contents (Elt Ideal)) (x1 : (⟨S1x10x512x2x2, .f32⟩ : BufTy).Contents (Elt Ideal)) (f : S32768x1x4x2x128.Idx) (c o r q0 q1 : ℕ) (hr : r < 32768) (hq0 : q0 < 1024) (hq1 : q1 < 1024)
    (hc : (f 2).val * 128 + (f 4).val = c) (ho : (f 3).val = o)
    (h0 : r * 1024 + q0 = (f 0).val * 1024 + (f 2).val * 256 + (f 4).val)
    (h1 : r * 1024 + q1 = (f 0).val * 1024 + (f 2).val * 256 + 128 + (f 4).val) :
    val_main_v87 (F := Ideal) x0 x1 f
      = rd S1x10x512x2x2 x1 ![0, 7, c, o, 0] * rd S32768x1x1024 (val_main_v77 (F := Ideal) x0 x1) ![r, 0, q0] + rd S1x10x512x2x2 x1 ![0, 7, c, o, 1] * rd S32768x1x1024 (val_main_v77 (F := Ideal) x0 x1) ![r, 0, q1] := by
  rw [val_main_v87_apply, Fin.sum_univ_two, val_main_cst_6_apply, Ideal.ofBits_def, Ideal.ofBits_zero_f32, zero_add,
    val_main_v86_apply, val_main_v86_apply, Ideal.mulf_def, Ideal.mulf_def]
  subst hc ho
  have b0 : (f 0).val < 32768 := (f 0).isLt
  have b2 : (f 2).val < 4 := (f 2).isLt
  have b3 : (f 3).val < 2 := (f 3).isLt
  have b4 : (f 4).val < 128 := (f 4).isLt
  refine congrArg₂ (· + ·) (congrArg₂ (· * ·) ?_ ?_) (congrArg₂ (· * ·) ?_ ?_)
  · exact tw7_spread x1 _ _ _ 0 (by coord) (by coord) (by coord)
  · exact in7_spread x0 x1 _ r q0 hr hq0 (h0.trans (by coord))
  · exact tw7_spread x1 _ _ _ 1 (by coord) (by coord) (by coord)
  · exact in7_spread x0 x1 _ r q1 hr hq1 (h1.trans (by coord))

/-- Stage 7 at a general index: the network's stage 7 on the index's row, read at the index's position. -/
theorem stage7_at (x0 : (⟨S32768x1024, .f32⟩ : BufTy).Contents (Elt Ideal)) (x1 : (⟨S1x10x512x2x2, .f32⟩ : BufTy).Contents (Elt Ideal)) (i : S32768x1x1024.Idx) :
    val_main_v88 (F := Ideal) x0 x1 i
      = stageT (Ttw x1 7) 7 (fun p' => rd S32768x1x1024 (val_main_v77 (F := Ideal) x0 x1) ![(i 0).val, 0, p']) (i 2).val := by
  have b0 : (i 0).val < 32768 := (i 0).isLt
  have b1 : (i 1).val < 1 := (i 1).isLt
  have b2 : (i 2).val < 1024 := (i 2).isLt
  rw [val_main_v88_apply]
  unfold stageT Ttw
  by_cases hbit : (i 2).val / 2 ^ 7 % 2 = 0
  · rw [if_pos hbit]
    exact sum7 x0 x1 _ _ _ _ _ _ b0 b2 (by omega)
      (by unfold pairIdx; coord) (by coord) (by coord) (by coord)
  · rw [if_neg hbit]
    exact sum7 x0 x1 _ _ _ _ _ _ b0 (by omega) b2
      (by unfold pairIdx; coord) (by coord) (by coord) (by coord)

/-! ### Stage 8 (stride 256, 2 blocks of 512) -/

/-- The stage's matrices as a list of 512 matrices: entry `(0, m, o, e)` is the twiddle array's `[0, 8, m, o, e]`. -/
theorem tw8_list (x1 : (⟨S1x10x512x2x2, .f32⟩ : BufTy).Contents (Elt Ideal)) (u : S1x512x2x2.Idx) (c o e : ℕ)
    (hc : (u 1).val = c) (ho : (u 2).val = o) (he : (u 3).val = e) :
    val_main_v90 (F := Ideal) x1 u = rd S1x10x512x2x2 x1 ![0, 8, c, o, e] := by
  subst hc ho he
  have b0 : (u 0).val < 1 := (u 0).isLt
  have b1 : (u 1).val < 512 := (u 1).isLt
  have b2 : (u 2).val < 2 := (u 2).isLt
  have b3 : (u 3).val < 2 := (u 3).isLt
  rw [val_main_v90_apply, val_main_v89_apply]
  refine rd_eq x1 _ _ (fun a => ?_)
  match a with
  | ⟨0, _⟩ => coord
  | ⟨1, _⟩ => coord
  | ⟨2, _⟩ => show _ = (u 1).val; coord
  | ⟨3, _⟩ => show _ = (u 2).val; coord
  | ⟨4, _⟩ => show _ = (u 3).val; coord

/-- The matrices grouped by block: entry `(0, blk, j, o, e)` is matrix `blk · 256 + j`. -/
theorem tw8_blocks (x1 : (⟨S1x10x512x2x2, .f32⟩ : BufTy).Contents (Elt Ideal)) (w : S1x2x256x2x2.Idx) (c o e : ℕ)
    (hc : (w 1).val * 256 + (w 2).val = c) (ho : (w 3).val = o) (he : (w 4).val = e) :
    val_main_v91 (F := Ideal) x1 w = rd S1x10x512x2x2 x1 ![0, 8, c, o, e] := by
  subst hc ho he
  have b0 : (w 0).val < 1 := (w 0).isLt
  have b1 : (w 1).val < 2 := (w 1).isLt
  have b2 : (w 2).val < 256 := (w 2).isLt
  have b3 : (w 3).val < 2 := (w 3).isLt
  have b4 : (w 4).val < 2 := (w 4).isLt
  rw [val_main_v91_apply]
  exact tw8_list x1 _ _ _ _ (by coord) (by coord) (by coord)

/-- The matrices spread over the rows: entry `(b, 0, blk, o, e, j)` is entry `(o, e)` of matrix `blk · 256 + j`. -/
theorem tw8_spread (x1 : (⟨S1x10x512x2x2, .f32⟩ : BufTy).Contents (Elt Ideal)) (g : S32768x1x2x2x2x256.Idx) (c o e : ℕ)
    (hc : (g 2).val * 256 + (g 5).val = c) (ho : (g 3).val = o) (he : (g 4).val = e) :
    val_main_v95 (F := Ideal) x1 g = rd S1x10x512x2x2 x1 ![0, 8, c, o, e] := by
  subst hc ho he
  have b2 : (g 2).val < 2 := (g 2).isLt
  have b3 : (g 3).val < 2 := (g 3).isLt
  have b4 : (g 4).val < 2 := (g 4).isLt
  have b5 : (g 5).val < 256 := (g 5).isLt
  rw [val_main_v95_apply, val_main_v94_apply, val_main_v92_apply]
  exact tw8_blocks x1 _ _ _ _ (by coord) (by coord) (by coord)

/-- The stage's input regrouped into blocks, read at an index: the input at the same row-major position. -/
theorem in8_regroup (x0 : (⟨S32768x1024, .f32⟩ : BufTy).Contents (Elt Ideal)) (x1 : (⟨S1x10x512x2x2, .f32⟩ : BufTy).Contents (Elt Ideal))
    (j : S32768x1x2x1x2x256.Idx) (r q : ℕ) (hr : r < 32768) (hq : q < 1024)
    (h : r * 1024 + q
      = (((((j 0).val * 1 + (j 1).val) * 2 + (j 2).val) * 1 + (j 3).val) * 2 + (j 4).val) * 256 + (j 5).val) :
    val_main_v93 (F := Ideal) x0 x1 j = rd S32768x1x1024 (val_main_v88 (F := Ideal) x0 x1) ![r, 0, q] := by
  rw [rd_of_lt _ _ _ (fun a => by match a with | ⟨0, _⟩ => exact hr | ⟨1, _⟩ => exact Nat.one_pos | ⟨2, _⟩ => exact hq)]
  unfold val_main_v93
  generalize val_main_v88 (F := Ideal) x0 x1 = y
  refine shapeCast_apply y Cert.ReferenceIdeal.Gen.shapeCasts_S32768x1x1024_S32768x1x2x1x2x256 j _ ?_
  rewrite [Shape.rowMajor_val_three, Shape.rowMajor_val_six]
  show (r * 1 + 0) * 1024 + q
    = (((((j 0).val * 1 + (j 1).val) * 2 + (j 2).val) * 1 + (j 3).val) * 2 + (j 4).val) * 256 + (j 5).val
  omega

/-- The input spread over the two output slots: entry `(b, 0, blk, o, e, j)` is the input at `(b, 0, blk · 512 + e · 256 + j)`. -/
theorem in8_spread (x0 : (⟨S32768x1024, .f32⟩ : BufTy).Contents (Elt Ideal)) (x1 : (⟨S1x10x512x2x2, .f32⟩ : BufTy).Contents (Elt Ideal)) (g : S32768x1x2x2x2x256.Idx) (r q : ℕ) (hr : r < 32768) (hq : q < 1024)
    (h : r * 1024 + q = (g 0).val * 1024 + (g 2).val * 512 + (g 4).val * 256 + (g 5).val) :
    val_main_v96 (F := Ideal) x0 x1 g = rd S32768x1x1024 (val_main_v88 (F := Ideal) x0 x1) ![r, 0, q] := by
  have b0 : (g 0).val < 32768 := (g 0).isLt
  have b2 : (g 2).val < 2 := (g 2).isLt
  have b4 : (g 4).val < 2 := (g 4).isLt
  have b5 : (g 5).val < 256 := (g 5).isLt
  rw [val_main_v96_apply]
  refine in8_regroup x0 x1 _ r q hr hq (h.trans ?_)
  coord

/-- The products summed over the pair: entry `(b, 0, blk, o, j)` is row `o` of matrix `blk · 256 + j` applied to the pair of inputs at `blk · 512 + j` and `blk · 512 + 256 + j`. -/
theorem sum8 (x0 : (⟨S32768x1024, .f32⟩ : BufTy).Contents (Elt Ideal)) (x1 : (⟨S1x10x512x2x2, .f32⟩ : BufTy).Contents (Elt Ideal)) (f : S32768x1x2x2x256.Idx) (c o r q0 q1 : ℕ) (hr : r < 32768) (hq0 : q0 < 1024) (hq1 : q1 < 1024)
    (hc : (f 2).val * 256 + (f 4).val = c) (ho : (f 3).val = o)
    (h0 : r * 1024 + q0 = (f 0).val * 1024 + (f 2).val * 512 + (f 4).val)
    (h1 : r * 1024 + q1 = (f 0).val * 1024 + (f 2).val * 512 + 256 + (f 4).val) :
    val_main_v98 (F := Ideal) x0 x1 f
      = rd S1x10x512x2x2 x1 ![0, 8, c, o, 0] * rd S32768x1x1024 (val_main_v88 (F := Ideal) x0 x1) ![r, 0, q0] + rd S1x10x512x2x2 x1 ![0, 8, c, o, 1] * rd S32768x1x1024 (val_main_v88 (F := Ideal) x0 x1) ![r, 0, q1] := by
  rw [val_main_v98_apply, Fin.sum_univ_two, val_main_cst_7_apply, Ideal.ofBits_def, Ideal.ofBits_zero_f32, zero_add,
    val_main_v97_apply, val_main_v97_apply, Ideal.mulf_def, Ideal.mulf_def]
  subst hc ho
  have b0 : (f 0).val < 32768 := (f 0).isLt
  have b2 : (f 2).val < 2 := (f 2).isLt
  have b3 : (f 3).val < 2 := (f 3).isLt
  have b4 : (f 4).val < 256 := (f 4).isLt
  refine congrArg₂ (· + ·) (congrArg₂ (· * ·) ?_ ?_) (congrArg₂ (· * ·) ?_ ?_)
  · exact tw8_spread x1 _ _ _ 0 (by coord) (by coord) (by coord)
  · exact in8_spread x0 x1 _ r q0 hr hq0 (h0.trans (by coord))
  · exact tw8_spread x1 _ _ _ 1 (by coord) (by coord) (by coord)
  · exact in8_spread x0 x1 _ r q1 hr hq1 (h1.trans (by coord))

/-- Stage 8 at a general index: the network's stage 8 on the index's row, read at the index's position. -/
theorem stage8_at (x0 : (⟨S32768x1024, .f32⟩ : BufTy).Contents (Elt Ideal)) (x1 : (⟨S1x10x512x2x2, .f32⟩ : BufTy).Contents (Elt Ideal)) (i : S32768x1x1024.Idx) :
    val_main_v99 (F := Ideal) x0 x1 i
      = stageT (Ttw x1 8) 8 (fun p' => rd S32768x1x1024 (val_main_v88 (F := Ideal) x0 x1) ![(i 0).val, 0, p']) (i 2).val := by
  have b0 : (i 0).val < 32768 := (i 0).isLt
  have b1 : (i 1).val < 1 := (i 1).isLt
  have b2 : (i 2).val < 1024 := (i 2).isLt
  rw [val_main_v99_apply]
  unfold stageT Ttw
  by_cases hbit : (i 2).val / 2 ^ 8 % 2 = 0
  · rw [if_pos hbit]
    exact sum8 x0 x1 _ _ _ _ _ _ b0 b2 (by omega)
      (by unfold pairIdx; coord) (by coord) (by coord) (by coord)
  · rw [if_neg hbit]
    exact sum8 x0 x1 _ _ _ _ _ _ b0 (by omega) b2
      (by unfold pairIdx; coord) (by coord) (by coord) (by coord)

/-! ### The statements at a row and a position -/

/-- Stage 7 of the reference (stride 128): its result at row `b`, position `p`, is the network's stage 7 run on row `b` of
    the stage's input, with the twiddle array's entries. -/
theorem ref_stage7 (x0 : (⟨S32768x1024, .f32⟩ : BufTy).Contents (Elt Ideal)) (x1 : (⟨S1x10x512x2x2, .f32⟩ : BufTy).Contents (Elt Ideal)) (b : Fin 32768) (p : Fin 1024) :
    val_main_v88 (F := Ideal) x0 x1 (ix3 b 0 p)
      = stageT (Ttw x1 7) 7 (fun p' => rd S32768x1x1024 (val_main_v77 (F := Ideal) x0 x1) ![b.val, 0, p']) p.val :=
  stage7_at x0 x1 (ix3 b 0 p)

/-- Stage 8 of the reference (stride 256): its result at row `b`, position `p`, is the network's stage 8 run on row `b` of
    the stage's input, with the twiddle array's entries. -/
theorem ref_stage8 (x0 : (⟨S32768x1024, .f32⟩ : BufTy).Contents (Elt Ideal)) (x1 : (⟨S1x10x512x2x2, .f32⟩ : BufTy).Contents (Elt Ideal)) (b : Fin 32768) (p : Fin 1024) :
    val_main_v99 (F := Ideal) x0 x1 (ix3 b 0 p)
      = stageT (Ttw x1 8) 8 (fun p' => rd S32768x1x1024 (val_main_v88 (F := Ideal) x0 x1) ![b.val, 0, p']) p.val :=
  stage8_at x0 x1 (ix3 b 0 p)

/-- The reference's closing operations: drop the unit axis and add the bias along the rows. -/
theorem ref_tail (x0 : (⟨S32768x1024, .f32⟩ : BufTy).Contents (Elt Ideal)) (x1 : (⟨S1x10x512x2x2, .f32⟩ : BufTy).Contents (Elt Ideal)) (x2 : (⟨S1024, .f32⟩ : BufTy).Contents (Elt Ideal)) (b : Fin 32768) (p : Fin 1024) :
    val_main_v114 (F := Ideal) x0 x1 x2 (ix2 b p) = val_main_v110 (F := Ideal) x0 x1 (ix3 b 0 p) + rd S1024 x2 ![p.val] := by
  have hb : b.val < 32768 := b.isLt
  have hp : p.val < 1024 := p.isLt
  rw [val_main_v114_apply, Ideal.addf_def, val_main_v111_apply, val_main_v113_apply, val_main_v112_apply]
  refine congrArg₂ (· + ·) (congrArg (val_main_v110 (F := Ideal) x0 x1) (funext fun a => Fin.ext ?_))
    (rd_eq x2 _ _ (fun a => ?_))
  · match a with
    | ⟨0, _⟩ => show (b.val * 1024 + p.val) / 1024 = b.val; omega
    | ⟨1, _⟩ => rfl
    | ⟨2, _⟩ => show (b.val * 1024 + p.val) % 1024 = p.val; omega
  · match a with
    | ⟨0, _⟩ => rfl

end Cert.ReferenceIdeal.Bfly

end
-- ==== Proof.RefX.lean ====
/-
  The reference program read at an entry: stage 9 (stride 512: the row is one block of two halves).
-/
import proofs.«126611_j34359738515_1_alg».proof.Proof.Gen.ReferenceIdeal.Read
import proofs.«126611_j34359738515_1_alg».proof.Proof.Spec
import Idealize.ShloMosaic.Lib.ValueIdx
import Idealize.ShloMosaic.Lib.ValueIdxRank6
import Idealize.ShloMosaic.Lib.Pipeline.Value
import Idealize.ShloMosaic.PureOps.Ideal.Laws

noncomputable section

namespace Cert.ReferenceIdeal.BflyX

open Idealize.ShloMosaic Idealize.ShloMosaic.ValueIdx Cert.ReferenceIdeal Cert.ReferenceIdeal.Read Butterfly

/-- The matrix entries of stage 9 (stride 512), broadcast over the rows, read at an index `(_, _, blk, o, c, j)`: the twiddle
    array's entry `[0, 9, blk · 512 + j, o, c]`. -/
theorem stage9_tw (x1 : (⟨S1x10x512x2x2, .f32⟩ : BufTy).Contents (Elt Ideal)) (i : S32768x1x1x2x2x512.Idx) :
    val_main_v106 (F := Ideal) x1 i
      = rd S1x10x512x2x2 x1 ![0, 9, (i 2).val * 512 + (i 5).val, (i 3).val, (i 4).val] := by
  have h2 : (i 2).val < 1 := (i 2).isLt
  have h3 : (i 3).val < 2 := (i 3).isLt
  have h4 : (i 4).val < 2 := (i 4).isLt
  have h5 : (i 5).val < 512 := (i 5).isLt
  rw [val_main_v106_apply, val_main_v105_apply, val_main_v103_apply, val_main_v102_apply, val_main_v101_apply, val_main_v100_apply]
  rw [rd_of_lt _ _ _ (fun a => by match a with
    | ⟨0, _⟩ => show 0 < 1; omega
    | ⟨1, _⟩ => show 9 < 10; omega
    | ⟨2, _⟩ => show (i 2).val * 512 + (i 5).val < 512; omega
    | ⟨3, _⟩ => exact h3
    | ⟨4, _⟩ => exact h4)]
  refine congrArg x1 (funext fun a => Fin.ext ?_)
  match a with
  | ⟨0, _⟩ => rfl
  | ⟨1, _⟩ => rfl
  | ⟨2, _⟩ => dsimp only; show _ = (i 2).val * 512 + (i 5).val; omega
  | ⟨3, _⟩ => dsimp only; show _ = (i 3).val; omega
  | ⟨4, _⟩ => dsimp only; show _ = (i 4).val; omega

/-- The input of stage 9, regrouped as `[row, 1, blk, 1, c, j]` and broadcast over `o`, read at an index: the input at
    `[row, 0, blk · 1024 + c · 512 + j]`. -/
theorem stage9_in (x0 : (⟨S32768x1024, .f32⟩ : BufTy).Contents (Elt Ideal)) (x1 : (⟨S1x10x512x2x2, .f32⟩ : BufTy).Contents (Elt Ideal)) (i : S32768x1x1x2x2x512.Idx) :
    val_main_v107 (F := Ideal) x0 x1 i
      = rd S32768x1x1024 (val_main_v99 (F := Ideal) x0 x1) ![(i 0).val, 0, (i 2).val * 1024 + (i 4).val * 512 + (i 5).val] := by
  have h0 : (i 0).val < 32768 := (i 0).isLt
  have h2 : (i 2).val < 1 := (i 2).isLt
  have h4 : (i 4).val < 2 := (i 4).isLt
  have h5 : (i 5).val < 512 := (i 5).isLt
  rw [val_main_v107_apply]
  unfold val_main_v104
  generalize val_main_v99 (F := Ideal) x0 x1 = y
  rw [rd_of_lt _ _ _ (fun a => by match a with
    | ⟨0, _⟩ => exact h0
    | ⟨1, _⟩ => show 0 < 1; omega
    | ⟨2, _⟩ => show (i 2).val * 1024 + (i 4).val * 512 + (i 5).val < 1024; omega)]
  refine shapeCast_apply y Gen.shapeCasts_S32768x1x1024_S32768x1x1x1x2x512 (idx_main_v107 i) _ ?_
  rw [Shape.rowMajor_val_three, Shape.rowMajor_val_six]
  show ((i 0).val * 1 + 0) * 1024 + ((i 2).val * 1024 + (i 4).val * 512 + (i 5).val)
    = (((((i 0).val * 1 + 0) * 1 + 0) * 1 + 0) * 2 + (i 4).val) * 512 + (i 5).val
  omega

/-- One summand of stage 9's result at row `b`, position `p`: with `blk = p / 1024`, `o = (p / 512) % 2`, `j = p % 512`, the
    summand `c` is the twiddle entry `[0, 9, blk · 512 + j, o, c]` times the input at `blk · 1024 + c · 512 + j`. -/
theorem stage9_term (x0 : (⟨S32768x1024, .f32⟩ : BufTy).Contents (Elt Ideal)) (x1 : (⟨S1x10x512x2x2, .f32⟩ : BufTy).Contents (Elt Ideal)) (b : Fin 32768) (p : Fin 1024) (c : Fin 2) :
    val_main_v108 (F := Ideal) x0 x1 (idx_main_v109 (idx_main_v110 (ix3 b 0 p)) c)
      = rd S1x10x512x2x2 x1 ![0, 9, pairIdx 9 p.val, p.val / 512 % 2, c.val]
        * rd S32768x1x1024 (val_main_v99 (F := Ideal) x0 x1) ![b.val, 0, p.val / 1024 * 1024 + c.val * 512 + p.val % 512] := by
  have hp : p.val < 1024 := p.isLt
  have hb : b.val < 32768 := b.isLt
  have hc : c.val < 2 := c.isLt
  rw [val_main_v108_apply, Ideal.mulf_def, stage9_tw, stage9_in]
  have e2 : ((idx_main_v109 (idx_main_v110 (ix3 b 0 p)) c) 2).val * 512 + ((idx_main_v109 (idx_main_v110 (ix3 b 0 p)) c) 5).val = pairIdx 9 p.val := by
    show 0 * 512 + ((b.val * 1 + 0) * 1024 + p.val) % 512 = p.val / 1024 * 512 + p.val % 512
    omega
  have e3 : ((idx_main_v109 (idx_main_v110 (ix3 b 0 p)) c) 3).val = p.val / 512 % 2 := by
    show ((b.val * 1 + 0) * 1024 + p.val) / 512 % 2 = p.val / 512 % 2
    omega
  have e4 : ((idx_main_v109 (idx_main_v110 (ix3 b 0 p)) c) 4).val = c.val := rfl
  have e0 : ((idx_main_v109 (idx_main_v110 (ix3 b 0 p)) c) 0).val = b.val := by
    show ((b.val * 1 + 0) * 1024 + p.val) / 1024 = b.val
    omega
  have e5 : ((idx_main_v109 (idx_main_v110 (ix3 b 0 p)) c) 2).val * 1024 + ((idx_main_v109 (idx_main_v110 (ix3 b 0 p)) c) 4).val * 512 + ((idx_main_v109 (idx_main_v110 (ix3 b 0 p)) c) 5).val
      = p.val / 1024 * 1024 + c.val * 512 + p.val % 512 := by
    show 0 * 1024 + c.val * 512 + ((b.val * 1 + 0) * 1024 + p.val) % 512 = p.val / 1024 * 1024 + c.val * 512 + p.val % 512
    omega
  rw [e2, e3, e4, e0, e5]

/-- Stage 9 of the reference (stride 512): its result at row `b`, position `p`, is the network's stage 9 run on row `b` of
    the stage's input, with the twiddle array's entries. -/
theorem ref_stage9 (x0 : (⟨S32768x1024, .f32⟩ : BufTy).Contents (Elt Ideal)) (x1 : (⟨S1x10x512x2x2, .f32⟩ : BufTy).Contents (Elt Ideal)) (b : Fin 32768) (p : Fin 1024) :
    val_main_v110 (F := Ideal) x0 x1 (ix3 b 0 p)
      = stageT (Ttw x1 9) 9 (fun p' => rd S32768x1x1024 (val_main_v99 (F := Ideal) x0 x1) ![b.val, 0, p']) p.val := by
  have hp : p.val < 1024 := p.isLt
  rw [val_main_v110_apply, val_main_v109_apply, Fin.sum_univ_two, stage9_term, stage9_term, val_main_cst_8_apply, Ideal.ofBits_def,
    Ideal.ofBits_zero_f32, zero_add]
  unfold stageT Ttw
  by_cases hbit : (p.val / 2 ^ 9) % 2 = 0
  · have hbit' : p.val / 512 % 2 = 0 := hbit
    have e0 : p.val / 1024 * 1024 + (0 : Fin 2).val * 512 + p.val % 512 = p.val := by
      show p.val / 1024 * 1024 + 0 * 512 + p.val % 512 = p.val
      omega
    have e1 : p.val / 1024 * 1024 + (1 : Fin 2).val * 512 + p.val % 512 = p.val + 2 ^ 9 := by
      show p.val / 1024 * 1024 + 1 * 512 + p.val % 512 = p.val + 512
      omega
    rw [if_pos hbit, e0, e1, hbit']
    rfl
  · have hbit' : p.val / 512 % 2 = 1 := by
      have h : ¬ (p.val / 512 % 2 = 0) := hbit
      omega
    have e0 : p.val / 1024 * 1024 + (0 : Fin 2).val * 512 + p.val % 512 = p.val - 2 ^ 9 := by
      show p.val / 1024 * 1024 + 0 * 512 + p.val % 512 = p.val - 512
      omega
    have e1 : p.val / 1024 * 1024 + (1 : Fin 2).val * 512 + p.val % 512 = p.val := by
      show p.val / 1024 * 1024 + 1 * 512 + p.val % 512 = p.val
      omega
    rw [if_neg hbit, e0, e1, hbit']
    rfl

end Cert.ReferenceIdeal.BflyX

end
-- ==== Proof.RefEq.lean ====
/-
  The reference program's result is `Butterfly.G` of its arguments: its ten stages, chained row by row, are the
  network's ten stages, and its closing operations add the bias.
-/
import proofs.«126611_j34359738515_1_alg».proof.Proof.RefA
import proofs.«126611_j34359738515_1_alg».proof.Proof.RefB
import proofs.«126611_j34359738515_1_alg».proof.Proof.RefC
import proofs.«126611_j34359738515_1_alg».proof.Proof.RefX

noncomputable section

namespace Cert.ReferenceIdeal.Bfly

open Idealize.ShloMosaic Idealize.ShloMosaic.ValueIdx Cert.ReferenceIdeal Cert.ReferenceIdeal.Read Butterfly

/-- One more stage: if a row is the first `k` stages of the network on `xrow`, and the next row is stage `k` of it,
    then the next row is the first `k + 1` stages. -/
theorem chain_step (T : ℕ → ℕ → ℕ → ℕ → EReal) (k : ℕ) (hk : k < 10) (Rprev Rnext xrow : ℕ → EReal)
    (hprev : ∀ p', p' < 1024 → Rprev p' = netT T k xrow p')
    (hstage : ∀ p', p' < 1024 → Rnext p' = stageT (T k) k Rprev p') :
    ∀ p', p' < 1024 → Rnext p' = netT T (k + 1) xrow p' := by
  intro p' hp'
  rw [hstage p' hp', netT_succ]
  exact stageT_congr (N := 1024) (by interval_cases k <;> norm_num) (fun _ _ _ _ => rfl) hprev p' hp'

/-- THE REFERENCE'S RESULT is `G` of its three arguments. -/
theorem ref_eq (x0 : (⟨S32768x1024, .f32⟩ : BufTy).Contents (Elt Ideal)) (x1 : (⟨S1x10x512x2x2, .f32⟩ : BufTy).Contents (Elt Ideal)) (x2 : (⟨S1024, .f32⟩ : BufTy).Contents (Elt Ideal)) :
    val_main_v114 (F := Ideal) x0 x1 x2 = G x0 x1 x2 := by
  funext i
  obtain ⟨b, p, rfl⟩ : ∃ (b : Fin 32768) (p : Fin 1024), i = ix2 b p := ⟨i 0, i 1, eq_ix2 (n0 := 32768) (n1 := 1024) i⟩
  rw [ref_tail]
  show val_main_v110 (F := Ideal) x0 x1 (ix3 b 0 p) + rd S1024 x2 ![p.val]
    = netT (Ttw x1) 10 (fun p' => rd S32768x1024 x0 ![b.val, p']) p.val + rd S1024 x2 ![p.val]
  refine congrArg (· + rd S1024 x2 ![p.val]) ?_
  have h0 : ∀ p', p' < 1024 → rd S32768x1x1024 (val_main_v0 (F := Ideal) x0) ![b.val, 0, p']
      = netT (Ttw x1) 0 (fun p' => rd S32768x1024 x0 ![b.val, p']) p' := fun p' _ => ref_head x0 b p'
  have h1 : ∀ p', p' < 1024 → rd S32768x1x1024 (val_main_v11 (F := Ideal) x0 x1) ![b.val, 0, p']
      = netT (Ttw x1) 1 (fun p' => rd S32768x1024 x0 ![b.val, p']) p' :=
    chain_step (Ttw x1) 0 (by norm_num) _ _ _ h0 (fun p' hp' =>
      (rd_ix3 (val_main_v11 (F := Ideal) x0 x1) b (0 : Fin 1) (⟨p', hp'⟩ : Fin 1024)).trans (ref_stage0 x0 x1 b ⟨p', hp'⟩))
  have h2 : ∀ p', p' < 1024 → rd S32768x1x1024 (val_main_v22 (F := Ideal) x0 x1) ![b.val, 0, p']
      = netT (Ttw x1) 2 (fun p' => rd S32768x1024 x0 ![b.val, p']) p' :=
    chain_step (Ttw x1) 1 (by norm_num) _ _ _ h1 (fun p' hp' =>
      (rd_ix3 (val_main_v22 (F := Ideal) x0 x1) b (0 : Fin 1) (⟨p', hp'⟩ : Fin 1024)).trans (ref_stage1 x0 x1 b ⟨p', hp'⟩))
  have h3 : ∀ p', p' < 1024 → rd S32768x1x1024 (val_main_v33 (F := Ideal) x0 x1) ![b.val, 0, p']
      = netT (Ttw x1) 3 (fun p' => rd S32768x1024 x0 ![b.val, p']) p' :=
    chain_step (Ttw x1) 2 (by norm_num) _ _ _ h2 (fun p' hp' =>
      (rd_ix3 (val_main_v33 (F := Ideal) x0 x1) b (0 : Fin 1) (⟨p', hp'⟩ : Fin 1024)).trans (ref_stage2 x0 x1 b ⟨p', hp'⟩))
  have h4 : ∀ p', p' < 1024 → rd S32768x1x1024 (val_main_v44 (F := Ideal) x0 x1) ![b.val, 0, p']
      = netT (Ttw x1) 4 (fun p' => rd S32768x1024 x0 ![b.val, p']) p' :=
    chain_step (Ttw x1) 3 (by norm_num) _ _ _ h3 (fun p' hp' =>
      (rd_ix3 (val_main_v44 (F := Ideal) x0 x1) b (0 : Fin 1) (⟨p', hp'⟩ : Fin 1024)).trans (ref_stage3 x0 x1 b ⟨p', hp'⟩))
  have h5 : ∀ p', p' < 1024 → rd S32768x1x1024 (val_main_v55 (F := Ideal) x0 x1) ![b.val, 0, p']
      = netT (Ttw x1) 5 (fun p' => rd S32768x1024 x0 ![b.val, p']) p' :=
    chain_step (Ttw x1) 4 (by norm_num) _ _ _ h4 (fun p' hp' =>
      (rd_ix3 (val_main_v55 (F := Ideal) x0 x1) b (0 : Fin 1) (⟨p', hp'⟩ : Fin 1024)).trans (ref_stage4 x0 x1 b ⟨p', hp'⟩))
  have h6 : ∀ p', p' < 1024 → rd S32768x1x1024 (val_main_v66 (F := Ideal) x0 x1) ![b.val, 0, p']
      = netT (Ttw x1) 6 (fun p' => rd S32768x1024 x0 ![b.val, p']) p' :=
    chain_step (Ttw x1) 5 (by norm_num) _ _ _ h5 (fun p' hp' =>
      (rd_ix3 (val_main_v66 (F := Ideal) x0 x1) b (0 : Fin 1) (⟨p', hp'⟩ : Fin 1024)).trans (ref_stage5 x0 x1 b ⟨p', hp'⟩))
  have h7 : ∀ p', p' < 1024 → rd S32768x1x1024 (val_main_v77 (F := Ideal) x0 x1) ![b.val, 0, p']
      = netT (Ttw x1) 7 (fun p' => rd S32768x1024 x0 ![b.val, p']) p' :=
    chain_step (Ttw x1) 6 (by norm_num) _ _ _ h6 (fun p' hp' =>
      (rd_ix3 (val_main_v77 (F := Ideal) x0 x1) b (0 : Fin 1) (⟨p', hp'⟩ : Fin 1024)).trans (ref_stage6 x0 x1 b ⟨p', hp'⟩))
  have h8 : ∀ p', p' < 1024 → rd S32768x1x1024 (val_main_v88 (F := Ideal) x0 x1) ![b.val, 0, p']
      = netT (Ttw x1) 8 (fun p' => rd S32768x1024 x0 ![b.val, p']) p' :=
    chain_step (Ttw x1) 7 (by norm_num) _ _ _ h7 (fun p' hp' =>
      (rd_ix3 (val_main_v88 (F := Ideal) x0 x1) b (0 : Fin 1) (⟨p', hp'⟩ : Fin 1024)).trans (ref_stage7 x0 x1 b ⟨p', hp'⟩))
  have h9 : ∀ p', p' < 1024 → rd S32768x1x1024 (val_main_v99 (F := Ideal) x0 x1) ![b.val, 0, p']
      = netT (Ttw x1) 9 (fun p' => rd S32768x1024 x0 ![b.val, p']) p' :=
    chain_step (Ttw x1) 8 (by norm_num) _ _ _ h8 (fun p' hp' =>
      (rd_ix3 (val_main_v99 (F := Ideal) x0 x1) b (0 : Fin 1) (⟨p', hp'⟩ : Fin 1024)).trans (ref_stage8 x0 x1 b ⟨p', hp'⟩))
  have h10 : ∀ p', p' < 1024 → rd S32768x1x1024 (val_main_v110 (F := Ideal) x0 x1) ![b.val, 0, p']
      = netT (Ttw x1) 10 (fun p' => rd S32768x1024 x0 ![b.val, p']) p' :=
    chain_step (Ttw x1) 9 (by norm_num) _ _ _ h9 (fun p' hp' =>
      (rd_ix3 (val_main_v110 (F := Ideal) x0 x1) b (0 : Fin 1) (⟨p', hp'⟩ : Fin 1024)).trans (Cert.ReferenceIdeal.BflyX.ref_stage9 x0 x1 b ⟨p', hp'⟩))
  exact (rd_ix3 (val_main_v110 (F := Ideal) x0 x1) b (0 : Fin 1) p).symm.trans (h10 p.val p.isLt)

end Cert.ReferenceIdeal.Bfly

end
-- ==== Proof.lean ====
/-
  The certificate of the butterfly kernel against its reference.

  Both programs run a butterfly network on each row of `x : [32768, 1024]`: ten stages, stage `k` multiplying each
  pair of positions `(p, p + 2^k)` by a 2×2 matrix taken from the twiddle array at the pair's number, then the bias
  added. The kernel lays the matrix entries out per position beforehand (a gather at literal index tables) and
  fetches a pair's partner by rolling the row; the reference re-lays the row as `[blocks, 2, stride]` and contracts
  the axis of extent 2. Over the extended reals both are the one function `Butterfly.G` of the three arguments (Spec),
  term by term: each stage is a sum of the same two products, so no algebraic law beyond `0 + a = a` is used and the
  precondition is never opened.

  The frames of the two kernel programs are the library's frame run over the kernel body's triple (one store covering
  the output block); the reference's frame is its run with the result dropped; the ideal pass rewrote nothing.
-/
import proofs.«126611_j34359738515_1_alg».proof.Defs
import proofs.«126611_j34359738515_1_alg».proof.Proof.Gen.Kernel
import proofs.«126611_j34359738515_1_alg».proof.Proof.Gen.KernelIdeal
import proofs.«126611_j34359738515_1_alg».proof.Proof.Gen.ReferenceIdeal
import proofs.«126611_j34359738515_1_alg».proof.Proof.Gen.Pre_finite_inputs
import proofs.«126611_j34359738515_1_alg».proof.Proof.KbFrame
import proofs.«126611_j34359738515_1_alg».proof.Proof.KiFinal
import proofs.«126611_j34359738515_1_alg».proof.Proof.RefEq
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Bfly.frame m ρ
theorem frame_ki : Cert.frame_KernelIdeal := fun m ρ _ => Cert.KernelIdeal.Bfly.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at `G` of its arguments, the reference's at its composed term of arguments that
    agree with the kernel's, and that term is `G` of them. -/
theorem algebraic : Cert.algebraic_KernelIdeal_ReferenceIdeal := by
  intro m ρ m' ρ' _ hagree
  refine ⟨_, Cert.KernelIdeal.Bfly.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v114_eq, Cert.ReferenceIdeal.Bfly.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
